-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S512x64 : Shape := ⟨2, ![512, 64]⟩
abbrev S5000x1 : Shape := ⟨2, ![5000, 1]⟩
abbrev S5000x512 : Shape := ⟨2, ![5000, 512]⟩
abbrev S512 : Shape := ⟨1, ![512]⟩
abbrev S512x1 : Shape := ⟨2, ![512, 1]⟩

abbrev nBuf : Space → Nat
  | .hbm => 124
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S_, .i32⟩
  | .hbm, ⟨19, _⟩ => ⟨S850000, .i32⟩
  | .hbm, ⟨20, _⟩ => ⟨S850000, .i1⟩
  | .hbm, ⟨21, _⟩ => ⟨S_, .i32⟩
  | .hbm, ⟨22, _⟩ => ⟨S850000, .i32⟩
  | .hbm, ⟨23, _⟩ => ⟨S850000, .i32⟩
  | .hbm, ⟨24, _⟩ => ⟨S850000, .i32⟩
  | .hbm, ⟨25, _⟩ => ⟨S850000x1, .i32⟩
  | .hbm, ⟨26, _⟩ => ⟨S_, .f32⟩
  | .hbm, ⟨27, _⟩ => ⟨S850000, .f32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000, .f32⟩
  | .hbm, ⟨54, _⟩ => ⟨S850000, .f32⟩
  | .hbm, ⟨55, _⟩ => ⟨S50000x1, .i32⟩
  | .hbm, ⟨56, _⟩ => ⟨S50000x128, .f32⟩
  | .hbm, ⟨57, _⟩ => ⟨S_, .i32⟩
  | .hbm, ⟨58, _⟩ => ⟨S850000, .i32⟩
  | .hbm, ⟨59, _⟩ => ⟨S850000, .i1⟩
  | .hbm, ⟨60, _⟩ => ⟨S_, .i32⟩
  | .hbm, ⟨61, _⟩ => ⟨S850000, .i32⟩
  | .hbm, ⟨62, _⟩ => ⟨S850000, .i32⟩
  | .hbm, ⟨63, _⟩ => ⟨S850000, .i32⟩
  | .hbm, ⟨64, _⟩ => ⟨S850000x1, .i32⟩
  | .hbm, ⟨65, _⟩ => ⟨S850000x128, .f32⟩
  | .hbm, ⟨66, _⟩ => ⟨S850000x1, .f32⟩
  | .hbm, ⟨67, _⟩ => ⟨S850000x128, .f32⟩
  | .hbm, ⟨68, _⟩ => ⟨S850000x128, .f32⟩
  | .hbm, ⟨69, _⟩ => ⟨S_, .f32⟩
  | .hbm, ⟨70, _⟩ => ⟨S50000x128, .f32⟩
  | .hbm, ⟨71, _⟩ => ⟨S850000x1, .i32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x1, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x64, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000x64, .f32⟩
  | .hbm, ⟨102, _⟩ => ⟨S850000x1, .f32⟩
  | .hbm, ⟨103, _⟩ => ⟨S850000x64, .f32⟩
  | .hbm, ⟨104, _⟩ => ⟨S850000x64, .f32⟩
  | .hbm, ⟨105, _⟩ => ⟨S_, .f32⟩
  | .hbm, ⟨106, _⟩ => ⟨S50000x64, .f32⟩
  | .hbm, ⟨107, _⟩ => ⟨S850000x1, .i32⟩
  | .hbm, ⟨108, _⟩ => ⟨S50000x64, .f32⟩
  | .hbm, ⟨109, _⟩ => ⟨S1x64, .f32⟩
  | .hbm, ⟨110, _⟩ => ⟨S512x64, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S512, .f32⟩
  | .hbm, ⟨115, _⟩ => ⟨S50000x1, .i32⟩
  | .hbm, ⟨116, _⟩ => ⟨S512, .f32⟩
  | .hbm, ⟨117, _⟩ => ⟨S_, .f32⟩
  | .hbm, ⟨118, _⟩ => ⟨S_, .f32⟩
  | .hbm, ⟨119, _⟩ => ⟨S512, .f32⟩
  | .hbm, ⟨120, _⟩ => ⟨S512, .f32⟩
  | .hbm, ⟨121, _⟩ => ⟨S512x1, .f32⟩
  | .hbm, ⟨122, _⟩ => ⟨S512x64, .f32⟩
  | .hbm, ⟨123, _⟩ => ⟨S512x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x1, .i32⟩
  | .local _ .vmem, ⟨21, _⟩ => ⟨S5000x1, .i32⟩
  | .local _ .vmem, ⟨22, _⟩ => ⟨S512x64, .f32⟩
  | .local _ .vmem, ⟨23, _⟩ => ⟨S512x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_c_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_16 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_19 : Ref sig .tc := ⟨.hbm, 117, rfl⟩
abbrev main_call1_v0 : Ref sig .tc := ⟨.hbm, 118, rfl⟩
abbrev main_call1_v1 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_10 : BitVec 32 := 0#32
  let v26 : BitVec 1 := Scalar.cmpi .ne v25 c0_i32_10
  v26

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S512x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x512_S5000x64_S512x64_0_0_1_1_n_n_wf : DotDims.WF S5000x512 S5000x64 S512x64 [0] [0] [1] [1] [] []
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .i32 = 32 ∨ (Rect.block (s := S50000x1) S5000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S512x64.size a
  hwx3_3 : ∀ i : grid3.Coords, EltTy.bits .f32 = 32 ∨ (Rect.block (s := S512x64) S512x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v81) S512x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S512 : Shape := ⟨1, ![512]⟩
abbrev S50000x1 : Shape := ⟨2, ![50000, 1]⟩
abbrev S512x64 : Shape := ⟨2, ![512, 64]⟩
abbrev S512x1 : Shape := ⟨2, ![512, 1]⟩

abbrev nBuf : Space → Nat
  | .hbm => 225
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S50000, .i32⟩
  | 15 => ⟨S850000, .i32⟩
  | 16 => ⟨S850000, .i32⟩
  | 17 => ⟨S_, .f32⟩
  | 18 => ⟨S50000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S_, .f32⟩
  | 28 => ⟨S850000, .f32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000, .f32⟩
  | 56 => ⟨S850000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x1, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x128, .f32⟩
  | 80 => ⟨S50000, .i32⟩
  | 81 => ⟨S850000, .i32⟩
  | 82 => ⟨S850000, .i32⟩
  | 83 => ⟨S_, .f32⟩
  | 84 => ⟨S50000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S_, .f32⟩
  | 94 => ⟨S850000, .f32⟩
  | 95 => ⟨S50000, .f32⟩
  | 96 => ⟨S_, .f32⟩
  | 97 => ⟨S50000, .f32⟩
  | 98 => ⟨S50000, .i1⟩
  | 99 => ⟨S50000, .f32⟩
  | 100 => ⟨S_, .f32⟩
  | 101 => ⟨S_, .f32⟩
  | 102 => ⟨S50000, .f32⟩
  | 103 => ⟨S50000, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000, .f32⟩
  | 122 => ⟨S850000, .f32⟩
  | 123 => ⟨S_, .i32⟩
  | 124 => ⟨S850000, .i32⟩
  | 125 => ⟨S850000, .i1⟩
  | 126 => ⟨S_, .i32⟩
  | 127 => ⟨S850000, .i32⟩
  | _ => ⟨S50000x128, .f32⟩

abbrev hbmTy0_1 (i : Nat) : BufTy := match i % 128 with
  | 0 => ⟨S850000, .i32⟩
  | 1 => ⟨S850000, .i32⟩
  | 2 => ⟨S850000x1, .i32⟩
  | 3 => ⟨S850000x128, .f32⟩
  | 4 => ⟨S850000x1, .f32⟩
  | 5 => ⟨S850000x128, .f32⟩
  | 6 => ⟨S850000x128, .f32⟩
  | 7 => ⟨S_, .f32⟩
  | 8 => ⟨S50000x128, .f32⟩
  | 9 => ⟨S850000x1, .i32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S50000x64, .f32⟩
  | 18 => ⟨S50000, .i32⟩
  | 19 => ⟨S850000, .i32⟩
  | 20 => ⟨S850000, .i32⟩
  | 21 => ⟨S_, .f32⟩
  | 22 => ⟨S50000, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S_, .f32⟩
  | 32 => ⟨S850000, .f32⟩
  | 33 => ⟨S50000, .f32⟩
  | 34 => ⟨S_, .f32⟩
  | 35 => ⟨S50000, .f32⟩
  | 36 => ⟨S50000, .i1⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000, .f32⟩
  | 60 => ⟨S850000, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x64, .f32⟩
  | 70 => ⟨S850000x1, .f32⟩
  | 71 => ⟨S850000x64, .f32⟩
  | 72 => ⟨S850000x64, .f32⟩
  | 73 => ⟨S_, .f32⟩
  | 74 => ⟨S50000x64, .f32⟩
  | 75 => ⟨S850000x1, .i32⟩
  | 76 => ⟨S50000x64, .f32⟩
  | 77 => ⟨S1x64, .f32⟩
  | 78 => ⟨S50000x64, .f32⟩
  | 79 => ⟨S50000x64, .f32⟩
  | 80 => ⟨S_, .f32⟩
  | 81 => ⟨S50000, .f32⟩
  | 82 => ⟨S_, .f32⟩
  | 83 => ⟨S512, .f32⟩
  | 84 => ⟨S50000x1, .i32⟩
  | 85 => ⟨S512, .f32⟩
  | 86 => ⟨S_, .f32⟩
  | 87 => ⟨S512x64, .f32⟩
  | 88 => ⟨S50000x1, .i32⟩
  | 89 => ⟨S512x64, .f32⟩
  | 90 => ⟨S_, .f32⟩
  | 91 => ⟨S_, .f32⟩
  | 92 => ⟨S512, .f32⟩
  | 93 => ⟨S512, .f32⟩
  | 94 => ⟨S512x1, .f32⟩
  | 95 => ⟨S512x64, .f32⟩
  | 96 => ⟨S512x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_c_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_call2_v0 : Ref sig .tc := ⟨.hbm, 101, rfl⟩
abbrev main_call2_v1 : Ref sig .tc := ⟨.hbm, 102, rfl⟩
abbrev main_v69 : Ref sig .tc := ⟨.hbm, 103, rfl⟩
abbrev main_c_17 : Ref sig .tc := ⟨.hbm, 104, rfl⟩
abbrev main_v70 : Ref sig .tc := ⟨.hbm, 105, rfl⟩
abbrev main_v71 : Ref sig .tc := ⟨.hbm, 106, rfl⟩
abbrev main_c_18 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_19 : Ref sig .tc := ⟨.hbm, 113, rfl⟩
abbrev main_v77 : Ref sig .tc := ⟨.hbm, 114, rfl⟩
abbrev main_v78 : Ref sig .tc := ⟨.hbm, 115, rfl⟩
abbrev main_c_20 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_c_21 : Ref sig .tc := ⟨.hbm, 123, rfl⟩
abbrev main_v85 : Ref sig .tc := ⟨.hbm, 124, rfl⟩
abbrev main_v86 : Ref sig .tc := ⟨.hbm, 125, rfl⟩
abbrev main_c_22 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_23 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call3_cst : Ref sig .tc := ⟨.hbm, 142, rfl⟩
abbrev main_call3_v0 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_24 : Ref sig .tc := ⟨.hbm, 149, rfl⟩
abbrev main_v106 : Ref sig .tc := ⟨.hbm, 150, rfl⟩
abbrev main_c_25 : Ref sig .tc := ⟨.hbm, 151, rfl⟩
abbrev main_v107 : Ref sig .tc := ⟨.hbm, 152, rfl⟩
abbrev main_v108 : Ref sig .tc := ⟨.hbm, 153, rfl⟩
abbrev main_c_26 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_27 : Ref sig .tc := ⟨.hbm, 159, rfl⟩
abbrev main_v113 : Ref sig .tc := ⟨.hbm, 160, rfl⟩
abbrev main_v114 : Ref sig .tc := ⟨.hbm, 161, rfl⟩
abbrev main_cst_28 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_29 : Ref sig .tc := ⟨.hbm, 166, rfl⟩
abbrev main_call4_v0 : Ref sig .tc := ⟨.hbm, 167, rfl⟩
abbrev main_call4_v1 : Ref sig .tc := ⟨.hbm, 168, rfl⟩
abbrev main_v118 : Ref sig .tc := ⟨.hbm, 169, rfl⟩
abbrev main_c_30 : Ref sig .tc := ⟨.hbm, 170, rfl⟩
abbrev main_v119 : Ref sig .tc := ⟨.hbm, 171, rfl⟩
abbrev main_v120 : Ref sig .tc := ⟨.hbm, 172, rfl⟩
abbrev main_c_31 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_c_32 : Ref sig .tc := ⟨.hbm, 179, rfl⟩
abbrev main_v126 : Ref sig .tc := ⟨.hbm, 180, rfl⟩
abbrev main_v127 : Ref sig .tc := ⟨.hbm, 181, rfl⟩
abbrev main_c_33 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_c_34 : Ref sig .tc := ⟨.hbm, 189, rfl⟩
abbrev main_v134 : Ref sig .tc := ⟨.hbm, 190, rfl⟩
abbrev main_v135 : Ref sig .tc := ⟨.hbm, 191, rfl⟩
abbrev main_c_35 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_36 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_cst_37 : Ref sig .tc := ⟨.hbm, 208, rfl⟩
abbrev main_v150 : Ref sig .tc := ⟨.hbm, 209, rfl⟩
abbrev main_cst_38 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_cst_39 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_40 : Ref sig .tc := ⟨.hbm, 218, rfl⟩
abbrev main_call5_v0 : Ref sig .tc := ⟨.hbm, 219, rfl⟩
abbrev main_call5_v1 : Ref sig .tc := ⟨.hbm, 220, rfl⟩
abbrev main_v157 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512 : S_.BroadcastsInDim S512 (![] : Fin 0 → Fin S512.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf

class Facts : Prop extends Facts₀ where

variable [Facts]
-- ==== Proof.K.Lin0.lean ====
import proofs.«419337_j61838939128118_1_alg».proof.Proof.Gen.Kernel.Launch
import proofs.«419337_j61838939128118_1_alg».proof.Proof.Gen.Kernel.Skeleton
import proofs.«419337_j61838939128118_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of the first feature transform, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_out (c : Dev nD) (t : Fin cfg0.N) : (dat0 V c).after 2 t = k0_pay1 (blk0 V c 0 t) (blk0 V c 1 t) := by dsimp only [dat0]

/-- The zero offsets of a rank-two rectangle, as a constant function. -/
private theorem off00 : (![0, 0] : Fin 2 → Nat) = fun _ => 0 := funext fun a => by fin_cases a <;> rfl

/-- After ONE store through the full rectangle at offset zero a buffer reads as that store's payload, whatever it
    held before: the rectangle holds every index of the shape, so the single piece covers the buffer, whatever
    the shape and its extents. -/
private theorem read_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (p : S.Idx → Elt F e) :
    v.read (Elt F) (v.writes (Elt F) f [(⟨Rect.unit off S.size inb, p⟩ : View.Piece (Elt F) S e)]) = p :=
  (View.read_writes_eq_canon v f _ (fun y => ⟨_, List.mem_singleton_self _, View.mem_set_unit_zero h inb y⟩)).trans
    (View.canon_unit_zero h inb p)

set_option maxHeartbeats 1000000 in
/-- The first feature transform's body on whole staging memrefs: with the row block `x` and the weight `w` in the
    input buffers and anything in the output buffer, it ends with the inputs as they were and the output buffer at
    the matrix product `k0_pay1 x w`; two frames `R` and `Q` it does not touch (the pipeline's invariant and the
    core's debts) ride along. The body loads each buffer whole (through the full rectangle at offset zero, which
    reads the contents) and stores once through the full rectangle, which leaves exactly its payload. -/
theorem run0 (c : Dev nD) (i : grid0.Coords)
    (a1 : Memref sig .tc .vmem S5000x128 .f32) (h1 : a1.IsWhole)
    (a2 : Memref sig .tc .vmem S128x128 .f32) (h2 : a2.IsWhole)
    (a3 : Memref sig .tc .vmem S5000x128 .f32) (h3 : a3.IsWhole)
    (x : Vec F S5000x128 .f32) (w : Vec F S128x128 .f32) (R Q : sProp 𝕄) :
    iprop(R ∗ Q ∗ owns (c : Thread nD τ) a1 fullShare x ∗ owns (c : Thread nD τ) a2 fullShare w
        ∗ (∃ d, owns (c : Thread nD τ) a3 fullShare d))
      ⊢ wp frame (wpE (defs₀ (F := F)) Variants.none c none) Set.univ (cc0__linear_kernel i a1 h1 a2 h2 a3 h3)
          (fun _ => iprop(R ∗ Q ∗ owns (c : Thread nD τ) a1 fullShare x ∗ owns (c : Thread nD τ) a2 fullShare w
            ∗ owns (c : Thread nD τ) a3 fullShare (k0_pay1 x w))) := by
  simp only [cc0__linear_kernel_eq_skeleton]; unfold cc0__linear_kernel_skel
  unfold owns
  iintro ⟨HR, HQ, ⟨%f1, %hf1, H1⟩, ⟨%f2, %hf2, H2⟩, ⟨%d3, %f3, -, H3⟩⟩
  subst hf1 hf2
  sl_exec
  sl_step
  isplitl [HR]; · iexact HR
  isplitl [HQ]; · iexact HQ
  isplitl [H1]
  · iexists f1; isplitr; · ipureintro; rfl
    iexact H1
  isplitl [H2]
  · iexists f2; isplitr; · ipureintro; rfl
    iexact H2
  iexists _; isplitr
  swap; · iexact H3
  ipureintro
  -- the buffer reads as the store's payload, and each whole-buffer load had read its buffer's contents
  refine (read_whole_store _ _ off00 inb_S5000x128_S5000x128_0_0 _).trans ?_
  exact congrArg₂ k0_pay1
    (View.ld_unit_zero (S := S5000x128) off00 inb_S5000x128_S5000x128_0_0 _)
    (View.ld_unit_zero (S := S128x128) off00 inb_S128x128_S128x128_0_0 _)

/-! ## What the body finds in its input buffers -/

theorem dat0_in0 (c : Dev nD) (t : Fin cfg0.N) : (dat0 V c).after 0 t = blk0 V c 0 t := by dsimp only [dat0]
theorem dat0_in1 (c : Dev nD) (t : Fin cfg0.N) : (dat0 V c).after 1 t = blk0 V c 1 t := by dsimp only [dat0]

/-- The row-block window's buffer holds the point's block of `x` whenever the body runs: the window is an input,
    never idle and uncut, and the body leaves the block where it found it, so fetched at the point or not the buffer
    holds what a fetch there would put in it, which for an uncut window is the whole block. -/
theorem before0_0 (c : Dev nD) (t : Fin cfg0.N) (d : (cfg0.win 0).block.Idx → Elt F (cfg0.win 0).elt) :
    (dat0 V c).before 0 t d = blk0 V c 0 t := by
  have keep : ∀ u, (cfg0.win 0).cut (cfg0.grid.coords u) ((dat0 V c).after 0 u) = (dat0 V c).blockOf 0 u := fun u => by
    rw [dat0_in0]; unfold Dat.blockOf blk0; rw [dat0_A]
  rw [(dat0 V c).before_in_eq_fetched 0 rfl (fun _ => rfl) (fun _ _ _ => rfl) keep t d]
  unfold Dat.fetched Dat.blockOf blk0; rw [dat0_A]; rfl

/-- The weight window's buffer holds the whole weight at every point, though it is fetched at the first only: its
    block index never moves. -/
theorem before0_1 (c : Dev nD) (t : Fin cfg0.N) (d : (cfg0.win 1).block.Idx → Elt F (cfg0.win 1).elt) :
    (dat0 V c).before 1 t d = blk0 V c 1 t := by
  have keep : ∀ u, (cfg0.win 1).cut (cfg0.grid.coords u) ((dat0 V c).after 1 u) = (dat0 V c).blockOf 1 u := fun u => by
    rw [dat0_in1]; unfold Dat.blockOf blk0; rw [dat0_A]
  rw [(dat0 V c).before_in_eq_fetched 1 rfl (fun _ => rfl) (fun _ _ _ => rfl) keep t d]
  unfold Dat.fetched Dat.blockOf blk0; rw [dat0_A]; rfl

/-! ## The body obligation -/

/-- At every point the body, called on the three windows' current staging buffers, runs from the invariant, the
    core's debts and the buffers as the pipeline hands them over to the same invariant and debts (it touches
    neither) with the inputs' buffers unchanged and the output's at the product of the two input blocks. -/
theorem body0 (c : Dev nD) : BodyObligation (dat0 (F := F) V c) (defs₀ (F := F)) Variants.none () Set.univ := fun t => by
  rw [bigSep_W0, bigSep_W0]
  simp only [before0_0, before0_1]
  rw [show (dat0 V c).Φ t.succ = (dat0 V c).Φ t.castSucc from rfl,
    show (dat0 V c).owesAt () t.succ = (dat0 V c).owesAt () t.castSucc from rfl,
    dat0_in0, dat0_in1, dat0_out]
  show _ ⊢ wp frame (wpE (defs₀ (F := F)) Variants.none c none) Set.univ (bodyAt0 t) _
  iintro ⟨HΦ, Ho, ⟨%d0, H0⟩, ⟨%d1, H1⟩, ⟨%d2, H2⟩⟩
  iapply (run0 c (grid0.coords t) _ _ _ _ _ _ (blk0 V c 0 t) (blk0 V c 1 t)
    ((dat0 V c).Φ t.castSucc) ((dat0 V c).owesAt () t.castSucc))
  isplitl [HΦ]; · iexact HΦ
  isplitl [Ho]; · iexact Ho
  isplitl [H0]; · iexact H0
  isplitl [H1]; · iexact H1
  iexists _; iexact H2

end Cert.Kernel.Hand

end
-- ==== Proof.K.Lin1.lean ====
import proofs.«419337_j61838939128118_1_alg».proof.Proof.Gen.Kernel.Launch
import proofs.«419337_j61838939128118_1_alg».proof.Proof.Gen.Kernel.Skeleton
import proofs.«419337_j61838939128118_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of feature transform 1, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_out (c : Dev nD) (t : Fin cfg1.N) : (dat1 V c).after 3 t = k1_pay1 (blk1 V c 0 t) (blk1 V c 1 t) (blk1 V c 2 t) := by dsimp only [dat1]

/-- The zero offsets of a rank-two rectangle, as a constant function. -/
private theorem off00 : (![0, 0] : Fin 2 → Nat) = fun _ => 0 := funext fun a => by fin_cases a <;> rfl

/-- After ONE store through the full rectangle at offset zero a buffer reads as that store's payload, whatever it
    held before: the rectangle holds every index of the shape, so the single piece covers the buffer, whatever
    the shape and its extents. -/
private theorem read_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (p : S.Idx → Elt F e) :
    v.read (Elt F) (v.writes (Elt F) f [(⟨Rect.unit off S.size inb, p⟩ : View.Piece (Elt F) S e)]) = p :=
  (View.read_writes_eq_canon v f _ (fun y => ⟨_, List.mem_singleton_self _, View.mem_set_unit_zero h inb y⟩)).trans
    (View.canon_unit_zero h inb p)

set_option maxHeartbeats 1000000 in
/-- Feature transform 1's body on whole staging memrefs: with the row block `x`, the bias row `b` and the weight
    `w` in the input buffers and anything in the output buffer, it ends with the inputs as they were and the output
    buffer at `k1_pay1 x b w` (the block plus the bias, clamped below at zero, times the weight); two frames `R`
    and `Q` it does not touch (the pipeline's invariant and the core's debts) ride along. The body loads each buffer
    whole (through the full rectangle at offset zero, which reads the contents) and stores once through the full
    rectangle, which leaves exactly its payload. -/
theorem run1 (c : Dev nD) (i : grid1.Coords)
    (a1 : Memref sig .tc .vmem S5000x128 .f32) (h1 : a1.IsWhole)
    (a2 : Memref sig .tc .vmem S1x128 .f32) (h2 : a2.IsWhole)
    (a3 : Memref sig .tc .vmem S128x128 .f32) (h3 : a3.IsWhole)
    (a4 : Memref sig .tc .vmem S5000x128 .f32) (h4 : a4.IsWhole)
    (x : Vec F S5000x128 .f32) (b : Vec F S1x128 .f32) (w : Vec F S128x128 .f32) (R Q : sProp 𝕄) :
    iprop(R ∗ Q ∗ owns (c : Thread nD τ) a1 fullShare x ∗ owns (c : Thread nD τ) a2 fullShare b
        ∗ owns (c : Thread nD τ) a3 fullShare w ∗ (∃ d, owns (c : Thread nD τ) a4 fullShare d))
      ⊢ wp frame (wpE (defs₀ (F := F)) Variants.none c none) Set.univ
          (cc1__linear_prologue_kernel i a1 h1 a2 h2 a3 h3 a4 h4)
          (fun _ => iprop(R ∗ Q ∗ owns (c : Thread nD τ) a1 fullShare x ∗ owns (c : Thread nD τ) a2 fullShare b
            ∗ owns (c : Thread nD τ) a3 fullShare w ∗ owns (c : Thread nD τ) a4 fullShare (k1_pay1 x b w))) := by
  simp only [cc1__linear_prologue_kernel_eq_skeleton]; unfold cc1__linear_prologue_kernel_skel
  unfold owns
  iintro ⟨HR, HQ, ⟨%f1, %hf1, H1⟩, ⟨%f2, %hf2, H2⟩, ⟨%f3, %hf3, H3⟩, ⟨%d4, %f4, -, H4⟩⟩
  subst hf1 hf2 hf3
  sl_exec
  sl_step
  isplitl [HR]; · iexact HR
  isplitl [HQ]; · iexact HQ
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the buffer reads as the store's payload, and each whole-buffer load had read its buffer's contents
  refine (read_whole_store _ _ off00 inb_S5000x128_S5000x128_0_0 _).trans ?_
  have e1 := View.ld_unit_zero (S := S5000x128) off00 inb_S5000x128_S5000x128_0_0 (a1.view.read (Elt F) f1)
  have e2 := View.ld_unit_zero (S := S1x128) off00 inb_S1x128_S1x128_0_0 (a2.view.read (Elt F) f2)
  have e3 := View.ld_unit_zero (S := S128x128) off00 inb_S128x128_S128x128_0_0 (a3.view.read (Elt F) f3)
  exact (congrArg (fun y => k1_pay1 y _ _) e1).trans
    ((congrArg (fun y => k1_pay1 _ y _) e2).trans (congrArg (fun y => k1_pay1 _ _ y) e3))

/-! ## What the body finds in its input buffers -/

theorem dat1_in0 (c : Dev nD) (t : Fin cfg1.N) : (dat1 V c).after 0 t = blk1 V c 0 t := by dsimp only [dat1]
theorem dat1_in1 (c : Dev nD) (t : Fin cfg1.N) : (dat1 V c).after 1 t = blk1 V c 1 t := by dsimp only [dat1]
theorem dat1_in2 (c : Dev nD) (t : Fin cfg1.N) : (dat1 V c).after 2 t = blk1 V c 2 t := by dsimp only [dat1]

/-- The row-block window's buffer holds the point's block of the activations whenever the body runs: the window is
    an input, never idle and uncut, and the body leaves the block where it found it, so fetched at the point or not
    the buffer holds what a fetch there would put in it, which for an uncut window is the whole block. -/
theorem before1_0 (c : Dev nD) (t : Fin cfg1.N) (d : (cfg1.win 0).block.Idx → Elt F (cfg1.win 0).elt) :
    (dat1 V c).before 0 t d = blk1 V c 0 t := by
  have keep : ∀ u, (cfg1.win 0).cut (cfg1.grid.coords u) ((dat1 V c).after 0 u) = (dat1 V c).blockOf 0 u := fun u => by
    rw [dat1_in0]; unfold Dat.blockOf blk1; rw [dat1_A]
  rw [(dat1 V c).before_in_eq_fetched 0 rfl (fun _ => rfl) (fun _ _ _ => rfl) keep t d]
  unfold Dat.fetched Dat.blockOf blk1; rw [dat1_A]; rfl

/-- The bias window's buffer holds the whole bias row at every point, though it is fetched at the first only: its
    block index never moves. -/
theorem before1_1 (c : Dev nD) (t : Fin cfg1.N) (d : (cfg1.win 1).block.Idx → Elt F (cfg1.win 1).elt) :
    (dat1 V c).before 1 t d = blk1 V c 1 t := by
  have keep : ∀ u, (cfg1.win 1).cut (cfg1.grid.coords u) ((dat1 V c).after 1 u) = (dat1 V c).blockOf 1 u := fun u => by
    rw [dat1_in1]; unfold Dat.blockOf blk1; rw [dat1_A]
  rw [(dat1 V c).before_in_eq_fetched 1 rfl (fun _ => rfl) (fun _ _ _ => rfl) keep t d]
  unfold Dat.fetched Dat.blockOf blk1; rw [dat1_A]; rfl

/-- Likewise the weight window's buffer holds the whole weight at every point. -/
theorem before1_2 (c : Dev nD) (t : Fin cfg1.N) (d : (cfg1.win 2).block.Idx → Elt F (cfg1.win 2).elt) :
    (dat1 V c).before 2 t d = blk1 V c 2 t := by
  have keep : ∀ u, (cfg1.win 2).cut (cfg1.grid.coords u) ((dat1 V c).after 2 u) = (dat1 V c).blockOf 2 u := fun u => by
    rw [dat1_in2]; unfold Dat.blockOf blk1; rw [dat1_A]
  rw [(dat1 V c).before_in_eq_fetched 2 rfl (fun _ => rfl) (fun _ _ _ => rfl) keep t d]
  unfold Dat.fetched Dat.blockOf blk1; rw [dat1_A]; rfl

/-! ## The body obligation -/

/-- At every point the body, called on the four windows' current staging buffers, runs from the invariant, the
    core's debts and the buffers as the pipeline hands them over to the same invariant and debts (it touches
    neither) with the inputs' buffers unchanged and the output's at `k1_pay1` of the three input blocks. -/
theorem body1 (c : Dev nD) : BodyObligation (dat1 (F := F) V c) (defs₀ (F := F)) Variants.none () Set.univ := fun t => by
  rw [bigSep_W1, bigSep_W1]
  simp only [before1_0, before1_1, before1_2]
  rw [show (dat1 V c).Φ t.succ = (dat1 V c).Φ t.castSucc from rfl,
    show (dat1 V c).owesAt () t.succ = (dat1 V c).owesAt () t.castSucc from rfl,
    dat1_in0, dat1_in1, dat1_in2, dat1_out]
  show _ ⊢ wp frame (wpE (defs₀ (F := F)) Variants.none c none) Set.univ (bodyAt1 t) _
  iintro ⟨HΦ, Ho, ⟨%d0, H0⟩, ⟨%d1, H1⟩, ⟨%d2, H2⟩, ⟨%d3, H3⟩⟩
  iapply (run1 c (grid1.coords t) _ _ _ _ _ _ _ _ (blk1 V c 0 t) (blk1 V c 1 t) (blk1 V c 2 t)
    ((dat1 V c).Φ t.castSucc) ((dat1 V c).owesAt () t.castSucc))
  isplitl [HΦ]; · iexact HΦ
  isplitl [Ho]; · iexact Ho
  isplitl [H0]; · iexact H0
  isplitl [H1]; · iexact H1
  isplitl [H2]; · iexact H2
  iexists _; iexact H3

end Cert.Kernel.Hand

end
-- ==== Proof.K.Lin2.lean ====
import proofs.«419337_j61838939128118_1_alg».proof.Proof.Gen.Kernel.Launch
import proofs.«419337_j61838939128118_1_alg».proof.Proof.Gen.Kernel.Skeleton
import proofs.«419337_j61838939128118_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of feature transform 2, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => k2_pay1 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by dsimp only [dat2]
theorem dat2_out (c : Dev nD) (t : Fin cfg2.N) : (dat2 V c).after 3 t = k2_pay1 (blk2 V c 0 t) (blk2 V c 1 t) (blk2 V c 2 t) := by dsimp only [dat2]

/-- The zero offsets of a rank-two rectangle, as a constant function. -/
private theorem off00 : (![0, 0] : Fin 2 → Nat) = fun _ => 0 := funext fun a => by fin_cases a <;> rfl

/-- After ONE store through the full rectangle at offset zero a buffer reads as that store's payload, whatever it
    held before: the rectangle holds every index of the shape, so the single piece covers the buffer, whatever
    the shape and its extents. -/
private theorem read_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (p : S.Idx → Elt F e) :
    v.read (Elt F) (v.writes (Elt F) f [(⟨Rect.unit off S.size inb, p⟩ : View.Piece (Elt F) S e)]) = p :=
  (View.read_writes_eq_canon v f _ (fun y => ⟨_, List.mem_singleton_self _, View.mem_set_unit_zero h inb y⟩)).trans
    (View.canon_unit_zero h inb p)

set_option maxHeartbeats 1000000 in
/-- Feature transform 2's body on whole staging memrefs: with the row block `x`, the bias row `b` and the weight
    `w` in the input buffers and anything in the output buffer, it ends with the inputs as they were and the output
    buffer at `k2_pay1 x b w` (the block plus the bias, clamped below at zero, times the weight); two frames `R`
    and `Q` it does not touch (the pipeline's invariant and the core's debts) ride along. The body loads each buffer
    whole (through the full rectangle at offset zero, which reads the contents) and stores once through the full
    rectangle, which leaves exactly its payload. -/
theorem run2 (c : Dev nD) (i : grid2.Coords)
    (a1 : Memref sig .tc .vmem S5000x128 .f32) (h1 : a1.IsWhole)
    (a2 : Memref sig .tc .vmem S1x128 .f32) (h2 : a2.IsWhole)
    (a3 : Memref sig .tc .vmem S128x64 .f32) (h3 : a3.IsWhole)
    (a4 : Memref sig .tc .vmem S5000x64 .f32) (h4 : a4.IsWhole)
    (x : Vec F S5000x128 .f32) (b : Vec F S1x128 .f32) (w : Vec F S128x64 .f32) (R Q : sProp 𝕄) :
    iprop(R ∗ Q ∗ owns (c : Thread nD τ) a1 fullShare x ∗ owns (c : Thread nD τ) a2 fullShare b
        ∗ owns (c : Thread nD τ) a3 fullShare w ∗ (∃ d, owns (c : Thread nD τ) a4 fullShare d))
      ⊢ wp frame (wpE (defs₀ (F := F)) Variants.none c none) Set.univ
          (cc2__linear_prologue_kernel i a1 h1 a2 h2 a3 h3 a4 h4)
          (fun _ => iprop(R ∗ Q ∗ owns (c : Thread nD τ) a1 fullShare x ∗ owns (c : Thread nD τ) a2 fullShare b
            ∗ owns (c : Thread nD τ) a3 fullShare w ∗ owns (c : Thread nD τ) a4 fullShare (k2_pay1 x b w))) := by
  simp only [cc2__linear_prologue_kernel_eq_skeleton]; unfold cc2__linear_prologue_kernel_skel
  unfold owns
  iintro ⟨HR, HQ, ⟨%f1, %hf1, H1⟩, ⟨%f2, %hf2, H2⟩, ⟨%f3, %hf3, H3⟩, ⟨%d4, %f4, -, H4⟩⟩
  subst hf1 hf2 hf3
  sl_exec
  sl_step
  isplitl [HR]; · iexact HR
  isplitl [HQ]; · iexact HQ
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the buffer reads as the store's payload, and each whole-buffer load had read its buffer's contents
  refine (read_whole_store _ _ off00 inb_S5000x64_S5000x64_0_0 _).trans ?_
  have e1 := View.ld_unit_zero (S := S5000x128) off00 inb_S5000x128_S5000x128_0_0 (a1.view.read (Elt F) f1)
  have e2 := View.ld_unit_zero (S := S1x128) off00 inb_S1x128_S1x128_0_0 (a2.view.read (Elt F) f2)
  have e3 := View.ld_unit_zero (S := S128x64) off00 inb_S128x64_S128x64_0_0 (a3.view.read (Elt F) f3)
  exact (congrArg (fun y => k2_pay1 y _ _) e1).trans
    ((congrArg (fun y => k2_pay1 _ y _) e2).trans (congrArg (fun y => k2_pay1 _ _ y) e3))

/-! ## What the body finds in its input buffers -/

theorem dat2_in0 (c : Dev nD) (t : Fin cfg2.N) : (dat2 V c).after 0 t = blk2 V c 0 t := by dsimp only [dat2]
theorem dat2_in1 (c : Dev nD) (t : Fin cfg2.N) : (dat2 V c).after 1 t = blk2 V c 1 t := by dsimp only [dat2]
theorem dat2_in2 (c : Dev nD) (t : Fin cfg2.N) : (dat2 V c).after 2 t = blk2 V c 2 t := by dsimp only [dat2]

/-- The row-block window's buffer holds the point's block of the activations whenever the body runs: the window is
    an input, never idle and uncut, and the body leaves the block where it found it, so fetched at the point or not
    the buffer holds what a fetch there would put in it, which for an uncut window is the whole block. -/
theorem before2_0 (c : Dev nD) (t : Fin cfg2.N) (d : (cfg2.win 0).block.Idx → Elt F (cfg2.win 0).elt) :
    (dat2 V c).before 0 t d = blk2 V c 0 t := by
  have keep : ∀ u, (cfg2.win 0).cut (cfg2.grid.coords u) ((dat2 V c).after 0 u) = (dat2 V c).blockOf 0 u := fun u => by
    rw [dat2_in0]; unfold Dat.blockOf blk2; rw [dat2_A]
  rw [(dat2 V c).before_in_eq_fetched 0 rfl (fun _ => rfl) (fun _ _ _ => rfl) keep t d]
  unfold Dat.fetched Dat.blockOf blk2; rw [dat2_A]; rfl

/-- The bias window's buffer holds the whole bias row at every point, though it is fetched at the first only: its
    block index never moves. -/
theorem before2_1 (c : Dev nD) (t : Fin cfg2.N) (d : (cfg2.win 1).block.Idx → Elt F (cfg2.win 1).elt) :
    (dat2 V c).before 1 t d = blk2 V c 1 t := by
  have keep : ∀ u, (cfg2.win 1).cut (cfg2.grid.coords u) ((dat2 V c).after 1 u) = (dat2 V c).blockOf 1 u := fun u => by
    rw [dat2_in1]; unfold Dat.blockOf blk2; rw [dat2_A]
  rw [(dat2 V c).before_in_eq_fetched 1 rfl (fun _ => rfl) (fun _ _ _ => rfl) keep t d]
  unfold Dat.fetched Dat.blockOf blk2; rw [dat2_A]; rfl

/-- Likewise the weight window's buffer holds the whole weight at every point. -/
theorem before2_2 (c : Dev nD) (t : Fin cfg2.N) (d : (cfg2.win 2).block.Idx → Elt F (cfg2.win 2).elt) :
    (dat2 V c).before 2 t d = blk2 V c 2 t := by
  have keep : ∀ u, (cfg2.win 2).cut (cfg2.grid.coords u) ((dat2 V c).after 2 u) = (dat2 V c).blockOf 2 u := fun u => by
    rw [dat2_in2]; unfold Dat.blockOf blk2; rw [dat2_A]
  rw [(dat2 V c).before_in_eq_fetched 2 rfl (fun _ => rfl) (fun _ _ _ => rfl) keep t d]
  unfold Dat.fetched Dat.blockOf blk2; rw [dat2_A]; rfl

/-! ## The body obligation -/

/-- At every point the body, called on the four windows' current staging buffers, runs from the invariant, the
    core's debts and the buffers as the pipeline hands them over to the same invariant and debts (it touches
    neither) with the inputs' buffers unchanged and the output's at `k2_pay1` of the three input blocks. -/
theorem body2 (c : Dev nD) : BodyObligation (dat2 (F := F) V c) (defs₀ (F := F)) Variants.none () Set.univ := fun t => by
  rw [bigSep_W2, bigSep_W2]
  simp only [before2_0, before2_1, before2_2]
  rw [show (dat2 V c).Φ t.succ = (dat2 V c).Φ t.castSucc from rfl,
    show (dat2 V c).owesAt () t.succ = (dat2 V c).owesAt () t.castSucc from rfl,
    dat2_in0, dat2_in1, dat2_in2, dat2_out]
  show _ ⊢ wp frame (wpE (defs₀ (F := F)) Variants.none c none) Set.univ (bodyAt2 t) _
  iintro ⟨HΦ, Ho, ⟨%d0, H0⟩, ⟨%d1, H1⟩, ⟨%d2, H2⟩, ⟨%d3, H3⟩⟩
  iapply (run2 c (grid2.coords t) _ _ _ _ _ _ _ _ (blk2 V c 0 t) (blk2 V c 1 t) (blk2 V c 2 t)
    ((dat2 V c).Φ t.castSucc) ((dat2 V c).owesAt () t.castSucc))
  isplitl [HΦ]; · iexact HΦ
  isplitl [Ho]; · iexact Ho
  isplitl [H0]; · iexact H0
  isplitl [H1]; · iexact H1
  isplitl [H2]; · iexact H2
  iexists _; iexact H3

end Cert.Kernel.Hand

end
-- ==== Proof.K.Pool.lean ====
import proofs.«419337_j61838939128118_1_alg».proof.Proof.Gen.Kernel.Launch
import proofs.«419337_j61838939128118_1_alg».proof.Proof.Gen.Kernel.Skeleton
import proofs.«419337_j61838939128118_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the pooling body, over the grid

The body has two conditionals on the grid coordinate: the first resets the accumulator, the second copies the
accumulator into the output block. Over the ten points the first holds at point 0 only and the second at point 9 only. -/

/-- The first conditional's test as the body computes it from the grid coordinate: where it holds the accumulator is
    reset to zero before anything is added. -/
abbrev isFirst (i : grid3.Coords) : Prop :=
  (Scalar.cmpi .ne (Scalar.extui (Scalar.cmpi .eq (BitVec.ofNat 32 (i 0).val) 0#32)) 0#32) = 1#1
/-- It holds at the first point only. -/
theorem isFirst_iff : ∀ t : Fin cfg3.N, isFirst (grid3.coords t) ↔ t.val = 0 :=
  (by decide +kernel : ∀ t : Fin grid3.N, isFirst (grid3.coords t) ↔ t.val = 0)
/-- The second conditional's test: where it holds the accumulator is copied into the output block. -/
abbrev isLast (i : grid3.Coords) : Prop := k3_cond2 i = 1#1
/-- It holds at the last point only. -/
theorem isLast_iff : ∀ t : Fin cfg3.N, isLast (grid3.coords t) ↔ t.val = 9 :=
  (by decide +kernel : ∀ t : Fin grid3.N, isLast (grid3.coords t) ↔ t.val = 9)

/-- The inputs are live at every point. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Before the last point nothing is stored into the output block: the window is idle there, -/
theorem idle3_3 : ∀ t : Fin cfg3.N, t.val ≠ 9 → cfg3.idle 3 (grid3.coords t) = true := by decide +kernel
/-- and the block is not written back there; -/
theorem noFlush3_3 : ∀ t : Fin cfg3.N, t.val ≠ 9 → (cfg3.win 3).flush t = false := by decide +kernel
/-- at the last point it is live. -/
theorem live3_3 : ∀ t : Fin cfg3.N, t.val = 9 → cfg3.idle 3 (grid3.coords t) = false := by decide +kernel

/-! ## Reading a buffer back after a whole-block store -/

/-- The zero offsets of a rank-two rectangle, as the body's stores and loads spell them. -/
theorem zeros2 : (![0, 0] : Fin 2 → ℕ) = fun _ => 0 := by funext a; fin_cases a <;> rfl

/-- A store through the whole-shape rectangle at zero offsets, made LAST, is what the buffer then reads — whatever it
    held before and whatever the earlier stores were: every index lies under that store. -/
theorem read_writes_cons_whole {Val : EltTy → Type} {S : Shape} {e : EltTy} {sg : RefSig} {κ : Kind} {sp : Space}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The body on any whole memrefs, case by case

`x3`, `x5`, `x10` are what the three input buffers hold (the feature tile, the bias row, the segment ids of the
tile's rows), `s` what the accumulator holds, `xo` what the output buffer holds. In every case the accumulator ends
at `k3_pay2 x3 x5 x10 s'`: the tile's one-hot segment sums added onto `s'`, where `s'` is zero (`k3_pay1`) at the
first point — the reset comes first and the sum is then added onto what the reset left — and `s` elsewhere. The
output buffer is left as found, except at the last point, where it receives the accumulator's final contents. -/

set_option maxHeartbeats 1000000 in
/-- At the first point: the accumulator, whatever it held, ends at the tile's sums added onto zero. -/
theorem run_first (c : Dev nD) (i : grid3.Coords)
    (arg1 : Memref sig .tc .vmem S5000x64 .f32) (harg1 : arg1.IsWhole) (arg2 : Memref sig .tc .vmem S1x64 .f32) (harg2 : arg2.IsWhole)
    (arg3 : Memref sig .tc .vmem S5000x1 .i32) (harg3 : arg3.IsWhole) (arg4 : Memref sig .tc .vmem S512x64 .f32) (harg4 : arg4.IsWhole)
    (arg5 : Memref sig .tc .vmem S512x64 .f32) (harg5 : arg5.IsWhole) (h1 : isFirst i) (h2 : ¬isLast i)
    (x3 : Vec F S5000x64 .f32) (x5 : Vec F S1x64 .f32) (x10 : Vec F S5000x1 .i32) (xo : Vec F S512x64 .f32)
    (E : Set ℕ) (K : PUnit → sProp 𝕄) :
    iprop(owns (c : Thread nD τ) arg1 fullShare x3 ∗ owns (c : Thread nD τ) arg2 fullShare x5 ∗ owns (c : Thread nD τ) arg3 fullShare x10
        ∗ owns (c : Thread nD τ) arg4 fullShare xo ∗ (∃ s, owns (c : Thread nD τ) arg5 fullShare s)
        ∗ (iprop(owns (c : Thread nD τ) arg1 fullShare x3 ∗ owns (c : Thread nD τ) arg2 fullShare x5 ∗ owns (c : Thread nD τ) arg3 fullShare x10
            ∗ owns (c : Thread nD τ) arg4 fullShare xo ∗ owns (c : Thread nD τ) arg5 fullShare (k3_pay2 x3 x5 x10 (k3_pay1 (F := F)))) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%s, %f5, %hf5, H5⟩, Hk⟩
  obtain rfl := harg1.eq_unread hf1; obtain rfl := harg2.eq_unread hf2; obtain rfl := harg3.eq_unread hf3
  obtain rfl := harg4.eq_unread hf4
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  -- the update is the last store; the accumulator it loaded is what the reset, the only store before it, left
  rw [read_writes_cons_whole (S := S512x64) _ _ zeros2]
  sl_unfold_words
  rw [View.readCov_unit_zero (S := S512x64) _ zeros2]
  simp only [View.readAt_eq_ld, hf1, hf2, hf3, View.ld_unit_zero (S := S5000x64) zeros2, View.ld_unit_zero (S := S1x64) zeros2,
    View.ld_unit_zero (S := S5000x1) zeros2]

set_option maxHeartbeats 1000000 in
/-- At a point that is neither the first nor the last: the tile's sums are added onto the accumulator. -/
theorem run_mid (c : Dev nD) (i : grid3.Coords)
    (arg1 : Memref sig .tc .vmem S5000x64 .f32) (harg1 : arg1.IsWhole) (arg2 : Memref sig .tc .vmem S1x64 .f32) (harg2 : arg2.IsWhole)
    (arg3 : Memref sig .tc .vmem S5000x1 .i32) (harg3 : arg3.IsWhole) (arg4 : Memref sig .tc .vmem S512x64 .f32) (harg4 : arg4.IsWhole)
    (arg5 : Memref sig .tc .vmem S512x64 .f32) (harg5 : arg5.IsWhole) (h1 : ¬isFirst i) (h2 : ¬isLast i)
    (x3 : Vec F S5000x64 .f32) (x5 : Vec F S1x64 .f32) (x10 : Vec F S5000x1 .i32) (xo s : Vec F S512x64 .f32)
    (E : Set ℕ) (K : PUnit → sProp 𝕄) :
    iprop(owns (c : Thread nD τ) arg1 fullShare x3 ∗ owns (c : Thread nD τ) arg2 fullShare x5 ∗ owns (c : Thread nD τ) arg3 fullShare x10
        ∗ owns (c : Thread nD τ) arg4 fullShare xo ∗ owns (c : Thread nD τ) arg5 fullShare s
        ∗ (iprop(owns (c : Thread nD τ) arg1 fullShare x3 ∗ owns (c : Thread nD τ) arg2 fullShare x5 ∗ owns (c : Thread nD τ) arg3 fullShare x10
            ∗ owns (c : Thread nD τ) arg4 fullShare xo ∗ owns (c : Thread nD τ) arg5 fullShare (k3_pay2 x3 x5 x10 s)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [read_writes_cons_whole (S := S512x64) _ _ zeros2]
  simp only [View.readAt_eq_ld, hf1, hf2, hf3, hf5, View.ld_unit_zero (S := S5000x64) zeros2, View.ld_unit_zero (S := S1x64) zeros2,
    View.ld_unit_zero (S := S5000x1) zeros2, View.ld_unit_zero (S := S512x64) zeros2]

set_option maxHeartbeats 1000000 in
/-- At the last point: the tile's sums are added onto the accumulator, and the output buffer, whatever it held,
    receives the result. -/
theorem run_last (c : Dev nD) (i : grid3.Coords)
    (arg1 : Memref sig .tc .vmem S5000x64 .f32) (harg1 : arg1.IsWhole) (arg2 : Memref sig .tc .vmem S1x64 .f32) (harg2 : arg2.IsWhole)
    (arg3 : Memref sig .tc .vmem S5000x1 .i32) (harg3 : arg3.IsWhole) (arg4 : Memref sig .tc .vmem S512x64 .f32) (harg4 : arg4.IsWhole)
    (arg5 : Memref sig .tc .vmem S512x64 .f32) (harg5 : arg5.IsWhole) (h1 : ¬isFirst i) (h2 : isLast i)
    (x3 : Vec F S5000x64 .f32) (x5 : Vec F S1x64 .f32) (x10 : Vec F S5000x1 .i32) (s : Vec F S512x64 .f32)
    (E : Set ℕ) (K : PUnit → sProp 𝕄) :
    iprop(owns (c : Thread nD τ) arg1 fullShare x3 ∗ owns (c : Thread nD τ) arg2 fullShare x5 ∗ owns (c : Thread nD τ) arg3 fullShare x10
        ∗ (∃ xo, owns (c : Thread nD τ) arg4 fullShare xo) ∗ owns (c : Thread nD τ) arg5 fullShare s
        ∗ (iprop(owns (c : Thread nD τ) arg1 fullShare x3 ∗ owns (c : Thread nD τ) arg2 fullShare x5 ∗ owns (c : Thread nD τ) arg3 fullShare x10
            ∗ owns (c : Thread nD τ) arg4 fullShare (k3_pay2 x3 x5 x10 s) ∗ owns (c : Thread nD τ) arg5 fullShare (k3_pay2 x3 x5 x10 s)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f1, %hf1, H1⟩, ⟨%f2, %hf2, H2⟩, ⟨%f3, %hf3, H3⟩, ⟨%xo, %f4, %hf4, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    -- the output's one store carries the accumulator as loaded after the update: the update's payload
    rw [read_writes_cons_whole (S := S512x64) _ _ zeros2]
    sl_unfold_words
    rw [View.readCov_unit_zero (S := S512x64) _ zeros2]
    simp only [View.readAt_eq_ld, hf1, hf2, hf3, hf5, View.ld_unit_zero (S := S5000x64) zeros2, View.ld_unit_zero (S := S1x64) zeros2,
      View.ld_unit_zero (S := S5000x1) zeros2, View.ld_unit_zero (S := S512x64) zeros2]
  iexists _; isplitr
  swap; · iexact H5
  ipureintro
  sl_unfold_words
  rw [read_writes_cons_whole (S := S512x64) _ _ zeros2]
  simp only [View.readAt_eq_ld, hf1, hf2, hf3, hf5, View.ld_unit_zero (S := S5000x64) zeros2, View.ld_unit_zero (S := S1x64) zeros2,
    View.ld_unit_zero (S := S5000x1) zeros2, View.ld_unit_zero (S := S512x64) zeros2]

-- the TensorCore's buffer contents when the region is entered
variable (V : (c : Dev nD) → (b : Ref sig .tc) → Buf (Elt F) ((c : Thread nD τ).loc b))

/-- Window `w`'s block at point `t` of the pooling call, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator scratch as a whole memref. -/
abbrev scM3 : Memref sig .tc .vmem S512x64 .f32 := Memref.whole cc3_scratch0

/-- What the accumulator holds after the body at point `n`: the first point resets it to zero and adds its tile's
    partial sums, every later point adds its tile's onto what the point before left. -/
def accAt (c : Dev nD) : (n : ℕ) → n < cfg3.N → Vec F S512x64 .f32
  | 0, h => k3_pay2 (blk3 V c 0 ⟨0, h⟩) (blk3 V c 1 ⟨0, h⟩) (blk3 V c 2 ⟨0, h⟩) (k3_pay1 (F := F))
  | n + 1, h => k3_pay2 (blk3 V c 0 ⟨n + 1, h⟩) (blk3 V c 1 ⟨n + 1, h⟩) (blk3 V c 2 ⟨n + 1, h⟩) (accAt c n (Nat.lt_of_succ_lt h))

/-- The region's invariant before point `n`: before the first point nothing is known of the scoped buffers the
    pipeline does not stage; afterwards the accumulator holds `accAt (n - 1)`, the rest at anything. -/
def poolInv (c : Dev nD) : (n : ℕ) → n ≤ cfg3.N → sProp 𝕄
  | 0, _ => Pipeline.ΦA spec3 c
  | n + 1, hn => iprop(owns (c : Thread nD τ) scM3 fullShare (accAt V c n hn)
      ∗ Pipeline.scopedRestBut (Ix := Unit) (Name := ℕ) (U := UR sig nD τ) (Lvl := ℕ) (Val := Elt F) spec3 c [cc3_scratch0]
      ∗ (∃ r, prngReg c r))

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => accAt V c t.val t.isLt
  Φ t := poolInv V c t.val (Nat.le_of_lt_succ t.isLt)
  q _ := fullShare
  owed _ := 0

theorem dat3_A (c : Dev nD) (w : Fin cfg3.W) : (dat3 V c).A w = V c (Pipeline.arrRef spec3 w) := by dsimp only [dat3]
theorem dat3_out (c : Dev nD) (t : Fin cfg3.N) : (dat3 V c).after 3 t = accAt V c t.val t.isLt := by dsimp only [dat3]

/-! ## The accumulator's recursion and the invariant, read at a point -/

/-- At the first point the accumulator ends at the tile's sums added onto zero. -/
theorem accAt_first (c : Dev nD) (t : Fin cfg3.N) (h0 : t.val = 0) :
    accAt V c t.val t.isLt = k3_pay2 (blk3 V c 0 t) (blk3 V c 1 t) (blk3 V c 2 t) (k3_pay1 (F := F)) := by
  obtain ⟨n, hn⟩ := t
  cases n with
  | zero => rfl
  | succ n => exact absurd h0 (Nat.succ_ne_zero n)

/-- At every later point it ends at the tile's sums added onto what the point before left. -/
theorem accAt_later (c : Dev nD) (t : Fin cfg3.N) (h0 : t.val ≠ 0) :
    accAt V c t.val t.isLt = k3_pay2 (blk3 V c 0 t) (blk3 V c 1 t) (blk3 V c 2 t)
      (accAt V c (t.val - 1) (Nat.lt_of_le_of_lt (Nat.sub_le _ _) t.isLt)) := by
  obtain ⟨n, hn⟩ := t
  cases n with
  | zero => exact absurd rfl h0
  | succ n => rfl

theorem poolInv_zero (c : Dev nD) (n : ℕ) (h : n ≤ cfg3.N) (hz : n = 0) : poolInv V c n h = Pipeline.ΦA spec3 c := by
  subst hz; rfl

/-- After point `n` (before point `n + 1`): the accumulator at that point's contents. -/
theorem poolInv_succ (c : Dev nD) (n : ℕ) (hn : n < cfg3.N) :
    poolInv V c (n + 1) hn = iprop(owns (c : Thread nD τ) scM3 fullShare (accAt V c n hn)
      ∗ Pipeline.scopedRestBut (Ix := Unit) (Name := ℕ) (U := UR sig nD τ) (Lvl := ℕ) (Val := Elt F) spec3 c [cc3_scratch0]
      ∗ (∃ r, prngReg c r)) := rfl

/-- Before a point that is not the first: the accumulator at what the point before left. -/
theorem poolInv_pos (c : Dev nD) (n : ℕ) (h : n ≤ cfg3.N) (hz : n ≠ 0) :
    poolInv V c n h = iprop(owns (c : Thread nD τ) scM3 fullShare (accAt V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- The invariant at a point's start, restated at the point's position. -/
theorem inv_castSucc (c : Dev nD) (t : Fin cfg3.N) :
    (dat3 V c).Φ t.castSucc = poolInv V c t.val (Nat.le_of_lt t.isLt) := by
  dsimp only [dat3]; simp only [Fin.coe_castSucc]

/-- The launch's invariant with the accumulator split off the scoped rest and owned as a memref at some contents. -/
theorem inv_entry_eq (c : Dev nD) :
    (Pipeline.ΦA spec3 c : sProp 𝕄)
      = iprop(((∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA
  rw [Pipeline.scopedRest_split_of_list spec3 c [cc3_scratch0] (by decide) (by decide)]
  simp only [bigSepL_singleton, scM3, owns_whole]; try rfl

/-! ## What the body finds in the input buffers -/

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]

/-- An input's buffer holds its block at every point, fetched there or not: the body leaves the block in place, and
    where the pipeline does not fetch, the block index has not moved. -/
theorem before3_0 (c : Dev nD) (t : Fin cfg3.N) (d) : (dat3 V c).before 0 t d = blk3 V c 0 t :=
  ((dat3 V c).before_in_eq_fetched 0 rfl (fun _ => rfl) (fun _ _ _ => rfl)
      (fun t => by rw [after3_0]; unfold Dat.blockOf blk3; rw [dat3_A]; try rfl) t d).trans
    (by unfold Dat.fetched Dat.blockOf blk3; rw [dat3_A]; try rfl)
theorem before3_1 (c : Dev nD) (t : Fin cfg3.N) (d) : (dat3 V c).before 1 t d = blk3 V c 1 t :=
  ((dat3 V c).before_in_eq_fetched 1 rfl (fun _ => rfl) (fun _ _ _ => rfl)
      (fun t => by rw [after3_1]; unfold Dat.blockOf blk3; rw [dat3_A]; try rfl) t d).trans
    (by unfold Dat.fetched Dat.blockOf blk3; rw [dat3_A]; try rfl)
theorem before3_2 (c : Dev nD) (t : Fin cfg3.N) (d) : (dat3 V c).before 2 t d = blk3 V c 2 t :=
  ((dat3 V c).before_in_eq_fetched 2 rfl (fun _ => rfl) (fun _ _ _ => rfl)
      (fun t => by rw [after3_2]; unfold Dat.blockOf blk3; rw [dat3_A]; try rfl) t d).trans
    (by unfold Dat.fetched Dat.blockOf blk3; rw [dat3_A]; try rfl)

/-! ## The body obligation -/

/-- Each window's current staging memref at point `t`, as the pipeline passes it to the body, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x64 .f32 := win3_3.stage (cfg3.slots t 3)
abbrev hs3_3 (t : Fin cfg3.N) : (ms3_3 t).IsWhole := hstage3_3 ((cfg3.slots t 3).cast nbuf3_3)

/-- What the body is called with at point `t`: the invariant, what the core owes, and the four windows' buffers, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

/-- An input's buffer is left at its block. -/
theorem leaves3_0 (c : Dev nD) (t : Fin cfg3.N) :
    (dat3 V c).leavesExact 0 t = owns (c : Thread nD τ) (ms3_0 t) fullShare (blk3 V c 0 t) := by
  unfold Dat.leavesExact; rw [live3_0 t, after3_0]
theorem leaves3_1 (c : Dev nD) (t : Fin cfg3.N) :
    (dat3 V c).leavesExact 1 t = owns (c : Thread nD τ) (ms3_1 t) fullShare (blk3 V c 1 t) := by
  unfold Dat.leavesExact; rw [live3_1 t, after3_1]
theorem leaves3_2 (c : Dev nD) (t : Fin cfg3.N) :
    (dat3 V c).leavesExact 2 t = owns (c : Thread nD τ) (ms3_2 t) fullShare (blk3 V c 2 t) := by
  unfold Dat.leavesExact; rw [live3_2 t, after3_2]
/-- At the last point the output's buffer is left at the accumulator's final contents. -/
theorem leaves3_3_last (c : Dev nD) (t : Fin cfg3.N) (h9 : t.val = 9) :
    (dat3 V c).leavesExact 3 t = owns (c : Thread nD τ) (ms3_3 t) fullShare (accAt V c t.val t.isLt) := by
  unfold Dat.leavesExact; rw [live3_3 t h9, dat3_out]

set_option maxHeartbeats 4000000 in
/-- The body at any point. The inputs' buffers hold their blocks. At the first point the invariant hands the body the
    accumulator at anything and the body leaves it at the tile's sums over zero; at a later point the accumulator comes
    at what the point before left and the tile's sums are added onto it — in both cases `accAt` at the point, by its
    recursion. Before the last point the output's buffer goes back untouched; at the last point it receives the
    accumulator's contents, which is what the proof data names for it. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = poolInv V c (t.val + 1) t.isLt from rfl, poolInv_succ]
  rw [leaves3_0, leaves3_1, leaves3_2, inv_castSucc]
  have hN : t.val < 10 := lt_of_lt_of_eq t.isLt (show cfg3.N = 10 from N_3)
  by_cases h0 : t.val = 0
  · -- the first point
    have h9 : t.val ≠ 9 := by omega
    rw [Dat.leavesExact_idle (dat3 V c) 3 t (idle3_3 t h9) (noFlush3_3 t h9), accAt_first V c t h0,
      poolInv_zero V c _ _ h0, inv_entry_eq]
    iintro ⟨⟨⟨HS, HR⟩, Hg⟩, Ho, ⟨%d0, H0⟩, ⟨%d1, H1⟩, ⟨%d2, H2⟩, ⟨%d3, H3⟩⟩
    iapply (run_first c (grid3.coords t) (ms3_0 t) (hs3_0 t) (ms3_1 t) (hs3_1 t) (ms3_2 t) (hs3_2 t) (ms3_3 t) (hs3_3 t) scM3 (Memref.isWhole_whole _) ((isFirst_iff t).mpr h0) (fun h => h9 ((isLast_iff t).mp h))
      (blk3 V c 0 t) (blk3 V c 1 t) (blk3 V c 2 t) ((dat3 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexists _; iexact H3
  · rw [accAt_later V c t h0, poolInv_pos V c _ _ h0]
    by_cases h9 : t.val = 9
    · -- the last point
      rw [leaves3_3_last V c t h9, accAt_later V c t h0]
      iintro ⟨⟨HS, HR, Hg⟩, Ho, ⟨%d0, H0⟩, ⟨%d1, H1⟩, ⟨%d2, H2⟩, ⟨%d3, H3⟩⟩
      iapply (run_last c (grid3.coords t) (ms3_0 t) (hs3_0 t) (ms3_1 t) (hs3_1 t) (ms3_2 t) (hs3_2 t) (ms3_3 t) (hs3_3 t) scM3 (Memref.isWhole_whole _) (fun h => h0 ((isFirst_iff t).mp h)) ((isLast_iff t).mpr h9)
        (blk3 V c 0 t) (blk3 V c 1 t) (blk3 V c 2 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- a point in between
      rw [Dat.leavesExact_idle (dat3 V c) 3 t (idle3_3 t h9) (noFlush3_3 t h9)]
      iintro ⟨⟨HS, HR, Hg⟩, Ho, ⟨%d0, H0⟩, ⟨%d1, H1⟩, ⟨%d2, H2⟩, ⟨%d3, H3⟩⟩
      iapply (run_mid c (grid3.coords t) (ms3_0 t) (hs3_0 t) (ms3_1 t) (hs3_1 t) (ms3_2 t) (hs3_2 t) (ms3_3 t) (hs3_3 t) scM3 (Memref.isWhole_whole _) (fun h => h0 ((isFirst_iff t).mp h)) (fun h => h9 ((isLast_iff t).mp h))
        (blk3 V c 0 t) (blk3 V c 1 t) (blk3 V c 2 t) ((dat3 V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body3 (c : Dev nD) : BodyObligation (dat3 (F := F) V c) (defs₀ (F := F)) Variants.none () Set.univ := fun t => by
  rw [bigSep_W3, bigSep_W3]
  exact sound_body3 V c t

/-- What the launch hands the region is the invariant before the first point. -/
theorem pool_in (c : Dev nD) : Pipeline.ΦA spec3 c ⊢ (dat3 V c).Φ 0 := by
  rw [show (dat3 V c).Φ 0 = poolInv V c 0 (Nat.zero_le _) from rfl, poolInv_zero V c 0 _ rfl]
  try exact Idealize.SL.BI.Entails.refl _

/-- After the last point the invariant gives the scoped rest back, the accumulator's contents forgotten. -/
theorem pool_out (c : Dev nD) : (dat3 V c).Φ (Fin.last cfg3.N) ⊢ Pipeline.ΦA spec3 c := by
  rw [show (dat3 V c).Φ (Fin.last cfg3.N) = poolInv V c (Fin.last cfg3.N).val (Nat.le_of_lt_succ (Fin.last cfg3.N).isLt) from rfl,
    poolInv_pos V c _ _ (by rw [Fin.val_last]; have : cfg3.N = 10 := N_3; omega), inv_entry_eq]
  iintro ⟨HS, HR, Hg⟩
  isplitl [HS HR]
  · isplitl [HS]
    · iexists _; iexact HS
    iexact HR
  iexact Hg

end Cert.Kernel.Hand

end
-- ==== Proof.K.Segs.lean ====
import proofs.«419337_j61838939128118_1_alg».proof.Proof.Gen.Kernel.Launch
import proofs.«419337_j61838939128118_1_alg».proof.Proof.Gen.Kernel.Skeleton
import proofs.«419337_j61838939128118_1_alg».proof.Proof.Gen.Kernel.Points
import proofs.«419337_j61838939128118_1_alg».proof.Proof.Gen.Kernel.Regions
import proofs.«419337_j61838939128118_1_alg».proof.Proof.K.Lin0
import proofs.«419337_j61838939128118_1_alg».proof.Proof.K.Lin1
import proofs.«419337_j61838939128118_1_alg».proof.Proof.K.Lin2
import proofs.«419337_j61838939128118_1_alg».proof.Proof.K.Pool
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main's four pallas_calls as segments between its host stretches

The contents of every unscoped buffer between two items of @main are the generated valuations `Gen.V0 … Gen.V13`
over the unknowns `outs`; here `outs` is what the four calls really leave: call K's result array after its ten
write-backs, computed from the contents the call is entered with. -/

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-- `O` with the contents of `r` after item `J - 1` set to `x`. -/
def put (O : Gen.Outs (F := F)) (J : ℕ) (r : Ref sig .tc) (x : (c : Dev nD) → Buf (Elt F) ((c : Thread nD τ).loc r)) : Gen.Outs (F := F) :=
  fun J' r' c => if h : J' = J ∧ r' = r then h.2 ▸ x c else O J' r' c

theorem put_same (O : Gen.Outs (F := F)) (J : ℕ) (r : Ref sig .tc) (x : (c : Dev nD) → Buf (Elt F) ((c : Thread nD τ).loc r)) (c : Dev nD) :
    put O J r x J r c = x c := by
  unfold put; rw [dif_pos ⟨rfl, rfl⟩]

theorem put_other (O : Gen.Outs (F := F)) (J : ℕ) (r : Ref sig .tc) (x : (c : Dev nD) → Buf (Elt F) ((c : Thread nD τ).loc r))
    (J' : ℕ) (r' : Ref sig .tc) (c : Dev nD) (hJ : J' ≠ J) : put O J r x J' r' c = O J' r' c := by
  unfold put; rw [dif_neg fun h => hJ h.1]

/-- Nothing known yet: every entry at the launch contents (never read). -/
def O0 : Gen.Outs (F := F) := fun _ r c => m ((c : Thread nD τ).loc r)
/-- After the first transform: `main_v36` at what its ten blocks' write-backs leave. -/
def O1 : Gen.Outs (F := F) := put (O0 m) 4 main_v36 fun c => (dat0 (atRefs (Gen.V3 m)) c).arrAt 2 cfg0.N
/-- After the second transform: `main_v51`. -/
def O2 : Gen.Outs (F := F) := put (O1 m) 6 main_v51 fun c => (dat1 (atRefs (Gen.V5 m (O1 m))) c).arrAt 3 cfg1.N
/-- After the third transform: `main_v66`. -/
def O3 : Gen.Outs (F := F) := put (O2 m) 8 main_v66 fun c => (dat2 (atRefs (Gen.V7 m (O2 m))) c).arrAt 3 cfg2.N
/-- After the pooling call: `main_v81`. -/
def O4 : Gen.Outs (F := F) := put (O3 m) 10 main_v81 fun c => (dat3 (atRefs (Gen.V9 m (O3 m))) c).arrAt 3 cfg3.N
/-- What the four calls leave. -/
abbrev outs : Gen.Outs (F := F) := O4 m

theorem outs_4 (c : Dev nD) : outs m 4 main_v36 c = (dat0 (atRefs (Gen.V3 m)) c).arrAt 2 cfg0.N := by
  unfold outs O4 O3 O2 O1
  rw [put_other _ _ _ _ _ _ _ (by decide), put_other _ _ _ _ _ _ _ (by decide), put_other _ _ _ _ _ _ _ (by decide), put_same]
theorem O2_4 (c : Dev nD) : O2 m 4 main_v36 c = O1 m 4 main_v36 c := by
  unfold O2; rw [put_other _ _ _ _ _ _ _ (by decide)]
theorem O3_4 (c : Dev nD) : O3 m 4 main_v36 c = O1 m 4 main_v36 c := by
  unfold O3; rw [put_other _ _ _ _ _ _ _ (by decide), O2_4]
theorem O4_4 (c : Dev nD) : O4 m 4 main_v36 c = O1 m 4 main_v36 c := by
  unfold O4; rw [put_other _ _ _ _ _ _ _ (by decide), O3_4]
theorem O3_6 (c : Dev nD) : O3 m 6 main_v51 c = O2 m 6 main_v51 c := by
  unfold O3; rw [put_other _ _ _ _ _ _ _ (by decide)]
theorem O4_6 (c : Dev nD) : O4 m 6 main_v51 c = O2 m 6 main_v51 c := by
  unfold O4; rw [put_other _ _ _ _ _ _ _ (by decide), O3_6]
theorem O4_8 (c : Dev nD) : O4 m 8 main_v66 c = O3 m 8 main_v66 c := by
  unfold O4; rw [put_other _ _ _ _ _ _ _ (by decide)]

/-- The contents a later call is entered with read only the earlier calls' entries of `outs`. -/
theorem V4_outs (c : Dev nD) : Gen.V4 m (outs m) c = Gen.V4 m (O1 m) c := by
  show Function.update (Gen.V3 m c) _ (O4 m 4 main_v36 c) = Function.update (Gen.V3 m c) _ (O1 m 4 main_v36 c)
  rw [O4_4]
theorem V4_O2 (c : Dev nD) : Gen.V4 m (O2 m) c = Gen.V4 m (O1 m) c := by
  show Function.update (Gen.V3 m c) _ (O2 m 4 main_v36 c) = Function.update (Gen.V3 m c) _ (O1 m 4 main_v36 c)
  rw [O2_4]
theorem V4_O3 (c : Dev nD) : Gen.V4 m (O3 m) c = Gen.V4 m (O1 m) c := by
  show Function.update (Gen.V3 m c) _ (O3 m 4 main_v36 c) = Function.update (Gen.V3 m c) _ (O1 m 4 main_v36 c)
  rw [O3_4]
theorem V5_outs (c : Dev nD) : Gen.V5 m (outs m) c = Gen.V5 m (O1 m) c := by
  show StableHlo.after hostOps1 (Gen.V4 m (outs m) c) = StableHlo.after hostOps1 (Gen.V4 m (O1 m) c); rw [V4_outs]
theorem V5_O2 (c : Dev nD) : Gen.V5 m (O2 m) c = Gen.V5 m (O1 m) c := by
  show StableHlo.after hostOps1 (Gen.V4 m (O2 m) c) = StableHlo.after hostOps1 (Gen.V4 m (O1 m) c); rw [V4_O2]
theorem V5_O3 (c : Dev nD) : Gen.V5 m (O3 m) c = Gen.V5 m (O1 m) c := by
  show StableHlo.after hostOps1 (Gen.V4 m (O3 m) c) = StableHlo.after hostOps1 (Gen.V4 m (O1 m) c); rw [V4_O3]
theorem V6_outs (c : Dev nD) : Gen.V6 m (outs m) c = Gen.V6 m (O2 m) c := by
  show Function.update (Gen.V5 m (outs m) c) _ (O4 m 6 main_v51 c) = Function.update (Gen.V5 m (O2 m) c) _ (O2 m 6 main_v51 c)
  rw [O4_6, V5_outs, V5_O2]
theorem V6_O3 (c : Dev nD) : Gen.V6 m (O3 m) c = Gen.V6 m (O2 m) c := by
  show Function.update (Gen.V5 m (O3 m) c) _ (O3 m 6 main_v51 c) = Function.update (Gen.V5 m (O2 m) c) _ (O2 m 6 main_v51 c)
  rw [O3_6, V5_O3, V5_O2]
theorem V7_outs (c : Dev nD) : Gen.V7 m (outs m) c = Gen.V7 m (O2 m) c := by
  show StableHlo.after hostOps2 (Gen.V6 m (outs m) c) = StableHlo.after hostOps2 (Gen.V6 m (O2 m) c); rw [V6_outs]
theorem V7_O3 (c : Dev nD) : Gen.V7 m (O3 m) c = Gen.V7 m (O2 m) c := by
  show StableHlo.after hostOps2 (Gen.V6 m (O3 m) c) = StableHlo.after hostOps2 (Gen.V6 m (O2 m) c); rw [V6_O3]
theorem V8_outs (c : Dev nD) : Gen.V8 m (outs m) c = Gen.V8 m (O3 m) c := by
  show Function.update (Gen.V7 m (outs m) c) _ (O4 m 8 main_v66 c) = Function.update (Gen.V7 m (O3 m) c) _ (O3 m 8 main_v66 c)
  rw [O4_8, V7_outs, V7_O3]
theorem V9_outs (c : Dev nD) : Gen.V9 m (outs m) c = Gen.V9 m (O3 m) c := by
  show StableHlo.after hostOps3 (Gen.V8 m (outs m) c) = StableHlo.after hostOps3 (Gen.V8 m (O3 m) c); rw [V8_outs]

/-- What each call leaves in its result array, by the contents it is entered with. -/
theorem outs_6 (c : Dev nD) : outs m 6 main_v51 c = (dat1 (atRefs (Gen.V5 m (outs m))) c).arrAt 3 cfg1.N := by
  have h : (atRefs (Gen.V5 m (outs m)) : (c : Dev nD) → (b : Ref sig .tc) → Buf (Elt F) ((c : Thread nD τ).loc b)) = atRefs (Gen.V5 m (O1 m)) :=
    funext fun c => by unfold atRefs; rw [V5_outs]
  rw [h]; unfold outs; rw [O4_6]; unfold O2; rw [put_same]
theorem outs_8 (c : Dev nD) : outs m 8 main_v66 c = (dat2 (atRefs (Gen.V7 m (outs m))) c).arrAt 3 cfg2.N := by
  have h : (atRefs (Gen.V7 m (outs m)) : (c : Dev nD) → (b : Ref sig .tc) → Buf (Elt F) ((c : Thread nD τ).loc b)) = atRefs (Gen.V7 m (O2 m)) :=
    funext fun c => by unfold atRefs; rw [V7_outs]
  rw [h]; unfold outs; rw [O4_8]; unfold O3; rw [put_same]
theorem outs_10 (c : Dev nD) : outs m 10 main_v81 c = (dat3 (atRefs (Gen.V9 m (outs m))) c).arrAt 3 cfg3.N := by
  have h : (atRefs (Gen.V9 m (outs m)) : (c : Dev nD) → (b : Ref sig .tc) → Buf (Elt F) ((c : Thread nD τ).loc b)) = atRefs (Gen.V9 m (O3 m)) :=
    funext fun c => by unfold atRefs; rw [V9_outs]
  rw [h]; unfold outs O4; rw [put_same]

/-! ## The proof data family, the levels, what rides beside the buffers -/

/-- Every pipeline's proof data at the contents its call is entered with (a literal match on the pipeline). -/
def pdats : (p : Fin 4) → (c : Dev nD) → Dat τ (Elt F) Unit ℕ (UR sig nD τ) ℕ (Pipeline.pin (pcfgs (F := F)) Gen.adm p) c
  | ⟨0, _⟩ => fun c => dat0 (atRefs (Gen.V3 m)) c
  | ⟨1, _⟩ => fun c => dat1 (atRefs (Gen.V5 m (outs m))) c
  | ⟨2, _⟩ => fun c => dat2 (atRefs (Gen.V7 m (outs m))) c
  | ⟨3, _⟩ => fun c => dat3 (atRefs (Gen.V9 m (outs m))) c

/-- No core owes another anything: no level is assigned. -/
abbrev Lz : GSem nD τ sig → Finset Unit := fun _ => ∅
abbrev lvz : GSem nD τ sig → Unit → ℕ := fun _ _ => 0

/-- What rides beside the unscoped buffers through every item: the generator register at some state and the core owing
    nothing. -/
abbrev rest (c : Dev nD) : sProp 𝕄 := iprop((∃ r, prngReg c r) ∗ ∃ W, owes (c : Thread nD τ) (0 : CellTallies nD τ sig Unit) W)

/-! ## What a call leaves: its result array at `outs`, every other buffer as entered -/

set_option maxHeartbeats 1000000 in
theorem left0_in0 (c : Dev nD) : (pdats m 0 c).arrAt 0 cfg0.N = Gen.V4 m (outs m) c main_arg0 :=
  ((pdats m 0 c).arrAt_in 0 rfl _).trans (Gen.V4_of m (outs m) c main_arg0 (by decide)).symm
set_option maxHeartbeats 1000000 in
theorem left0_in1 (c : Dev nD) : (pdats m 0 c).arrAt 1 cfg0.N = Gen.V4 m (outs m) c main_arg3 :=
  ((pdats m 0 c).arrAt_in 1 rfl _).trans (Gen.V4_of m (outs m) c main_arg3 (by decide)).symm
set_option maxHeartbeats 1000000 in
theorem left0_out (c : Dev nD) : (pdats m 0 c).arrAt 2 cfg0.N = Gen.V4 m (outs m) c main_v36 :=
  (outs_4 m c).symm.trans (Function.update_self (f := Gen.V3 m c) (Proc.devRef .tc main_v36) (outs m 4 main_v36 c)).symm
set_option maxHeartbeats 1000000 in
theorem left0 (c : Dev nD) (w : Fin cfg0.W) : (pdats m 0 c).arrAt w cfg0.N = atRefs (Gen.V4 m (outs m)) c (Pipeline.arrRef spec0 w) := by
  fin_cases w
  · exact left0_in0 m c
  · exact left0_in1 m c
  · exact left0_out m c
theorem kept0 (c : Dev nD) : ∀ b, b ∉ Finset.univ.image (Pipeline.arrRef spec0) → atRefs (Gen.V4 m (outs m)) c b = atRefs (Gen.V3 m) c b :=
  fun b hb => Gen.V4_of m (outs m) c b fun h => hb (Finset.mem_image.mpr ⟨2, Finset.mem_univ _, (List.mem_singleton.mp h).symm⟩)

set_option maxHeartbeats 1000000 in
theorem left1_in0 (c : Dev nD) : (pdats m 1 c).arrAt 0 cfg1.N = Gen.V6 m (outs m) c main_v49 :=
  ((pdats m 1 c).arrAt_in 0 rfl _).trans (Gen.V6_of m (outs m) c main_v49 (by decide)).symm
set_option maxHeartbeats 1000000 in
theorem left1_in1 (c : Dev nD) : (pdats m 1 c).arrAt 1 cfg1.N = Gen.V6 m (outs m) c main_v50 :=
  ((pdats m 1 c).arrAt_in 1 rfl _).trans (Gen.V6_of m (outs m) c main_v50 (by decide)).symm
set_option maxHeartbeats 1000000 in
theorem left1_in2 (c : Dev nD) : (pdats m 1 c).arrAt 2 cfg1.N = Gen.V6 m (outs m) c main_arg5 :=
  ((pdats m 1 c).arrAt_in 2 rfl _).trans (Gen.V6_of m (outs m) c main_arg5 (by decide)).symm
set_option maxHeartbeats 1000000 in
theorem left1_out (c : Dev nD) : (pdats m 1 c).arrAt 3 cfg1.N = Gen.V6 m (outs m) c main_v51 :=
  (outs_6 m c).symm.trans (Function.update_self (f := Gen.V5 m (outs m) c) (Proc.devRef .tc main_v51) (outs m 6 main_v51 c)).symm
set_option maxHeartbeats 1000000 in
theorem left1 (c : Dev nD) (w : Fin cfg1.W) : (pdats m 1 c).arrAt w cfg1.N = atRefs (Gen.V6 m (outs m)) c (Pipeline.arrRef spec1 w) := by
  fin_cases w
  · exact left1_in0 m c
  · exact left1_in1 m c
  · exact left1_in2 m c
  · exact left1_out m c
theorem kept1 (c : Dev nD) : ∀ b, b ∉ Finset.univ.image (Pipeline.arrRef spec1) → atRefs (Gen.V6 m (outs m)) c b = atRefs (Gen.V5 m (outs m)) c b :=
  fun b hb => Gen.V6_of m (outs m) c b fun h => hb (Finset.mem_image.mpr ⟨3, Finset.mem_univ _, (List.mem_singleton.mp h).symm⟩)

set_option maxHeartbeats 1000000 in
theorem left2_in0 (c : Dev nD) : (pdats m 2 c).arrAt 0 cfg2.N = Gen.V8 m (outs m) c main_v64 :=
  ((pdats m 2 c).arrAt_in 0 rfl _).trans (Gen.V8_of m (outs m) c main_v64 (by decide)).symm
set_option maxHeartbeats 1000000 in
theorem left2_in1 (c : Dev nD) : (pdats m 2 c).arrAt 1 cfg2.N = Gen.V8 m (outs m) c main_v65 :=
  ((pdats m 2 c).arrAt_in 1 rfl _).trans (Gen.V8_of m (outs m) c main_v65 (by decide)).symm
set_option maxHeartbeats 1000000 in
theorem left2_in2 (c : Dev nD) : (pdats m 2 c).arrAt 2 cfg2.N = Gen.V8 m (outs m) c main_arg7 :=
  ((pdats m 2 c).arrAt_in 2 rfl _).trans (Gen.V8_of m (outs m) c main_arg7 (by decide)).symm
set_option maxHeartbeats 1000000 in
theorem left2_out (c : Dev nD) : (pdats m 2 c).arrAt 3 cfg2.N = Gen.V8 m (outs m) c main_v66 :=
  (outs_8 m c).symm.trans (Function.update_self (f := Gen.V7 m (outs m) c) (Proc.devRef .tc main_v66) (outs m 8 main_v66 c)).symm
set_option maxHeartbeats 1000000 in
theorem left2 (c : Dev nD) (w : Fin cfg2.W) : (pdats m 2 c).arrAt w cfg2.N = atRefs (Gen.V8 m (outs m)) c (Pipeline.arrRef spec2 w) := by
  fin_cases w
  · exact left2_in0 m c
  · exact left2_in1 m c
  · exact left2_in2 m c
  · exact left2_out m c
theorem kept2 (c : Dev nD) : ∀ b, b ∉ Finset.univ.image (Pipeline.arrRef spec2) → atRefs (Gen.V8 m (outs m)) c b = atRefs (Gen.V7 m (outs m)) c b :=
  fun b hb => Gen.V8_of m (outs m) c b fun h => hb (Finset.mem_image.mpr ⟨3, Finset.mem_univ _, (List.mem_singleton.mp h).symm⟩)

set_option maxHeartbeats 1000000 in
theorem left3_in0 (c : Dev nD) : (pdats m 3 c).arrAt 0 cfg3.N = Gen.V10 m (outs m) c main_v79 :=
  ((pdats m 3 c).arrAt_in 0 rfl _).trans (Gen.V10_of m (outs m) c main_v79 (by decide)).symm
set_option maxHeartbeats 1000000 in
theorem left3_in1 (c : Dev nD) : (pdats m 3 c).arrAt 1 cfg3.N = Gen.V10 m (outs m) c main_v80 :=
  ((pdats m 3 c).arrAt_in 1 rfl _).trans (Gen.V10_of m (outs m) c main_v80 (by decide)).symm
set_option maxHeartbeats 1000000 in
theorem left3_in2 (c : Dev nD) : (pdats m 3 c).arrAt 2 cfg3.N = Gen.V10 m (outs m) c main_v35 :=
  ((pdats m 3 c).arrAt_in 2 rfl _).trans (Gen.V10_of m (outs m) c main_v35 (by decide)).symm
set_option maxHeartbeats 1000000 in
theorem left3_out (c : Dev nD) : (pdats m 3 c).arrAt 3 cfg3.N = Gen.V10 m (outs m) c main_v81 :=
  (outs_10 m c).symm.trans (Function.update_self (f := Gen.V9 m (outs m) c) (Proc.devRef .tc main_v81) (outs m 10 main_v81 c)).symm
set_option maxHeartbeats 1000000 in
theorem left3 (c : Dev nD) (w : Fin cfg3.W) : (pdats m 3 c).arrAt w cfg3.N = atRefs (Gen.V10 m (outs m)) c (Pipeline.arrRef spec3 w) := by
  fin_cases w
  · exact left3_in0 m c
  · exact left3_in1 m c
  · exact left3_in2 m c
  · exact left3_out m c
theorem kept3 (c : Dev nD) : ∀ b, b ∉ Finset.univ.image (Pipeline.arrRef spec3) → atRefs (Gen.V10 m (outs m)) c b = atRefs (Gen.V9 m (outs m)) c b :=
  fun b hb => Gen.V10_of m (outs m) c b fun h => hb (Finset.mem_image.mpr ⟨3, Finset.mem_univ _, (List.mem_singleton.mp h).symm⟩)

/-! ## The four calls as segments -/

-- unifying a library lemma stated at `pin pcs a p` with the printed configuration unfolds plain definitions in a metavariable's type
set_option backward.isDefEq.respectTransparency.types false in
/-- Pallas call 0 as a segment of @main: entered with every unscoped buffer at `Gen.V3 m`, left with them at `Gen.V4 m (outs m)`,
    which differs from the entry contents only at the call's result array; the generator register passes through the
    kernel's invariant, nothing is owed, the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body0 (atRefs (Gen.V3 m)) c).loose
  hwaits := Pipeline.hwaits_of_owed_zero _ _ _ _ Lz lvz 0 fun _ _ => rfl
  pre c := iprop(StableHlo.held (c : Thread nD τ) (Pipeline.ucRefs τ sig) (Gen.V3 m c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (atRefs (Gen.V3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atRefs (Gen.V3 m) c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m 0 c).Φ 0 = Pipeline.ΦA spec0 c from rfl]; unfold Pipeline.ΦA
    iintro ⟨Hg, -, Hr⟩
    isplitl [Hr]; · iexact Hr
    iexact Hg
  hout c := by
    rw [Pipeline.ownSems0_none]
    rw [show (pdats m 0 c).Φ (Fin.last _) = Pipeline.ΦA spec0 c from rfl]; unfold Pipeline.ΦA
    iintro ⟨Hr, Hg⟩
    isplitl [Hg]; · iexact Hg
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atRefs (Gen.V3 m) c) (atRefs (Gen.V4 m (outs m)) c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated at `pin pcs a p` with the printed configuration unfolds plain definitions in a metavariable's type
set_option backward.isDefEq.respectTransparency.types false in
/-- Pallas call 1 as a segment of @main: entered with every unscoped buffer at `Gen.V5 m (outs m)`, left with them at `Gen.V6 m (outs m)`,
    which differs from the entry contents only at the call's result array; the generator register passes through the
    kernel's invariant, nothing is owed, the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body1 (atRefs (Gen.V5 m (outs m))) c).loose
  hwaits := Pipeline.hwaits_of_owed_zero _ _ _ _ Lz lvz 1 fun _ _ => rfl
  pre c := iprop(StableHlo.held (c : Thread nD τ) (Pipeline.ucRefs τ sig) (Gen.V5 m (outs m) c) ∗ rest c)
  post c := iprop(StableHlo.held (c : Thread nD τ) (Pipeline.ucRefs τ sig) (Gen.V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (atRefs (Gen.V5 m (outs m)) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atRefs (Gen.V5 m (outs m)) c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m 1 c).Φ 0 = Pipeline.ΦA spec1 c from rfl]; unfold Pipeline.ΦA
    iintro ⟨Hg, -, Hr⟩
    isplitl [Hr]; · iexact Hr
    iexact Hg
  hout c := by
    rw [Pipeline.ownSems0_none]
    rw [show (pdats m 1 c).Φ (Fin.last _) = Pipeline.ΦA spec1 c from rfl]; unfold Pipeline.ΦA
    iintro ⟨Hr, Hg⟩
    isplitl [Hg]; · iexact Hg
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atRefs (Gen.V5 m (outs m)) c) (atRefs (Gen.V6 m (outs m)) c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated at `pin pcs a p` with the printed configuration unfolds plain definitions in a metavariable's type
set_option backward.isDefEq.respectTransparency.types false in
/-- Pallas call 2 as a segment of @main: entered with every unscoped buffer at `Gen.V7 m (outs m)`, left with them at `Gen.V8 m (outs m)`,
    which differs from the entry contents only at the call's result array; the generator register passes through the
    kernel's invariant, nothing is owed, the kernel has no semaphore of its own. -/
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body2 (atRefs (Gen.V7 m (outs m))) c).loose
  hwaits := Pipeline.hwaits_of_owed_zero _ _ _ _ Lz lvz 2 fun _ _ => rfl
  pre c := iprop(StableHlo.held (c : Thread nD τ) (Pipeline.ucRefs τ sig) (Gen.V7 m (outs m) c) ∗ rest c)
  post c := iprop(StableHlo.held (c : Thread nD τ) (Pipeline.ucRefs τ sig) (Gen.V8 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (atRefs (Gen.V7 m (outs m)) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atRefs (Gen.V7 m (outs m)) c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m 2 c).Φ 0 = Pipeline.ΦA spec2 c from rfl]; unfold Pipeline.ΦA
    iintro ⟨Hg, -, Hr⟩
    isplitl [Hr]; · iexact Hr
    iexact Hg
  hout c := by
    rw [Pipeline.ownSems0_none]
    rw [show (pdats m 2 c).Φ (Fin.last _) = Pipeline.ΦA spec2 c from rfl]; unfold Pipeline.ΦA
    iintro ⟨Hr, Hg⟩
    isplitl [Hg]; · iexact Hg
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atRefs (Gen.V7 m (outs m)) c) (atRefs (Gen.V8 m (outs m)) c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated at `pin pcs a p` with the printed configuration unfolds plain definitions in a metavariable's type
set_option backward.isDefEq.respectTransparency.types false in
/-- Pallas call 3 as a segment of @main: entered with every unscoped buffer at `Gen.V9 m (outs m)`, left with them at `Gen.V10 m (outs m)`,
    which differs from the entry contents only at the call's result array; the generator register passes through the
    kernel's invariant, nothing is owed, the kernel has no semaphore of its own. -/
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body3 (atRefs (Gen.V9 m (outs m))) c).loose
  hwaits := Pipeline.hwaits_of_owed_zero _ _ _ _ Lz lvz 3 fun _ _ => rfl
  pre c := iprop(StableHlo.held (c : Thread nD τ) (Pipeline.ucRefs τ sig) (Gen.V9 m (outs m) c) ∗ rest c)
  post c := iprop(StableHlo.held (c : Thread nD τ) (Pipeline.ucRefs τ sig) (Gen.V10 m (outs m) c) ∗ rest c)
  X c := iprop(∃ r, prngReg c r)
  Y c := iprop(∃ r, prngReg c r)
  Z c := Pipeline.unscopedRest (Ix := Unit) (Name := ℕ) (U := UR sig nD τ) (Lvl := ℕ) spec3 c (atRefs (Gen.V9 m (outs m)) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atRefs (Gen.V9 m (outs m)) c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    refine BIBase.Entails.trans ?_ (pool_in (atRefs (Gen.V9 m (outs m))) c)
    unfold Pipeline.ΦA
    iintro ⟨Hg, -, Hr⟩
    isplitl [Hr]; · iexact Hr
    iexact Hg
  hout c := by
    rw [Pipeline.ownSems0_none]
    refine BIBase.Entails.trans (pool_out (atRefs (Gen.V9 m (outs m))) c) ?_
    unfold Pipeline.ΦA
    iintro ⟨Hr, Hg⟩
    isplitl [Hg]; · iexact Hg
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atRefs (Gen.V9 m (outs m)) c) (atRefs (Gen.V10 m (outs m)) c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.RunAll.lean ====
import proofs.«419337_j61838939128118_1_alg».proof.Proof.Gen.Kernel.Launch
import proofs.«419337_j61838939128118_1_alg».proof.Proof.Gen.Kernel.Skeleton
import proofs.«419337_j61838939128118_1_alg».proof.Proof.Gen.Kernel.Points
import proofs.«419337_j61838939128118_1_alg».proof.Proof.K.Segs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: every unscoped buffer read back at the last valuation -/

variable (m : (ℓ : Loc nD τ sig) → Buf (Elt F) ℓ) (ρ : Dev nD → PrngReg)

/-- The rest state between any two items. -/
abbrev rests : Fin 5 → Dev nD → sProp 𝕄 := fun _ c => rest c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding plain
-- definitions in a metavariable's type
set_option backward.isDefEq.respectTransparency.types false in
/-- From any memory with zero counters every weakly fair execution of @main terminates, and in every final state each
    unscoped buffer of every core holds what the last valuation `Gen.V13 m (outs m) c` says: the launch contents pushed
    through the host stretches and the four calls. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V13 m (outs m) c b) := by
  refine Pipeline.θ_run_regions_kit_dev (pcfgs (F := F)) Gen.adm (pdats m) () cellOf_inj emb₁ defs₀ Variants.none Lz lvz m ρ main
    (Gen.segs m (outs m) Variants.none Lz lvz rests () (pdats m) (reg0 m) (reg1 m) (reg2 m) (reg3 m))
    (fun c Q => by
      rewrite [main_chain c, Pipeline.Seg.run_eq_chain,
        show (Gen.segs m (outs m) Variants.none Lz lvz rests () (pdats m) (reg0 m) (reg1 m) (reg2 m) (reg3 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => iprop(StableHlo.held (c : Thread nD τ) (Pipeline.ucRefs τ sig) (Gen.V13 m (outs m) c) ∗ ∃ r, prngReg c r))
    (hch := fun c => ⟨.rfl, .rfl, .rfl, .rfl, .rfl, .rfl, .rfl, .rfl, .rfl, .rfl, .rfl, .rfl, .rfl, ?_⟩)
    (hinit := ?_)
    (QY := fun c s => ∀ b ∈ Pipeline.ucRefs τ sig, s.mem (((c : Thread nD τ)).1, b) = Gen.V13 m (outs m) c b)
    (hfin := fun c s' => ?_) (hQ := fun _ h => h)
  · -- the last item's thread state is the buffers, the register, and the core owing nothing
    show (iprop(StableHlo.held (c : Thread nD τ) (Pipeline.ucRefs τ sig) (Gen.V13 m (outs m) c) ∗ rest c) : sProp 𝕄)
      ⊢ iprop((StableHlo.held (c : Thread nD τ) (Pipeline.ucRefs τ sig) (Gen.V13 m (outs m) c) ∗ ∃ r, prngReg c r)
          ∗ ∃ W, owes (c : Thread nD τ) (0 : CellTallies nD τ sig Unit) W)
    iintro ⟨Hh, Hg, HO⟩
    isplitl [Hh Hg]
    · isplitl [Hh] <;> iassumption
    iexact HO
  · -- the launch: each core's unscoped buffers are held at the launch contents, its register and its empty tallies ride along
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the held buffers read against the final state
    iintro ⟨⟨Hh, -⟩, HSI⟩
    unfold StableHlo.held
    imodintro
    iapply (pointsTo_read_all (Pipeline.ucRefs τ sig) (fun b => (((c : Thread nD τ)).1, b)) (Gen.V13 m (outs m) c) s')
    isplitl [Hh] <;> iassumption

/-- The frame: every argument array ends as launched (no host stretch writes one, no call may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c),
     (h c _ (mem_uc main_arg6 (by decide))).trans (Gen.V13_main_arg6 m (outs m) c),
     (h c _ (mem_uc main_arg7 (by decide))).trans (Gen.V13_main_arg7 m (outs m) c),
     (h c _ (mem_uc main_arg8 (by decide))).trans (Gen.V13_main_arg8 m (outs m) c)⟩) (run_all m ρ)

end Cert.Kernel.Hand

end
-- ==== Proof.KI.Lin0.lean ====
import proofs.«419337_j61838939128118_1_alg».proof.Proof.Gen.KernelIdeal.Launch
import proofs.«419337_j61838939128118_1_alg».proof.Proof.Gen.KernelIdeal.Skeleton
import proofs.«419337_j61838939128118_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of the first feature transform, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by dsimp only [dat0]
theorem dat0_out (c : Dev nD) (t : Fin cfg0.N) : (dat0 V c).after 2 t = k0_pay1 (blk0 V c 0 t) (blk0 V c 1 t) := by dsimp only [dat0]

/-- The zero offsets of a rank-two rectangle, as a constant function. -/
private theorem off00 : (![0, 0] : Fin 2 → Nat) = fun _ => 0 := funext fun a => by fin_cases a <;> rfl

/-- After ONE store through the full rectangle at offset zero a buffer reads as that store's payload, whatever it
    held before: the rectangle holds every index of the shape, so the single piece covers the buffer, whatever
    the shape and its extents. -/
private theorem read_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (p : S.Idx → Elt F e) :
    v.read (Elt F) (v.writes (Elt F) f [(⟨Rect.unit off S.size inb, p⟩ : View.Piece (Elt F) S e)]) = p :=
  (View.read_writes_eq_canon v f _ (fun y => ⟨_, List.mem_singleton_self _, View.mem_set_unit_zero h inb y⟩)).trans
    (View.canon_unit_zero h inb p)

set_option maxHeartbeats 1000000 in
/-- The first feature transform's body on whole staging memrefs: with the row block `x` and the weight `w` in the
    input buffers and anything in the output buffer, it ends with the inputs as they were and the output buffer at
    the matrix product `k0_pay1 x w`; two frames `R` and `Q` it does not touch (the pipeline's invariant and the
    core's debts) ride along. The body loads each buffer whole (through the full rectangle at offset zero, which
    reads the contents) and stores once through the full rectangle, which leaves exactly its payload. -/
theorem run0 (c : Dev nD) (i : grid0.Coords)
    (a1 : Memref sig .tc .vmem S5000x128 .f32) (h1 : a1.IsWhole)
    (a2 : Memref sig .tc .vmem S128x128 .f32) (h2 : a2.IsWhole)
    (a3 : Memref sig .tc .vmem S5000x128 .f32) (h3 : a3.IsWhole)
    (x : Vec F S5000x128 .f32) (w : Vec F S128x128 .f32) (R Q : sProp 𝕄) :
    iprop(R ∗ Q ∗ owns (c : Thread nD τ) a1 fullShare x ∗ owns (c : Thread nD τ) a2 fullShare w
        ∗ (∃ d, owns (c : Thread nD τ) a3 fullShare d))
      ⊢ wp frame (wpE (defs₀ (F := F)) Variants.none c none) Set.univ (cc0__linear_kernel i a1 h1 a2 h2 a3 h3)
          (fun _ => iprop(R ∗ Q ∗ owns (c : Thread nD τ) a1 fullShare x ∗ owns (c : Thread nD τ) a2 fullShare w
            ∗ owns (c : Thread nD τ) a3 fullShare (k0_pay1 x w))) := by
  simp only [cc0__linear_kernel_eq_skeleton]; unfold cc0__linear_kernel_skel
  unfold owns
  iintro ⟨HR, HQ, ⟨%f1, %hf1, H1⟩, ⟨%f2, %hf2, H2⟩, ⟨%d3, %f3, -, H3⟩⟩
  subst hf1 hf2
  sl_exec
  sl_step
  isplitl [HR]; · iexact HR
  isplitl [HQ]; · iexact HQ
  isplitl [H1]
  · iexists f1; isplitr; · ipureintro; rfl
    iexact H1
  isplitl [H2]
  · iexists f2; isplitr; · ipureintro; rfl
    iexact H2
  iexists _; isplitr
  swap; · iexact H3
  ipureintro
  -- the buffer reads as the store's payload, and each whole-buffer load had read its buffer's contents
  refine (read_whole_store _ _ off00 inb_S5000x128_S5000x128_0_0 _).trans ?_
  exact congrArg₂ k0_pay1
    (View.ld_unit_zero (S := S5000x128) off00 inb_S5000x128_S5000x128_0_0 _)
    (View.ld_unit_zero (S := S128x128) off00 inb_S128x128_S128x128_0_0 _)

/-! ## What the body finds in its input buffers -/

theorem dat0_in0 (c : Dev nD) (t : Fin cfg0.N) : (dat0 V c).after 0 t = blk0 V c 0 t := by dsimp only [dat0]
theorem dat0_in1 (c : Dev nD) (t : Fin cfg0.N) : (dat0 V c).after 1 t = blk0 V c 1 t := by dsimp only [dat0]

/-- The row-block window's buffer holds the point's block of `x` whenever the body runs: the window is an input,
    never idle and uncut, and the body leaves the block where it found it, so fetched at the point or not the buffer
    holds what a fetch there would put in it, which for an uncut window is the whole block. -/
theorem before0_0 (c : Dev nD) (t : Fin cfg0.N) (d : (cfg0.win 0).block.Idx → Elt F (cfg0.win 0).elt) :
    (dat0 V c).before 0 t d = blk0 V c 0 t := by
  have keep : ∀ u, (cfg0.win 0).cut (cfg0.grid.coords u) ((dat0 V c).after 0 u) = (dat0 V c).blockOf 0 u := fun u => by
    rw [dat0_in0]; unfold Dat.blockOf blk0; rw [dat0_A]
  rw [(dat0 V c).before_in_eq_fetched 0 rfl (fun _ => rfl) (fun _ _ _ => rfl) keep t d]
  unfold Dat.fetched Dat.blockOf blk0; rw [dat0_A]; rfl

/-- The weight window's buffer holds the whole weight at every point, though it is fetched at the first only: its
    block index never moves. -/
theorem before0_1 (c : Dev nD) (t : Fin cfg0.N) (d : (cfg0.win 1).block.Idx → Elt F (cfg0.win 1).elt) :
    (dat0 V c).before 1 t d = blk0 V c 1 t := by
  have keep : ∀ u, (cfg0.win 1).cut (cfg0.grid.coords u) ((dat0 V c).after 1 u) = (dat0 V c).blockOf 1 u := fun u => by
    rw [dat0_in1]; unfold Dat.blockOf blk0; rw [dat0_A]
  rw [(dat0 V c).before_in_eq_fetched 1 rfl (fun _ => rfl) (fun _ _ _ => rfl) keep t d]
  unfold Dat.fetched Dat.blockOf blk0; rw [dat0_A]; rfl

/-! ## The body obligation -/

/-- At every point the body, called on the three windows' current staging buffers, runs from the invariant, the
    core's debts and the buffers as the pipeline hands them over to the same invariant and debts (it touches
    neither) with the inputs' buffers unchanged and the output's at the product of the two input blocks. -/
theorem body0 (c : Dev nD) : BodyObligation (dat0 (F := F) V c) (defs₀ (F := F)) Variants.none () Set.univ := fun t => by
  rw [bigSep_W0, bigSep_W0]
  simp only [before0_0, before0_1]
  rw [show (dat0 V c).Φ t.succ = (dat0 V c).Φ t.castSucc from rfl,
    show (dat0 V c).owesAt () t.succ = (dat0 V c).owesAt () t.castSucc from rfl,
    dat0_in0, dat0_in1, dat0_out]
  show _ ⊢ wp frame (wpE (defs₀ (F := F)) Variants.none c none) Set.univ (bodyAt0 t) _
  iintro ⟨HΦ, Ho, ⟨%d0, H0⟩, ⟨%d1, H1⟩, ⟨%d2, H2⟩⟩
  iapply (run0 c (grid0.coords t) _ _ _ _ _ _ (blk0 V c 0 t) (blk0 V c 1 t)
    ((dat0 V c).Φ t.castSucc) ((dat0 V c).owesAt () t.castSucc))
  isplitl [HΦ]; · iexact HΦ
  isplitl [Ho]; · iexact Ho
  isplitl [H0]; · iexact H0
  isplitl [H1]; · iexact H1
  iexists _; iexact H2

end Cert.KernelIdeal.Hand

end
-- ==== Proof.KI.Lin1.lean ====
import proofs.«419337_j61838939128118_1_alg».proof.Proof.Gen.KernelIdeal.Launch
import proofs.«419337_j61838939128118_1_alg».proof.Proof.Gen.KernelIdeal.Skeleton
import proofs.«419337_j61838939128118_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of feature transform 1, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => k1_pay1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by dsimp only [dat1]
theorem dat1_out (c : Dev nD) (t : Fin cfg1.N) : (dat1 V c).after 3 t = k1_pay1 (blk1 V c 0 t) (blk1 V c 1 t) (blk1 V c 2 t) := by dsimp only [dat1]

/-- The zero offsets of a rank-two rectangle, as a constant function. -/
private theorem off00 : (![0, 0] : Fin 2 → Nat) = fun _ => 0 := funext fun a => by fin_cases a <;> rfl

/-- After ONE store through the full rectangle at offset zero a buffer reads as that store's payload, whatever it
    held before: the rectangle holds every index of the shape, so the single piece covers the buffer, whatever
    the shape and its extents. -/
private theorem read_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (p : S.Idx → Elt F e) :
    v.read (Elt F) (v.writes (Elt F) f [(⟨Rect.unit off S.size inb, p⟩ : View.Piece (Elt F) S e)]) = p :=
  (View.read_writes_eq_canon v f _ (fun y => ⟨_, List.mem_singleton_self _, View.mem_set_unit_zero h inb y⟩)).trans
    (View.canon_unit_zero h inb p)

set_option maxHeartbeats 1000000 in
/-- Feature transform 1's body on whole staging memrefs: with the row block `x`, the bias row `b` and the weight
    `w` in the input buffers and anything in the output buffer, it ends with the inputs as they were and the output
    buffer at `k1_pay1 x b w` (the block plus the bias, clamped below at zero, times the weight); two frames `R`
    and `Q` it does not touch (the pipeline's invariant and the core's debts) ride along. The body loads each buffer
    whole (through the full rectangle at offset zero, which reads the contents) and stores once through the full
    rectangle, which leaves exactly its payload. -/
theorem run1 (c : Dev nD) (i : grid1.Coords)
    (a1 : Memref sig .tc .vmem S5000x128 .f32) (h1 : a1.IsWhole)
    (a2 : Memref sig .tc .vmem S1x128 .f32) (h2 : a2.IsWhole)
    (a3 : Memref sig .tc .vmem S128x128 .f32) (h3 : a3.IsWhole)
    (a4 : Memref sig .tc .vmem S5000x128 .f32) (h4 : a4.IsWhole)
    (x : Vec F S5000x128 .f32) (b : Vec F S1x128 .f32) (w : Vec F S128x128 .f32) (R Q : sProp 𝕄) :
    iprop(R ∗ Q ∗ owns (c : Thread nD τ) a1 fullShare x ∗ owns (c : Thread nD τ) a2 fullShare b
        ∗ owns (c : Thread nD τ) a3 fullShare w ∗ (∃ d, owns (c : Thread nD τ) a4 fullShare d))
      ⊢ wp frame (wpE (defs₀ (F := F)) Variants.none c none) Set.univ
          (cc1__linear_prologue_kernel i a1 h1 a2 h2 a3 h3 a4 h4)
          (fun _ => iprop(R ∗ Q ∗ owns (c : Thread nD τ) a1 fullShare x ∗ owns (c : Thread nD τ) a2 fullShare b
            ∗ owns (c : Thread nD τ) a3 fullShare w ∗ owns (c : Thread nD τ) a4 fullShare (k1_pay1 x b w))) := by
  simp only [cc1__linear_prologue_kernel_eq_skeleton]; unfold cc1__linear_prologue_kernel_skel
  unfold owns
  iintro ⟨HR, HQ, ⟨%f1, %hf1, H1⟩, ⟨%f2, %hf2, H2⟩, ⟨%f3, %hf3, H3⟩, ⟨%d4, %f4, -, H4⟩⟩
  subst hf1 hf2 hf3
  sl_exec
  sl_step
  isplitl [HR]; · iexact HR
  isplitl [HQ]; · iexact HQ
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the buffer reads as the store's payload, and each whole-buffer load had read its buffer's contents
  refine (read_whole_store _ _ off00 inb_S5000x128_S5000x128_0_0 _).trans ?_
  have e1 := View.ld_unit_zero (S := S5000x128) off00 inb_S5000x128_S5000x128_0_0 (a1.view.read (Elt F) f1)
  have e2 := View.ld_unit_zero (S := S1x128) off00 inb_S1x128_S1x128_0_0 (a2.view.read (Elt F) f2)
  have e3 := View.ld_unit_zero (S := S128x128) off00 inb_S128x128_S128x128_0_0 (a3.view.read (Elt F) f3)
  exact (congrArg (fun y => k1_pay1 y _ _) e1).trans
    ((congrArg (fun y => k1_pay1 _ y _) e2).trans (congrArg (fun y => k1_pay1 _ _ y) e3))

/-! ## What the body finds in its input buffers -/

theorem dat1_in0 (c : Dev nD) (t : Fin cfg1.N) : (dat1 V c).after 0 t = blk1 V c 0 t := by dsimp only [dat1]
theorem dat1_in1 (c : Dev nD) (t : Fin cfg1.N) : (dat1 V c).after 1 t = blk1 V c 1 t := by dsimp only [dat1]
theorem dat1_in2 (c : Dev nD) (t : Fin cfg1.N) : (dat1 V c).after 2 t = blk1 V c 2 t := by dsimp only [dat1]

/-- The row-block window's buffer holds the point's block of the activations whenever the body runs: the window is
    an input, never idle and uncut, and the body leaves the block where it found it, so fetched at the point or not
    the buffer holds what a fetch there would put in it, which for an uncut window is the whole block. -/
theorem before1_0 (c : Dev nD) (t : Fin cfg1.N) (d : (cfg1.win 0).block.Idx → Elt F (cfg1.win 0).elt) :
    (dat1 V c).before 0 t d = blk1 V c 0 t := by
  have keep : ∀ u, (cfg1.win 0).cut (cfg1.grid.coords u) ((dat1 V c).after 0 u) = (dat1 V c).blockOf 0 u := fun u => by
    rw [dat1_in0]; unfold Dat.blockOf blk1; rw [dat1_A]
  rw [(dat1 V c).before_in_eq_fetched 0 rfl (fun _ => rfl) (fun _ _ _ => rfl) keep t d]
  unfold Dat.fetched Dat.blockOf blk1; rw [dat1_A]; rfl

/-- The bias window's buffer holds the whole bias row at every point, though it is fetched at the first only: its
    block index never moves. -/
theorem before1_1 (c : Dev nD) (t : Fin cfg1.N) (d : (cfg1.win 1).block.Idx → Elt F (cfg1.win 1).elt) :
    (dat1 V c).before 1 t d = blk1 V c 1 t := by
  have keep : ∀ u, (cfg1.win 1).cut (cfg1.grid.coords u) ((dat1 V c).after 1 u) = (dat1 V c).blockOf 1 u := fun u => by
    rw [dat1_in1]; unfold Dat.blockOf blk1; rw [dat1_A]
  rw [(dat1 V c).before_in_eq_fetched 1 rfl (fun _ => rfl) (fun _ _ _ => rfl) keep t d]
  unfold Dat.fetched Dat.blockOf blk1; rw [dat1_A]; rfl

/-- Likewise the weight window's buffer holds the whole weight at every point. -/
theorem before1_2 (c : Dev nD) (t : Fin cfg1.N) (d : (cfg1.win 2).block.Idx → Elt F (cfg1.win 2).elt) :
    (dat1 V c).before 2 t d = blk1 V c 2 t := by
  have keep : ∀ u, (cfg1.win 2).cut (cfg1.grid.coords u) ((dat1 V c).after 2 u) = (dat1 V c).blockOf 2 u := fun u => by
    rw [dat1_in2]; unfold Dat.blockOf blk1; rw [dat1_A]
  rw [(dat1 V c).before_in_eq_fetched 2 rfl (fun _ => rfl) (fun _ _ _ => rfl) keep t d]
  unfold Dat.fetched Dat.blockOf blk1; rw [dat1_A]; rfl

/-! ## The body obligation -/

/-- At every point the body, called on the four windows' current staging buffers, runs from the invariant, the
    core's debts and the buffers as the pipeline hands them over to the same invariant and debts (it touches
    neither) with the inputs' buffers unchanged and the output's at `k1_pay1` of the three input blocks. -/
theorem body1 (c : Dev nD) : BodyObligation (dat1 (F := F) V c) (defs₀ (F := F)) Variants.none () Set.univ := fun t => by
  rw [bigSep_W1, bigSep_W1]
  simp only [before1_0, before1_1, before1_2]
  rw [show (dat1 V c).Φ t.succ = (dat1 V c).Φ t.castSucc from rfl,
    show (dat1 V c).owesAt () t.succ = (dat1 V c).owesAt () t.castSucc from rfl,
    dat1_in0, dat1_in1, dat1_in2, dat1_out]
  show _ ⊢ wp frame (wpE (defs₀ (F := F)) Variants.none c none) Set.univ (bodyAt1 t) _
  iintro ⟨HΦ, Ho, ⟨%d0, H0⟩, ⟨%d1, H1⟩, ⟨%d2, H2⟩, ⟨%d3, H3⟩⟩
  iapply (run1 c (grid1.coords t) _ _ _ _ _ _ _ _ (blk1 V c 0 t) (blk1 V c 1 t) (blk1 V c 2 t)
    ((dat1 V c).Φ t.castSucc) ((dat1 V c).owesAt () t.castSucc))
  isplitl [HΦ]; · iexact HΦ
  isplitl [Ho]; · iexact Ho
  isplitl [H0]; · iexact H0
  isplitl [H1]; · iexact H1
  isplitl [H2]; · iexact H2
  iexists _; iexact H3

end Cert.KernelIdeal.Hand

end
-- ==== Proof.KI.Lin2.lean ====
import proofs.«419337_j61838939128118_1_alg».proof.Proof.Gen.KernelIdeal.Launch
import proofs.«419337_j61838939128118_1_alg».proof.Proof.Gen.KernelIdeal.Skeleton
import proofs.«419337_j61838939128118_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t` of feature transform 2, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => k2_pay1 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by dsimp only [dat2]
theorem dat2_out (c : Dev nD) (t : Fin cfg2.N) : (dat2 V c).after 3 t = k2_pay1 (blk2 V c 0 t) (blk2 V c 1 t) (blk2 V c 2 t) := by dsimp only [dat2]

/-- The zero offsets of a rank-two rectangle, as a constant function. -/
private theorem off00 : (![0, 0] : Fin 2 → Nat) = fun _ => 0 := funext fun a => by fin_cases a <;> rfl

/-- After ONE store through the full rectangle at offset zero a buffer reads as that store's payload, whatever it
    held before: the rectangle holds every index of the shape, so the single piece covers the buffer, whatever
    the shape and its extents. -/
private theorem read_whole_store {sg : RefSig} {κ : Kind} {sp : Space} {S : Shape} {e : EltTy}
    (v : View sg κ sp S e) (f : v.ty.Contents (Elt F)) {off : Fin S.rank → Nat} (h : off = fun _ => 0)
    (inb : ∀ a, off a + S.size a ≤ S.size a) (p : S.Idx → Elt F e) :
    v.read (Elt F) (v.writes (Elt F) f [(⟨Rect.unit off S.size inb, p⟩ : View.Piece (Elt F) S e)]) = p :=
  (View.read_writes_eq_canon v f _ (fun y => ⟨_, List.mem_singleton_self _, View.mem_set_unit_zero h inb y⟩)).trans
    (View.canon_unit_zero h inb p)

set_option maxHeartbeats 1000000 in
/-- Feature transform 2's body on whole staging memrefs: with the row block `x`, the bias row `b` and the weight
    `w` in the input buffers and anything in the output buffer, it ends with the inputs as they were and the output
    buffer at `k2_pay1 x b w` (the block plus the bias, clamped below at zero, times the weight); two frames `R`
    and `Q` it does not touch (the pipeline's invariant and the core's debts) ride along. The body loads each buffer
    whole (through the full rectangle at offset zero, which reads the contents) and stores once through the full
    rectangle, which leaves exactly its payload. -/
theorem run2 (c : Dev nD) (i : grid2.Coords)
    (a1 : Memref sig .tc .vmem S5000x128 .f32) (h1 : a1.IsWhole)
    (a2 : Memref sig .tc .vmem S1x128 .f32) (h2 : a2.IsWhole)
    (a3 : Memref sig .tc .vmem S128x64 .f32) (h3 : a3.IsWhole)
    (a4 : Memref sig .tc .vmem S5000x64 .f32) (h4 : a4.IsWhole)
    (x : Vec F S5000x128 .f32) (b : Vec F S1x128 .f32) (w : Vec F S128x64 .f32) (R Q : sProp 𝕄) :
    iprop(R ∗ Q ∗ owns (c : Thread nD τ) a1 fullShare x ∗ owns (c : Thread nD τ) a2 fullShare b
        ∗ owns (c : Thread nD τ) a3 fullShare w ∗ (∃ d, owns (c : Thread nD τ) a4 fullShare d))
      ⊢ wp frame (wpE (defs₀ (F := F)) Variants.none c none) Set.univ
          (cc2__linear_prologue_kernel i a1 h1 a2 h2 a3 h3 a4 h4)
          (fun _ => iprop(R ∗ Q ∗ owns (c : Thread nD τ) a1 fullShare x ∗ owns (c : Thread nD τ) a2 fullShare b
            ∗ owns (c : Thread nD τ) a3 fullShare w ∗ owns (c : Thread nD τ) a4 fullShare (k2_pay1 x b w))) := by
  simp only [cc2__linear_prologue_kernel_eq_skeleton]; unfold cc2__linear_prologue_kernel_skel
  unfold owns
  iintro ⟨HR, HQ, ⟨%f1, %hf1, H1⟩, ⟨%f2, %hf2, H2⟩, ⟨%f3, %hf3, H3⟩, ⟨%d4, %f4, -, H4⟩⟩
  subst hf1 hf2 hf3
  sl_exec
  sl_step
  isplitl [HR]; · iexact HR
  isplitl [HQ]; · iexact HQ
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the buffer reads as the store's payload, and each whole-buffer load had read its buffer's contents
  refine (read_whole_store _ _ off00 inb_S5000x64_S5000x64_0_0 _).trans ?_
  have e1 := View.ld_unit_zero (S := S5000x128) off00 inb_S5000x128_S5000x128_0_0 (a1.view.read (Elt F) f1)
  have e2 := View.ld_unit_zero (S := S1x128) off00 inb_S1x128_S1x128_0_0 (a2.view.read (Elt F) f2)
  have e3 := View.ld_unit_zero (S := S128x64) off00 inb_S128x64_S128x64_0_0 (a3.view.read (Elt F) f3)
  exact (congrArg (fun y => k2_pay1 y _ _) e1).trans
    ((congrArg (fun y => k2_pay1 _ y _) e2).trans (congrArg (fun y => k2_pay1 _ _ y) e3))

/-! ## What the body finds in its input buffers -/

theorem dat2_in0 (c : Dev nD) (t : Fin cfg2.N) : (dat2 V c).after 0 t = blk2 V c 0 t := by dsimp only [dat2]
theorem dat2_in1 (c : Dev nD) (t : Fin cfg2.N) : (dat2 V c).after 1 t = blk2 V c 1 t := by dsimp only [dat2]
theorem dat2_in2 (c : Dev nD) (t : Fin cfg2.N) : (dat2 V c).after 2 t = blk2 V c 2 t := by dsimp only [dat2]

/-- The row-block window's buffer holds the point's block of the activations whenever the body runs: the window is
    an input, never idle and uncut, and the body leaves the block where it found it, so fetched at the point or not
    the buffer holds what a fetch there would put in it, which for an uncut window is the whole block. -/
theorem before2_0 (c : Dev nD) (t : Fin cfg2.N) (d : (cfg2.win 0).block.Idx → Elt F (cfg2.win 0).elt) :
    (dat2 V c).before 0 t d = blk2 V c 0 t := by
  have keep : ∀ u, (cfg2.win 0).cut (cfg2.grid.coords u) ((dat2 V c).after 0 u) = (dat2 V c).blockOf 0 u := fun u => by
    rw [dat2_in0]; unfold Dat.blockOf blk2; rw [dat2_A]
  rw [(dat2 V c).before_in_eq_fetched 0 rfl (fun _ => rfl) (fun _ _ _ => rfl) keep t d]
  unfold Dat.fetched Dat.blockOf blk2; rw [dat2_A]; rfl

/-- The bias window's buffer holds the whole bias row at every point, though it is fetched at the first only: its
    block index never moves. -/
theorem before2_1 (c : Dev nD) (t : Fin cfg2.N) (d : (cfg2.win 1).block.Idx → Elt F (cfg2.win 1).elt) :
    (dat2 V c).before 1 t d = blk2 V c 1 t := by
  have keep : ∀ u, (cfg2.win 1).cut (cfg2.grid.coords u) ((dat2 V c).after 1 u) = (dat2 V c).blockOf 1 u := fun u => by
    rw [dat2_in1]; unfold Dat.blockOf blk2; rw [dat2_A]
  rw [(dat2 V c).before_in_eq_fetched 1 rfl (fun _ => rfl) (fun _ _ _ => rfl) keep t d]
  unfold Dat.fetched Dat.blockOf blk2; rw [dat2_A]; rfl

/-- Likewise the weight window's buffer holds the whole weight at every point. -/
theorem before2_2 (c : Dev nD) (t : Fin cfg2.N) (d : (cfg2.win 2).block.Idx → Elt F (cfg2.win 2).elt) :
    (dat2 V c).before 2 t d = blk2 V c 2 t := by
  have keep : ∀ u, (cfg2.win 2).cut (cfg2.grid.coords u) ((dat2 V c).after 2 u) = (dat2 V c).blockOf 2 u := fun u => by
    rw [dat2_in2]; unfold Dat.blockOf blk2; rw [dat2_A]
  rw [(dat2 V c).before_in_eq_fetched 2 rfl (fun _ => rfl) (fun _ _ _ => rfl) keep t d]
  unfold Dat.fetched Dat.blockOf blk2; rw [dat2_A]; rfl

/-! ## The body obligation -/

/-- At every point the body, called on the four windows' current staging buffers, runs from the invariant, the
    core's debts and the buffers as the pipeline hands them over to the same invariant and debts (it touches
    neither) with the inputs' buffers unchanged and the output's at `k2_pay1` of the three input blocks. -/
theorem body2 (c : Dev nD) : BodyObligation (dat2 (F := F) V c) (defs₀ (F := F)) Variants.none () Set.univ := fun t => by
  rw [bigSep_W2, bigSep_W2]
  simp only [before2_0, before2_1, before2_2]
  rw [show (dat2 V c).Φ t.succ = (dat2 V c).Φ t.castSucc from rfl,
    show (dat2 V c).owesAt () t.succ = (dat2 V c).owesAt () t.castSucc from rfl,
    dat2_in0, dat2_in1, dat2_in2, dat2_out]
  show _ ⊢ wp frame (wpE (defs₀ (F := F)) Variants.none c none) Set.univ (bodyAt2 t) _
  iintro ⟨HΦ, Ho, ⟨%d0, H0⟩, ⟨%d1, H1⟩, ⟨%d2, H2⟩, ⟨%d3, H3⟩⟩
  iapply (run2 c (grid2.coords t) _ _ _ _ _ _ _ _ (blk2 V c 0 t) (blk2 V c 1 t) (blk2 V c 2 t)
    ((dat2 V c).Φ t.castSucc) ((dat2 V c).owesAt () t.castSucc))
  isplitl [HΦ]; · iexact HΦ
  isplitl [Ho]; · iexact Ho
  isplitl [H0]; · iexact H0
  isplitl [H1]; · iexact H1
  isplitl [H2]; · iexact H2
  iexists _; iexact H3

end Cert.KernelIdeal.Hand

end
-- ==== Proof.KI.Pool.lean ====
import proofs.«419337_j61838939128118_1_alg».proof.Proof.Gen.KernelIdeal.Launch
import proofs.«419337_j61838939128118_1_alg».proof.Proof.Gen.KernelIdeal.Skeleton
import proofs.«419337_j61838939128118_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals of the pooling body, over the grid

The body has two conditionals on the grid coordinate: the first resets the accumulator, the second copies the
accumulator into the output block. Over the ten points the first holds at point 0 only and the second at point 9 only. -/

/-- The first conditional's test as the body computes it from the grid coordinate: where it holds the accumulator is
    reset to zero before anything is added. -/
abbrev isFirst (i : grid3.Coords) : Prop :=
  (Scalar.cmpi .ne (Scalar.extui (Scalar.cmpi .eq (BitVec.ofNat 32 (i 0).val) 0#32)) 0#32) = 1#1
/-- It holds at the first point only. -/
theorem isFirst_iff : ∀ t : Fin cfg3.N, isFirst (grid3.coords t) ↔ t.val = 0 :=
  (by decide +kernel : ∀ t : Fin grid3.N, isFirst (grid3.coords t) ↔ t.val = 0)
/-- The second conditional's test: where it holds the accumulator is copied into the output block. -/
abbrev isLast (i : grid3.Coords) : Prop := k3_cond2 i = 1#1
/-- It holds at the last point only. -/
theorem isLast_iff : ∀ t : Fin cfg3.N, isLast (grid3.coords t) ↔ t.val = 9 :=
  (by decide +kernel : ∀ t : Fin grid3.N, isLast (grid3.coords t) ↔ t.val = 9)

/-- The inputs are live at every point. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
/-- Before the last point nothing is stored into the output block: the window is idle there, -/
theorem idle3_3 : ∀ t : Fin cfg3.N, t.val ≠ 9 → cfg3.idle 3 (grid3.coords t) = true := by decide +kernel
/-- and the block is not written back there; -/
theorem noFlush3_3 : ∀ t : Fin cfg3.N, t.val ≠ 9 → (cfg3.win 3).flush t = false := by decide +kernel
/-- at the last point it is live. -/
theorem live3_3 : ∀ t : Fin cfg3.N, t.val = 9 → cfg3.idle 3 (grid3.coords t) = false := by decide +kernel

/-! ## Reading a buffer back after a whole-block store -/

/-- The zero offsets of a rank-two rectangle, as the body's stores and loads spell them. -/
theorem zeros2 : (![0, 0] : Fin 2 → ℕ) = fun _ => 0 := by funext a; fin_cases a <;> rfl

/-- A store through the whole-shape rectangle at zero offsets, made LAST, is what the buffer then reads — whatever it
    held before and whatever the earlier stores were: every index lies under that store. -/
theorem read_writes_cons_whole {Val : EltTy → Type} {S : Shape} {e : EltTy} {sg : RefSig} {κ : Kind} {sp : Space}
    (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-! ## The body on any whole memrefs, case by case

`x3`, `x5`, `x10` are what the three input buffers hold (the feature tile, the bias row, the segment ids of the
tile's rows), `s` what the accumulator holds, `xo` what the output buffer holds. In every case the accumulator ends
at `k3_pay2 x3 x5 x10 s'`: the tile's one-hot segment sums added onto `s'`, where `s'` is zero (`k3_pay1`) at the
first point — the reset comes first and the sum is then added onto what the reset left — and `s` elsewhere. The
output buffer is left as found, except at the last point, where it receives the accumulator's final contents. -/

set_option maxHeartbeats 1000000 in
/-- At the first point: the accumulator, whatever it held, ends at the tile's sums added onto zero. -/
theorem run_first (c : Dev nD) (i : grid3.Coords)
    (arg1 : Memref sig .tc .vmem S5000x64 .f32) (harg1 : arg1.IsWhole) (arg2 : Memref sig .tc .vmem S1x64 .f32) (harg2 : arg2.IsWhole)
    (arg3 : Memref sig .tc .vmem S5000x1 .i32) (harg3 : arg3.IsWhole) (arg4 : Memref sig .tc .vmem S512x64 .f32) (harg4 : arg4.IsWhole)
    (arg5 : Memref sig .tc .vmem S512x64 .f32) (harg5 : arg5.IsWhole) (h1 : isFirst i) (h2 : ¬isLast i)
    (x3 : Vec F S5000x64 .f32) (x5 : Vec F S1x64 .f32) (x10 : Vec F S5000x1 .i32) (xo : Vec F S512x64 .f32)
    (E : Set ℕ) (K : PUnit → sProp 𝕄) :
    iprop(owns (c : Thread nD τ) arg1 fullShare x3 ∗ owns (c : Thread nD τ) arg2 fullShare x5 ∗ owns (c : Thread nD τ) arg3 fullShare x10
        ∗ owns (c : Thread nD τ) arg4 fullShare xo ∗ (∃ s, owns (c : Thread nD τ) arg5 fullShare s)
        ∗ (iprop(owns (c : Thread nD τ) arg1 fullShare x3 ∗ owns (c : Thread nD τ) arg2 fullShare x5 ∗ owns (c : Thread nD τ) arg3 fullShare x10
            ∗ owns (c : Thread nD τ) arg4 fullShare xo ∗ owns (c : Thread nD τ) arg5 fullShare (k3_pay2 x3 x5 x10 (k3_pay1 (F := F)))) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%s, %f5, %hf5, H5⟩, Hk⟩
  obtain rfl := harg1.eq_unread hf1; obtain rfl := harg2.eq_unread hf2; obtain rfl := harg3.eq_unread hf3
  obtain rfl := harg4.eq_unread hf4
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  -- the update is the last store; the accumulator it loaded is what the reset, the only store before it, left
  rw [read_writes_cons_whole (S := S512x64) _ _ zeros2]
  sl_unfold_words
  rw [View.readCov_unit_zero (S := S512x64) _ zeros2]
  simp only [View.readAt_eq_ld, hf1, hf2, hf3, View.ld_unit_zero (S := S5000x64) zeros2, View.ld_unit_zero (S := S1x64) zeros2,
    View.ld_unit_zero (S := S5000x1) zeros2]

set_option maxHeartbeats 1000000 in
/-- At a point that is neither the first nor the last: the tile's sums are added onto the accumulator. -/
theorem run_mid (c : Dev nD) (i : grid3.Coords)
    (arg1 : Memref sig .tc .vmem S5000x64 .f32) (harg1 : arg1.IsWhole) (arg2 : Memref sig .tc .vmem S1x64 .f32) (harg2 : arg2.IsWhole)
    (arg3 : Memref sig .tc .vmem S5000x1 .i32) (harg3 : arg3.IsWhole) (arg4 : Memref sig .tc .vmem S512x64 .f32) (harg4 : arg4.IsWhole)
    (arg5 : Memref sig .tc .vmem S512x64 .f32) (harg5 : arg5.IsWhole) (h1 : ¬isFirst i) (h2 : ¬isLast i)
    (x3 : Vec F S5000x64 .f32) (x5 : Vec F S1x64 .f32) (x10 : Vec F S5000x1 .i32) (xo s : Vec F S512x64 .f32)
    (E : Set ℕ) (K : PUnit → sProp 𝕄) :
    iprop(owns (c : Thread nD τ) arg1 fullShare x3 ∗ owns (c : Thread nD τ) arg2 fullShare x5 ∗ owns (c : Thread nD τ) arg3 fullShare x10
        ∗ owns (c : Thread nD τ) arg4 fullShare xo ∗ owns (c : Thread nD τ) arg5 fullShare s
        ∗ (iprop(owns (c : Thread nD τ) arg1 fullShare x3 ∗ owns (c : Thread nD τ) arg2 fullShare x5 ∗ owns (c : Thread nD τ) arg3 fullShare x10
            ∗ owns (c : Thread nD τ) arg4 fullShare xo ∗ owns (c : Thread nD τ) arg5 fullShare (k3_pay2 x3 x5 x10 s)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  rw [read_writes_cons_whole (S := S512x64) _ _ zeros2]
  simp only [View.readAt_eq_ld, hf1, hf2, hf3, hf5, View.ld_unit_zero (S := S5000x64) zeros2, View.ld_unit_zero (S := S1x64) zeros2,
    View.ld_unit_zero (S := S5000x1) zeros2, View.ld_unit_zero (S := S512x64) zeros2]

set_option maxHeartbeats 1000000 in
/-- At the last point: the tile's sums are added onto the accumulator, and the output buffer, whatever it held,
    receives the result. -/
theorem run_last (c : Dev nD) (i : grid3.Coords)
    (arg1 : Memref sig .tc .vmem S5000x64 .f32) (harg1 : arg1.IsWhole) (arg2 : Memref sig .tc .vmem S1x64 .f32) (harg2 : arg2.IsWhole)
    (arg3 : Memref sig .tc .vmem S5000x1 .i32) (harg3 : arg3.IsWhole) (arg4 : Memref sig .tc .vmem S512x64 .f32) (harg4 : arg4.IsWhole)
    (arg5 : Memref sig .tc .vmem S512x64 .f32) (harg5 : arg5.IsWhole) (h1 : ¬isFirst i) (h2 : isLast i)
    (x3 : Vec F S5000x64 .f32) (x5 : Vec F S1x64 .f32) (x10 : Vec F S5000x1 .i32) (s : Vec F S512x64 .f32)
    (E : Set ℕ) (K : PUnit → sProp 𝕄) :
    iprop(owns (c : Thread nD τ) arg1 fullShare x3 ∗ owns (c : Thread nD τ) arg2 fullShare x5 ∗ owns (c : Thread nD τ) arg3 fullShare x10
        ∗ (∃ xo, owns (c : Thread nD τ) arg4 fullShare xo) ∗ owns (c : Thread nD τ) arg5 fullShare s
        ∗ (iprop(owns (c : Thread nD τ) arg1 fullShare x3 ∗ owns (c : Thread nD τ) arg2 fullShare x5 ∗ owns (c : Thread nD τ) arg3 fullShare x10
            ∗ owns (c : Thread nD τ) arg4 fullShare (k3_pay2 x3 x5 x10 s) ∗ owns (c : Thread nD τ) arg5 fullShare (k3_pay2 x3 x5 x10 s)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f1, %hf1, H1⟩, ⟨%f2, %hf2, H2⟩, ⟨%f3, %hf3, H3⟩, ⟨%xo, %f4, %hf4, H4⟩, ⟨%f5, %hf5, H5⟩, Hk⟩
  obtain rfl := harg1.eq_unread hf1; obtain rfl := harg2.eq_unread hf2; obtain rfl := harg3.eq_unread hf3
  obtain rfl := harg5.eq_unread hf5
  sl_exec (disch := first | exact h1 | exact h2)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    -- the output's one store carries the accumulator as loaded after the update: the update's payload
    rw [read_writes_cons_whole (S := S512x64) _ _ zeros2]
    sl_unfold_words
    rw [View.readCov_unit_zero (S := S512x64) _ zeros2]
    simp only [View.readAt_eq_ld, hf1, hf2, hf3, hf5, View.ld_unit_zero (S := S5000x64) zeros2, View.ld_unit_zero (S := S1x64) zeros2,
      View.ld_unit_zero (S := S5000x1) zeros2, View.ld_unit_zero (S := S512x64) zeros2]
  iexists _; isplitr
  swap; · iexact H5
  ipureintro
  sl_unfold_words
  rw [read_writes_cons_whole (S := S512x64) _ _ zeros2]
  simp only [View.readAt_eq_ld, hf1, hf2, hf3, hf5, View.ld_unit_zero (S := S5000x64) zeros2, View.ld_unit_zero (S := S1x64) zeros2,
    View.ld_unit_zero (S := S5000x1) zeros2, View.ld_unit_zero (S := S512x64) zeros2]

-- the TensorCore's buffer contents when the region is entered
variable (V : (c : Dev nD) → (b : Ref sig .tc) → Buf (Elt F) ((c : Thread nD τ).loc b))

/-- Window `w`'s block at point `t` of the pooling call, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator scratch as a whole memref. -/
abbrev scM3 : Memref sig .tc .vmem S512x64 .f32 := Memref.whole cc3_scratch0

/-- What the accumulator holds after the body at point `n`: the first point resets it to zero and adds its tile's
    partial sums, every later point adds its tile's onto what the point before left. -/
def accAt (c : Dev nD) : (n : ℕ) → n < cfg3.N → Vec F S512x64 .f32
  | 0, h => k3_pay2 (blk3 V c 0 ⟨0, h⟩) (blk3 V c 1 ⟨0, h⟩) (blk3 V c 2 ⟨0, h⟩) (k3_pay1 (F := F))
  | n + 1, h => k3_pay2 (blk3 V c 0 ⟨n + 1, h⟩) (blk3 V c 1 ⟨n + 1, h⟩) (blk3 V c 2 ⟨n + 1, h⟩) (accAt c n (Nat.lt_of_succ_lt h))

/-- The region's invariant before point `n`: before the first point nothing is known of the scoped buffers the
    pipeline does not stage; afterwards the accumulator holds `accAt (n - 1)`, the rest at anything. -/
def poolInv (c : Dev nD) : (n : ℕ) → n ≤ cfg3.N → sProp 𝕄
  | 0, _ => Pipeline.ΦA spec3 c
  | n + 1, hn => iprop(owns (c : Thread nD τ) scM3 fullShare (accAt V c n hn)
      ∗ Pipeline.scopedRestBut (Ix := Unit) (Name := ℕ) (U := UR sig nD τ) (Lvl := ℕ) (Val := Elt F) spec3 c [cc3_scratch0]
      ∗ (∃ r, prngReg c r))

def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => accAt V c t.val t.isLt
  Φ t := poolInv V c t.val (Nat.le_of_lt_succ t.isLt)
  q _ := fullShare
  owed _ := 0

theorem dat3_A (c : Dev nD) (w : Fin cfg3.W) : (dat3 V c).A w = V c (Pipeline.arrRef spec3 w) := by dsimp only [dat3]
theorem dat3_out (c : Dev nD) (t : Fin cfg3.N) : (dat3 V c).after 3 t = accAt V c t.val t.isLt := by dsimp only [dat3]

/-! ## The accumulator's recursion and the invariant, read at a point -/

/-- At the first point the accumulator ends at the tile's sums added onto zero. -/
theorem accAt_first (c : Dev nD) (t : Fin cfg3.N) (h0 : t.val = 0) :
    accAt V c t.val t.isLt = k3_pay2 (blk3 V c 0 t) (blk3 V c 1 t) (blk3 V c 2 t) (k3_pay1 (F := F)) := by
  obtain ⟨n, hn⟩ := t
  cases n with
  | zero => rfl
  | succ n => exact absurd h0 (Nat.succ_ne_zero n)

/-- At every later point it ends at the tile's sums added onto what the point before left. -/
theorem accAt_later (c : Dev nD) (t : Fin cfg3.N) (h0 : t.val ≠ 0) :
    accAt V c t.val t.isLt = k3_pay2 (blk3 V c 0 t) (blk3 V c 1 t) (blk3 V c 2 t)
      (accAt V c (t.val - 1) (Nat.lt_of_le_of_lt (Nat.sub_le _ _) t.isLt)) := by
  obtain ⟨n, hn⟩ := t
  cases n with
  | zero => exact absurd rfl h0
  | succ n => rfl

theorem poolInv_zero (c : Dev nD) (n : ℕ) (h : n ≤ cfg3.N) (hz : n = 0) : poolInv V c n h = Pipeline.ΦA spec3 c := by
  subst hz; rfl

/-- After point `n` (before point `n + 1`): the accumulator at that point's contents. -/
theorem poolInv_succ (c : Dev nD) (n : ℕ) (hn : n < cfg3.N) :
    poolInv V c (n + 1) hn = iprop(owns (c : Thread nD τ) scM3 fullShare (accAt V c n hn)
      ∗ Pipeline.scopedRestBut (Ix := Unit) (Name := ℕ) (U := UR sig nD τ) (Lvl := ℕ) (Val := Elt F) spec3 c [cc3_scratch0]
      ∗ (∃ r, prngReg c r)) := rfl

/-- Before a point that is not the first: the accumulator at what the point before left. -/
theorem poolInv_pos (c : Dev nD) (n : ℕ) (h : n ≤ cfg3.N) (hz : n ≠ 0) :
    poolInv V c n h = iprop(owns (c : Thread nD τ) scM3 fullShare (accAt V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- The invariant at a point's start, restated at the point's position. -/
theorem inv_castSucc (c : Dev nD) (t : Fin cfg3.N) :
    (dat3 V c).Φ t.castSucc = poolInv V c t.val (Nat.le_of_lt t.isLt) := by
  dsimp only [dat3]; simp only [Fin.coe_castSucc]

/-- The launch's invariant with the accumulator split off the scoped rest and owned as a memref at some contents. -/
theorem inv_entry_eq (c : Dev nD) :
    (Pipeline.ΦA spec3 c : sProp 𝕄)
      = iprop(((∃ d, owns (c : Thread nD τ) scM3 fullShare d)
          ∗ Pipeline.scopedRestBut (Ix := Unit) (Name := ℕ) (U := UR sig nD τ) (Lvl := ℕ) (Val := Elt F) spec3 c [cc3_scratch0])
        ∗ (∃ r, prngReg c r)) := by
  unfold Pipeline.ΦA
  rw [Pipeline.scopedRest_split_of_list spec3 c [cc3_scratch0] (by decide) (by decide)]
  simp only [bigSepL_singleton, scM3, owns_whole]; try rfl

/-! ## What the body finds in the input buffers -/

theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]

/-- An input's buffer holds its block at every point, fetched there or not: the body leaves the block in place, and
    where the pipeline does not fetch, the block index has not moved. -/
theorem before3_0 (c : Dev nD) (t : Fin cfg3.N) (d) : (dat3 V c).before 0 t d = blk3 V c 0 t :=
  ((dat3 V c).before_in_eq_fetched 0 rfl (fun _ => rfl) (fun _ _ _ => rfl)
      (fun t => by rw [after3_0]; unfold Dat.blockOf blk3; rw [dat3_A]; try rfl) t d).trans
    (by unfold Dat.fetched Dat.blockOf blk3; rw [dat3_A]; try rfl)
theorem before3_1 (c : Dev nD) (t : Fin cfg3.N) (d) : (dat3 V c).before 1 t d = blk3 V c 1 t :=
  ((dat3 V c).before_in_eq_fetched 1 rfl (fun _ => rfl) (fun _ _ _ => rfl)
      (fun t => by rw [after3_1]; unfold Dat.blockOf blk3; rw [dat3_A]; try rfl) t d).trans
    (by unfold Dat.fetched Dat.blockOf blk3; rw [dat3_A]; try rfl)
theorem before3_2 (c : Dev nD) (t : Fin cfg3.N) (d) : (dat3 V c).before 2 t d = blk3 V c 2 t :=
  ((dat3 V c).before_in_eq_fetched 2 rfl (fun _ => rfl) (fun _ _ _ => rfl)
      (fun t => by rw [after3_2]; unfold Dat.blockOf blk3; rw [dat3_A]; try rfl) t d).trans
    (by unfold Dat.fetched Dat.blockOf blk3; rw [dat3_A]; try rfl)

/-! ## The body obligation -/

/-- Each window's current staging memref at point `t`, as the pipeline passes it to the body, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x64 .f32 := win3_3.stage (cfg3.slots t 3)
abbrev hs3_3 (t : Fin cfg3.N) : (ms3_3 t).IsWhole := hstage3_3 ((cfg3.slots t 3).cast nbuf3_3)

/-- What the body is called with at point `t`: the invariant, what the core owes, and the four windows' buffers, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

/-- An input's buffer is left at its block. -/
theorem leaves3_0 (c : Dev nD) (t : Fin cfg3.N) :
    (dat3 V c).leavesExact 0 t = owns (c : Thread nD τ) (ms3_0 t) fullShare (blk3 V c 0 t) := by
  unfold Dat.leavesExact; rw [live3_0 t, after3_0]
theorem leaves3_1 (c : Dev nD) (t : Fin cfg3.N) :
    (dat3 V c).leavesExact 1 t = owns (c : Thread nD τ) (ms3_1 t) fullShare (blk3 V c 1 t) := by
  unfold Dat.leavesExact; rw [live3_1 t, after3_1]
theorem leaves3_2 (c : Dev nD) (t : Fin cfg3.N) :
    (dat3 V c).leavesExact 2 t = owns (c : Thread nD τ) (ms3_2 t) fullShare (blk3 V c 2 t) := by
  unfold Dat.leavesExact; rw [live3_2 t, after3_2]
/-- At the last point the output's buffer is left at the accumulator's final contents. -/
theorem leaves3_3_last (c : Dev nD) (t : Fin cfg3.N) (h9 : t.val = 9) :
    (dat3 V c).leavesExact 3 t = owns (c : Thread nD τ) (ms3_3 t) fullShare (accAt V c t.val t.isLt) := by
  unfold Dat.leavesExact; rw [live3_3 t h9, dat3_out]

set_option maxHeartbeats 4000000 in
/-- The body at any point. The inputs' buffers hold their blocks. At the first point the invariant hands the body the
    accumulator at anything and the body leaves it at the tile's sums over zero; at a later point the accumulator comes
    at what the point before left and the tile's sums are added onto it — in both cases `accAt` at the point, by its
    recursion. Before the last point the output's buffer goes back untouched; at the last point it receives the
    accumulator's contents, which is what the proof data names for it. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = poolInv V c (t.val + 1) t.isLt from rfl, poolInv_succ]
  rw [leaves3_0, leaves3_1, leaves3_2, inv_castSucc]
  have hN : t.val < 10 := lt_of_lt_of_eq t.isLt (show cfg3.N = 10 from N_3)
  by_cases h0 : t.val = 0
  · -- the first point
    have h9 : t.val ≠ 9 := by omega
    rw [Dat.leavesExact_idle (dat3 V c) 3 t (idle3_3 t h9) (noFlush3_3 t h9), accAt_first V c t h0,
      poolInv_zero V c _ _ h0, inv_entry_eq]
    iintro ⟨⟨⟨HS, HR⟩, Hg⟩, Ho, ⟨%d0, H0⟩, ⟨%d1, H1⟩, ⟨%d2, H2⟩, ⟨%d3, H3⟩⟩
    iapply (run_first c (grid3.coords t) (ms3_0 t) (hs3_0 t) (ms3_1 t) (hs3_1 t) (ms3_2 t) (hs3_2 t) (ms3_3 t) (hs3_3 t) scM3 (Memref.isWhole_whole _) ((isFirst_iff t).mpr h0) (fun h => h9 ((isLast_iff t).mp h))
      (blk3 V c 0 t) (blk3 V c 1 t) (blk3 V c 2 t) ((dat3 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    iexists _; iexact H3
  · rw [accAt_later V c t h0, poolInv_pos V c _ _ h0]
    by_cases h9 : t.val = 9
    · -- the last point
      rw [leaves3_3_last V c t h9, accAt_later V c t h0]
      iintro ⟨⟨HS, HR, Hg⟩, Ho, ⟨%d0, H0⟩, ⟨%d1, H1⟩, ⟨%d2, H2⟩, ⟨%d3, H3⟩⟩
      iapply (run_last c (grid3.coords t) (ms3_0 t) (hs3_0 t) (ms3_1 t) (hs3_1 t) (ms3_2 t) (hs3_2 t) (ms3_3 t) (hs3_3 t) scM3 (Memref.isWhole_whole _) (fun h => h0 ((isFirst_iff t).mp h)) ((isLast_iff t).mpr h9)
        (blk3 V c 0 t) (blk3 V c 1 t) (blk3 V c 2 t) (accAt V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexact H3
    · -- a point in between
      rw [Dat.leavesExact_idle (dat3 V c) 3 t (idle3_3 t h9) (noFlush3_3 t h9)]
      iintro ⟨⟨HS, HR, Hg⟩, Ho, ⟨%d0, H0⟩, ⟨%d1, H1⟩, ⟨%d2, H2⟩, ⟨%d3, H3⟩⟩
      iapply (run_mid c (grid3.coords t) (ms3_0 t) (hs3_0 t) (ms3_1 t) (hs3_1 t) (ms3_2 t) (hs3_2 t) (ms3_3 t) (hs3_3 t) scM3 (Memref.isWhole_whole _) (fun h => h0 ((isFirst_iff t).mp h)) (fun h => h9 ((isLast_iff t).mp h))
        (blk3 V c 0 t) (blk3 V c 1 t) (blk3 V c 2 t) ((dat3 V c).before 3 t d3) (accAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      iexists _; iexact H3

theorem body3 (c : Dev nD) : BodyObligation (dat3 (F := F) V c) (defs₀ (F := F)) Variants.none () Set.univ := fun t => by
  rw [bigSep_W3, bigSep_W3]
  exact sound_body3 V c t

/-- What the launch hands the region is the invariant before the first point. -/
theorem pool_in (c : Dev nD) : Pipeline.ΦA spec3 c ⊢ (dat3 V c).Φ 0 := by
  rw [show (dat3 V c).Φ 0 = poolInv V c 0 (Nat.zero_le _) from rfl, poolInv_zero V c 0 _ rfl]
  try exact Idealize.SL.BI.Entails.refl _

/-- After the last point the invariant gives the scoped rest back, the accumulator's contents forgotten. -/
theorem pool_out (c : Dev nD) : (dat3 V c).Φ (Fin.last cfg3.N) ⊢ Pipeline.ΦA spec3 c := by
  rw [show (dat3 V c).Φ (Fin.last cfg3.N) = poolInv V c (Fin.last cfg3.N).val (Nat.le_of_lt_succ (Fin.last cfg3.N).isLt) from rfl,
    poolInv_pos V c _ _ (by rw [Fin.val_last]; have : cfg3.N = 10 := N_3; omega), inv_entry_eq]
  iintro ⟨HS, HR, Hg⟩
  isplitl [HS HR]
  · isplitl [HS]
    · iexists _; iexact HS
    iexact HR
  iexact Hg

end Cert.KernelIdeal.Hand

end
-- ==== Proof.KI.Segs.lean ====
import proofs.«419337_j61838939128118_1_alg».proof.Proof.Gen.KernelIdeal.Launch
import proofs.«419337_j61838939128118_1_alg».proof.Proof.Gen.KernelIdeal.Skeleton
import proofs.«419337_j61838939128118_1_alg».proof.Proof.Gen.KernelIdeal.Points
import proofs.«419337_j61838939128118_1_alg».proof.Proof.Gen.KernelIdeal.Regions
import proofs.«419337_j61838939128118_1_alg».proof.Proof.KI.Lin0
import proofs.«419337_j61838939128118_1_alg».proof.Proof.KI.Lin1
import proofs.«419337_j61838939128118_1_alg».proof.Proof.KI.Lin2
import proofs.«419337_j61838939128118_1_alg».proof.Proof.KI.Pool
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main's four pallas_calls as segments between its host stretches

The contents of every unscoped buffer between two items of @main are the generated valuations `Gen.V0 … Gen.V13`
over the unknowns `outs`; here `outs` is what the four calls really leave: call K's result array after its ten
write-backs, computed from the contents the call is entered with. -/

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-- `O` with the contents of `r` after item `J - 1` set to `x`. -/
def put (O : Gen.Outs (F := F)) (J : ℕ) (r : Ref sig .tc) (x : (c : Dev nD) → Buf (Elt F) ((c : Thread nD τ).loc r)) : Gen.Outs (F := F) :=
  fun J' r' c => if h : J' = J ∧ r' = r then h.2 ▸ x c else O J' r' c

theorem put_same (O : Gen.Outs (F := F)) (J : ℕ) (r : Ref sig .tc) (x : (c : Dev nD) → Buf (Elt F) ((c : Thread nD τ).loc r)) (c : Dev nD) :
    put O J r x J r c = x c := by
  unfold put; rw [dif_pos ⟨rfl, rfl⟩]

theorem put_other (O : Gen.Outs (F := F)) (J : ℕ) (r : Ref sig .tc) (x : (c : Dev nD) → Buf (Elt F) ((c : Thread nD τ).loc r))
    (J' : ℕ) (r' : Ref sig .tc) (c : Dev nD) (hJ : J' ≠ J) : put O J r x J' r' c = O J' r' c := by
  unfold put; rw [dif_neg fun h => hJ h.1]

/-- Nothing known yet: every entry at the launch contents (never read). -/
def O0 : Gen.Outs (F := F) := fun _ r c => m ((c : Thread nD τ).loc r)
/-- After the first transform: `main_v36` at what its ten blocks' write-backs leave. -/
def O1 : Gen.Outs (F := F) := put (O0 m) 4 main_v36 fun c => (dat0 (atRefs (Gen.V3 m)) c).arrAt 2 cfg0.N
/-- After the second transform: `main_v51`. -/
def O2 : Gen.Outs (F := F) := put (O1 m) 6 main_v51 fun c => (dat1 (atRefs (Gen.V5 m (O1 m))) c).arrAt 3 cfg1.N
/-- After the third transform: `main_v66`. -/
def O3 : Gen.Outs (F := F) := put (O2 m) 8 main_v66 fun c => (dat2 (atRefs (Gen.V7 m (O2 m))) c).arrAt 3 cfg2.N
/-- After the pooling call: `main_v81`. -/
def O4 : Gen.Outs (F := F) := put (O3 m) 10 main_v81 fun c => (dat3 (atRefs (Gen.V9 m (O3 m))) c).arrAt 3 cfg3.N
/-- What the four calls leave. -/
abbrev outs : Gen.Outs (F := F) := O4 m

theorem outs_4 (c : Dev nD) : outs m 4 main_v36 c = (dat0 (atRefs (Gen.V3 m)) c).arrAt 2 cfg0.N := by
  unfold outs O4 O3 O2 O1
  rw [put_other _ _ _ _ _ _ _ (by decide), put_other _ _ _ _ _ _ _ (by decide), put_other _ _ _ _ _ _ _ (by decide), put_same]
theorem O2_4 (c : Dev nD) : O2 m 4 main_v36 c = O1 m 4 main_v36 c := by
  unfold O2; rw [put_other _ _ _ _ _ _ _ (by decide)]
theorem O3_4 (c : Dev nD) : O3 m 4 main_v36 c = O1 m 4 main_v36 c := by
  unfold O3; rw [put_other _ _ _ _ _ _ _ (by decide), O2_4]
theorem O4_4 (c : Dev nD) : O4 m 4 main_v36 c = O1 m 4 main_v36 c := by
  unfold O4; rw [put_other _ _ _ _ _ _ _ (by decide), O3_4]
theorem O3_6 (c : Dev nD) : O3 m 6 main_v51 c = O2 m 6 main_v51 c := by
  unfold O3; rw [put_other _ _ _ _ _ _ _ (by decide)]
theorem O4_6 (c : Dev nD) : O4 m 6 main_v51 c = O2 m 6 main_v51 c := by
  unfold O4; rw [put_other _ _ _ _ _ _ _ (by decide), O3_6]
theorem O4_8 (c : Dev nD) : O4 m 8 main_v66 c = O3 m 8 main_v66 c := by
  unfold O4; rw [put_other _ _ _ _ _ _ _ (by decide)]

/-- The contents a later call is entered with read only the earlier calls' entries of `outs`. -/
theorem V4_outs (c : Dev nD) : Gen.V4 m (outs m) c = Gen.V4 m (O1 m) c := by
  show Function.update (Gen.V3 m c) _ (O4 m 4 main_v36 c) = Function.update (Gen.V3 m c) _ (O1 m 4 main_v36 c)
  rw [O4_4]
theorem V4_O2 (c : Dev nD) : Gen.V4 m (O2 m) c = Gen.V4 m (O1 m) c := by
  show Function.update (Gen.V3 m c) _ (O2 m 4 main_v36 c) = Function.update (Gen.V3 m c) _ (O1 m 4 main_v36 c)
  rw [O2_4]
theorem V4_O3 (c : Dev nD) : Gen.V4 m (O3 m) c = Gen.V4 m (O1 m) c := by
  show Function.update (Gen.V3 m c) _ (O3 m 4 main_v36 c) = Function.update (Gen.V3 m c) _ (O1 m 4 main_v36 c)
  rw [O3_4]
theorem V5_outs (c : Dev nD) : Gen.V5 m (outs m) c = Gen.V5 m (O1 m) c := by
  show StableHlo.after hostOps1 (Gen.V4 m (outs m) c) = StableHlo.after hostOps1 (Gen.V4 m (O1 m) c); rw [V4_outs]
theorem V5_O2 (c : Dev nD) : Gen.V5 m (O2 m) c = Gen.V5 m (O1 m) c := by
  show StableHlo.after hostOps1 (Gen.V4 m (O2 m) c) = StableHlo.after hostOps1 (Gen.V4 m (O1 m) c); rw [V4_O2]
theorem V5_O3 (c : Dev nD) : Gen.V5 m (O3 m) c = Gen.V5 m (O1 m) c := by
  show StableHlo.after hostOps1 (Gen.V4 m (O3 m) c) = StableHlo.after hostOps1 (Gen.V4 m (O1 m) c); rw [V4_O3]
theorem V6_outs (c : Dev nD) : Gen.V6 m (outs m) c = Gen.V6 m (O2 m) c := by
  show Function.update (Gen.V5 m (outs m) c) _ (O4 m 6 main_v51 c) = Function.update (Gen.V5 m (O2 m) c) _ (O2 m 6 main_v51 c)
  rw [O4_6, V5_outs, V5_O2]
theorem V6_O3 (c : Dev nD) : Gen.V6 m (O3 m) c = Gen.V6 m (O2 m) c := by
  show Function.update (Gen.V5 m (O3 m) c) _ (O3 m 6 main_v51 c) = Function.update (Gen.V5 m (O2 m) c) _ (O2 m 6 main_v51 c)
  rw [O3_6, V5_O3, V5_O2]
theorem V7_outs (c : Dev nD) : Gen.V7 m (outs m) c = Gen.V7 m (O2 m) c := by
  show StableHlo.after hostOps2 (Gen.V6 m (outs m) c) = StableHlo.after hostOps2 (Gen.V6 m (O2 m) c); rw [V6_outs]
theorem V7_O3 (c : Dev nD) : Gen.V7 m (O3 m) c = Gen.V7 m (O2 m) c := by
  show StableHlo.after hostOps2 (Gen.V6 m (O3 m) c) = StableHlo.after hostOps2 (Gen.V6 m (O2 m) c); rw [V6_O3]
theorem V8_outs (c : Dev nD) : Gen.V8 m (outs m) c = Gen.V8 m (O3 m) c := by
  show Function.update (Gen.V7 m (outs m) c) _ (O4 m 8 main_v66 c) = Function.update (Gen.V7 m (O3 m) c) _ (O3 m 8 main_v66 c)
  rw [O4_8, V7_outs, V7_O3]
theorem V9_outs (c : Dev nD) : Gen.V9 m (outs m) c = Gen.V9 m (O3 m) c := by
  show StableHlo.after hostOps3 (Gen.V8 m (outs m) c) = StableHlo.after hostOps3 (Gen.V8 m (O3 m) c); rw [V8_outs]

/-- What each call leaves in its result array, by the contents it is entered with. -/
theorem outs_6 (c : Dev nD) : outs m 6 main_v51 c = (dat1 (atRefs (Gen.V5 m (outs m))) c).arrAt 3 cfg1.N := by
  have h : (atRefs (Gen.V5 m (outs m)) : (c : Dev nD) → (b : Ref sig .tc) → Buf (Elt F) ((c : Thread nD τ).loc b)) = atRefs (Gen.V5 m (O1 m)) :=
    funext fun c => by unfold atRefs; rw [V5_outs]
  rw [h]; unfold outs; rw [O4_6]; unfold O2; rw [put_same]
theorem outs_8 (c : Dev nD) : outs m 8 main_v66 c = (dat2 (atRefs (Gen.V7 m (outs m))) c).arrAt 3 cfg2.N := by
  have h : (atRefs (Gen.V7 m (outs m)) : (c : Dev nD) → (b : Ref sig .tc) → Buf (Elt F) ((c : Thread nD τ).loc b)) = atRefs (Gen.V7 m (O2 m)) :=
    funext fun c => by unfold atRefs; rw [V7_outs]
  rw [h]; unfold outs; rw [O4_8]; unfold O3; rw [put_same]
theorem outs_10 (c : Dev nD) : outs m 10 main_v81 c = (dat3 (atRefs (Gen.V9 m (outs m))) c).arrAt 3 cfg3.N := by
  have h : (atRefs (Gen.V9 m (outs m)) : (c : Dev nD) → (b : Ref sig .tc) → Buf (Elt F) ((c : Thread nD τ).loc b)) = atRefs (Gen.V9 m (O3 m)) :=
    funext fun c => by unfold atRefs; rw [V9_outs]
  rw [h]; unfold outs O4; rw [put_same]

/-! ## The proof data family, the levels, what rides beside the buffers -/

/-- Every pipeline's proof data at the contents its call is entered with (a literal match on the pipeline). -/
def pdats : (p : Fin 4) → (c : Dev nD) → Dat τ (Elt F) Unit ℕ (UR sig nD τ) ℕ (Pipeline.pin (pcfgs (F := F)) Gen.adm p) c
  | ⟨0, _⟩ => fun c => dat0 (atRefs (Gen.V3 m)) c
  | ⟨1, _⟩ => fun c => dat1 (atRefs (Gen.V5 m (outs m))) c
  | ⟨2, _⟩ => fun c => dat2 (atRefs (Gen.V7 m (outs m))) c
  | ⟨3, _⟩ => fun c => dat3 (atRefs (Gen.V9 m (outs m))) c

/-- No core owes another anything: no level is assigned. -/
abbrev Lz : GSem nD τ sig → Finset Unit := fun _ => ∅
abbrev lvz : GSem nD τ sig → Unit → ℕ := fun _ _ => 0

/-- What rides beside the unscoped buffers through every item: the generator register at some state and the core owing
    nothing. -/
abbrev rest (c : Dev nD) : sProp 𝕄 := iprop((∃ r, prngReg c r) ∗ ∃ W, owes (c : Thread nD τ) (0 : CellTallies nD τ sig Unit) W)

/-! ## What a call leaves: its result array at `outs`, every other buffer as entered -/

set_option maxHeartbeats 1000000 in
theorem left0_in0 (c : Dev nD) : (pdats m 0 c).arrAt 0 cfg0.N = Gen.V4 m (outs m) c main_arg0 :=
  ((pdats m 0 c).arrAt_in 0 rfl _).trans (Gen.V4_of m (outs m) c main_arg0 (by decide)).symm
set_option maxHeartbeats 1000000 in
theorem left0_in1 (c : Dev nD) : (pdats m 0 c).arrAt 1 cfg0.N = Gen.V4 m (outs m) c main_arg3 :=
  ((pdats m 0 c).arrAt_in 1 rfl _).trans (Gen.V4_of m (outs m) c main_arg3 (by decide)).symm
set_option maxHeartbeats 1000000 in
theorem left0_out (c : Dev nD) : (pdats m 0 c).arrAt 2 cfg0.N = Gen.V4 m (outs m) c main_v36 :=
  (outs_4 m c).symm.trans (Function.update_self (f := Gen.V3 m c) (Proc.devRef .tc main_v36) (outs m 4 main_v36 c)).symm
set_option maxHeartbeats 1000000 in
theorem left0 (c : Dev nD) (w : Fin cfg0.W) : (pdats m 0 c).arrAt w cfg0.N = atRefs (Gen.V4 m (outs m)) c (Pipeline.arrRef spec0 w) := by
  fin_cases w
  · exact left0_in0 m c
  · exact left0_in1 m c
  · exact left0_out m c
theorem kept0 (c : Dev nD) : ∀ b, b ∉ Finset.univ.image (Pipeline.arrRef spec0) → atRefs (Gen.V4 m (outs m)) c b = atRefs (Gen.V3 m) c b :=
  fun b hb => Gen.V4_of m (outs m) c b fun h => hb (Finset.mem_image.mpr ⟨2, Finset.mem_univ _, (List.mem_singleton.mp h).symm⟩)

set_option maxHeartbeats 1000000 in
theorem left1_in0 (c : Dev nD) : (pdats m 1 c).arrAt 0 cfg1.N = Gen.V6 m (outs m) c main_v49 :=
  ((pdats m 1 c).arrAt_in 0 rfl _).trans (Gen.V6_of m (outs m) c main_v49 (by decide)).symm
set_option maxHeartbeats 1000000 in
theorem left1_in1 (c : Dev nD) : (pdats m 1 c).arrAt 1 cfg1.N = Gen.V6 m (outs m) c main_v50 :=
  ((pdats m 1 c).arrAt_in 1 rfl _).trans (Gen.V6_of m (outs m) c main_v50 (by decide)).symm
set_option maxHeartbeats 1000000 in
theorem left1_in2 (c : Dev nD) : (pdats m 1 c).arrAt 2 cfg1.N = Gen.V6 m (outs m) c main_arg5 :=
  ((pdats m 1 c).arrAt_in 2 rfl _).trans (Gen.V6_of m (outs m) c main_arg5 (by decide)).symm
set_option maxHeartbeats 1000000 in
theorem left1_out (c : Dev nD) : (pdats m 1 c).arrAt 3 cfg1.N = Gen.V6 m (outs m) c main_v51 :=
  (outs_6 m c).symm.trans (Function.update_self (f := Gen.V5 m (outs m) c) (Proc.devRef .tc main_v51) (outs m 6 main_v51 c)).symm
set_option maxHeartbeats 1000000 in
theorem left1 (c : Dev nD) (w : Fin cfg1.W) : (pdats m 1 c).arrAt w cfg1.N = atRefs (Gen.V6 m (outs m)) c (Pipeline.arrRef spec1 w) := by
  fin_cases w
  · exact left1_in0 m c
  · exact left1_in1 m c
  · exact left1_in2 m c
  · exact left1_out m c
theorem kept1 (c : Dev nD) : ∀ b, b ∉ Finset.univ.image (Pipeline.arrRef spec1) → atRefs (Gen.V6 m (outs m)) c b = atRefs (Gen.V5 m (outs m)) c b :=
  fun b hb => Gen.V6_of m (outs m) c b fun h => hb (Finset.mem_image.mpr ⟨3, Finset.mem_univ _, (List.mem_singleton.mp h).symm⟩)

set_option maxHeartbeats 1000000 in
theorem left2_in0 (c : Dev nD) : (pdats m 2 c).arrAt 0 cfg2.N = Gen.V8 m (outs m) c main_v64 :=
  ((pdats m 2 c).arrAt_in 0 rfl _).trans (Gen.V8_of m (outs m) c main_v64 (by decide)).symm
set_option maxHeartbeats 1000000 in
theorem left2_in1 (c : Dev nD) : (pdats m 2 c).arrAt 1 cfg2.N = Gen.V8 m (outs m) c main_v65 :=
  ((pdats m 2 c).arrAt_in 1 rfl _).trans (Gen.V8_of m (outs m) c main_v65 (by decide)).symm
set_option maxHeartbeats 1000000 in
theorem left2_in2 (c : Dev nD) : (pdats m 2 c).arrAt 2 cfg2.N = Gen.V8 m (outs m) c main_arg7 :=
  ((pdats m 2 c).arrAt_in 2 rfl _).trans (Gen.V8_of m (outs m) c main_arg7 (by decide)).symm
set_option maxHeartbeats 1000000 in
theorem left2_out (c : Dev nD) : (pdats m 2 c).arrAt 3 cfg2.N = Gen.V8 m (outs m) c main_v66 :=
  (outs_8 m c).symm.trans (Function.update_self (f := Gen.V7 m (outs m) c) (Proc.devRef .tc main_v66) (outs m 8 main_v66 c)).symm
set_option maxHeartbeats 1000000 in
theorem left2 (c : Dev nD) (w : Fin cfg2.W) : (pdats m 2 c).arrAt w cfg2.N = atRefs (Gen.V8 m (outs m)) c (Pipeline.arrRef spec2 w) := by
  fin_cases w
  · exact left2_in0 m c
  · exact left2_in1 m c
  · exact left2_in2 m c
  · exact left2_out m c
theorem kept2 (c : Dev nD) : ∀ b, b ∉ Finset.univ.image (Pipeline.arrRef spec2) → atRefs (Gen.V8 m (outs m)) c b = atRefs (Gen.V7 m (outs m)) c b :=
  fun b hb => Gen.V8_of m (outs m) c b fun h => hb (Finset.mem_image.mpr ⟨3, Finset.mem_univ _, (List.mem_singleton.mp h).symm⟩)

set_option maxHeartbeats 1000000 in
theorem left3_in0 (c : Dev nD) : (pdats m 3 c).arrAt 0 cfg3.N = Gen.V10 m (outs m) c main_v79 :=
  ((pdats m 3 c).arrAt_in 0 rfl _).trans (Gen.V10_of m (outs m) c main_v79 (by decide)).symm
set_option maxHeartbeats 1000000 in
theorem left3_in1 (c : Dev nD) : (pdats m 3 c).arrAt 1 cfg3.N = Gen.V10 m (outs m) c main_v80 :=
  ((pdats m 3 c).arrAt_in 1 rfl _).trans (Gen.V10_of m (outs m) c main_v80 (by decide)).symm
set_option maxHeartbeats 1000000 in
theorem left3_in2 (c : Dev nD) : (pdats m 3 c).arrAt 2 cfg3.N = Gen.V10 m (outs m) c main_v35 :=
  ((pdats m 3 c).arrAt_in 2 rfl _).trans (Gen.V10_of m (outs m) c main_v35 (by decide)).symm
set_option maxHeartbeats 1000000 in
theorem left3_out (c : Dev nD) : (pdats m 3 c).arrAt 3 cfg3.N = Gen.V10 m (outs m) c main_v81 :=
  (outs_10 m c).symm.trans (Function.update_self (f := Gen.V9 m (outs m) c) (Proc.devRef .tc main_v81) (outs m 10 main_v81 c)).symm
set_option maxHeartbeats 1000000 in
theorem left3 (c : Dev nD) (w : Fin cfg3.W) : (pdats m 3 c).arrAt w cfg3.N = atRefs (Gen.V10 m (outs m)) c (Pipeline.arrRef spec3 w) := by
  fin_cases w
  · exact left3_in0 m c
  · exact left3_in1 m c
  · exact left3_in2 m c
  · exact left3_out m c
theorem kept3 (c : Dev nD) : ∀ b, b ∉ Finset.univ.image (Pipeline.arrRef spec3) → atRefs (Gen.V10 m (outs m)) c b = atRefs (Gen.V9 m (outs m)) c b :=
  fun b hb => Gen.V10_of m (outs m) c b fun h => hb (Finset.mem_image.mpr ⟨3, Finset.mem_univ _, (List.mem_singleton.mp h).symm⟩)

/-! ## The four calls as segments -/

-- unifying a library lemma stated at `pin pcs a p` with the printed configuration unfolds plain definitions in a metavariable's type
set_option backward.isDefEq.respectTransparency.types false in
/-- Pallas call 0 as a segment of @main: entered with every unscoped buffer at `Gen.V3 m`, left with them at `Gen.V4 m (outs m)`,
    which differs from the entry contents only at the call's result array; the generator register passes through the
    kernel's invariant, nothing is owed, the kernel has no semaphore of its own. -/
def reg0 : Pipeline.RegionSeg (pcfgs (F := F)) Gen.adm (pdats m) () defs₀ Variants.none Lz lvz 0 where
  win := launch0.win.to₀
  block_pos := launch0.block_pos
  stage_whole := launch0.stage_whole
  K := PEmpty
  osem k := k.elim
  ho := Pipeline.OwnSemFacts.none _
  hbody c := (body0 (atRefs (Gen.V3 m)) c).loose
  hwaits := Pipeline.hwaits_of_owed_zero _ _ _ _ Lz lvz 0 fun _ _ => rfl
  pre c := iprop(StableHlo.held (c : Thread nD τ) (Pipeline.ucRefs τ sig) (Gen.V3 m c) ∗ rest c)
  post c := iprop(StableHlo.held (c : Thread nD τ) (Pipeline.ucRefs τ sig) (Gen.V4 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (atRefs (Gen.V3 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (atRefs (Gen.V3 m) c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m 0 c).Φ 0 = Pipeline.ΦA spec0 c from rfl]; unfold Pipeline.ΦA
    iintro ⟨Hg, -, Hr⟩
    isplitl [Hr]; · iexact Hr
    iexact Hg
  hout c := by
    rw [Pipeline.ownSems0_none]
    rw [show (pdats m 0 c).Φ (Fin.last _) = Pipeline.ΦA spec0 c from rfl]; unfold Pipeline.ΦA
    iintro ⟨Hr, Hg⟩
    isplitl [Hg]; · iexact Hg
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (atRefs (Gen.V3 m) c) (atRefs (Gen.V4 m (outs m)) c) ((pdats m 0 c).arrAt · cfg0.N) (left0 m c) (kept0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated at `pin pcs a p` with the printed configuration unfolds plain definitions in a metavariable's type
set_option backward.isDefEq.respectTransparency.types false in
/-- Pallas call 1 as a segment of @main: entered with every unscoped buffer at `Gen.V5 m (outs m)`, left with them at `Gen.V6 m (outs m)`,
    which differs from the entry contents only at the call's result array; the generator register passes through the
    kernel's invariant, nothing is owed, the kernel has no semaphore of its own. -/
def reg1 : Pipeline.RegionSeg (pcfgs (F := F)) Gen.adm (pdats m) () defs₀ Variants.none Lz lvz 1 where
  win := launch1.win.to₀
  block_pos := launch1.block_pos
  stage_whole := launch1.stage_whole
  K := PEmpty
  osem k := k.elim
  ho := Pipeline.OwnSemFacts.none _
  hbody c := (body1 (atRefs (Gen.V5 m (outs m))) c).loose
  hwaits := Pipeline.hwaits_of_owed_zero _ _ _ _ Lz lvz 1 fun _ _ => rfl
  pre c := iprop(StableHlo.held (c : Thread nD τ) (Pipeline.ucRefs τ sig) (Gen.V5 m (outs m) c) ∗ rest c)
  post c := iprop(StableHlo.held (c : Thread nD τ) (Pipeline.ucRefs τ sig) (Gen.V6 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (atRefs (Gen.V5 m (outs m)) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (atRefs (Gen.V5 m (outs m)) c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m 1 c).Φ 0 = Pipeline.ΦA spec1 c from rfl]; unfold Pipeline.ΦA
    iintro ⟨Hg, -, Hr⟩
    isplitl [Hr]; · iexact Hr
    iexact Hg
  hout c := by
    rw [Pipeline.ownSems0_none]
    rw [show (pdats m 1 c).Φ (Fin.last _) = Pipeline.ΦA spec1 c from rfl]; unfold Pipeline.ΦA
    iintro ⟨Hr, Hg⟩
    isplitl [Hg]; · iexact Hg
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (atRefs (Gen.V5 m (outs m)) c) (atRefs (Gen.V6 m (outs m)) c) ((pdats m 1 c).arrAt · cfg1.N) (left1 m c) (kept1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated at `pin pcs a p` with the printed configuration unfolds plain definitions in a metavariable's type
set_option backward.isDefEq.respectTransparency.types false in
/-- Pallas call 2 as a segment of @main: entered with every unscoped buffer at `Gen.V7 m (outs m)`, left with them at `Gen.V8 m (outs m)`,
    which differs from the entry contents only at the call's result array; the generator register passes through the
    kernel's invariant, nothing is owed, the kernel has no semaphore of its own. -/
def reg2 : Pipeline.RegionSeg (pcfgs (F := F)) Gen.adm (pdats m) () defs₀ Variants.none Lz lvz 2 where
  win := launch2.win.to₀
  block_pos := launch2.block_pos
  stage_whole := launch2.stage_whole
  K := PEmpty
  osem k := k.elim
  ho := Pipeline.OwnSemFacts.none _
  hbody c := (body2 (atRefs (Gen.V7 m (outs m))) c).loose
  hwaits := Pipeline.hwaits_of_owed_zero _ _ _ _ Lz lvz 2 fun _ _ => rfl
  pre c := iprop(StableHlo.held (c : Thread nD τ) (Pipeline.ucRefs τ sig) (Gen.V7 m (outs m) c) ∗ rest c)
  post c := iprop(StableHlo.held (c : Thread nD τ) (Pipeline.ucRefs τ sig) (Gen.V8 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (atRefs (Gen.V7 m (outs m)) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (atRefs (Gen.V7 m (outs m)) c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    rw [show (pdats m 2 c).Φ 0 = Pipeline.ΦA spec2 c from rfl]; unfold Pipeline.ΦA
    iintro ⟨Hg, -, Hr⟩
    isplitl [Hr]; · iexact Hr
    iexact Hg
  hout c := by
    rw [Pipeline.ownSems0_none]
    rw [show (pdats m 2 c).Φ (Fin.last _) = Pipeline.ΦA spec2 c from rfl]; unfold Pipeline.ΦA
    iintro ⟨Hr, Hg⟩
    isplitl [Hg]; · iexact Hg
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (atRefs (Gen.V7 m (outs m)) c) (atRefs (Gen.V8 m (outs m)) c) ((pdats m 2 c).arrAt · cfg2.N) (left2 m c) (kept2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated at `pin pcs a p` with the printed configuration unfolds plain definitions in a metavariable's type
set_option backward.isDefEq.respectTransparency.types false in
/-- Pallas call 3 as a segment of @main: entered with every unscoped buffer at `Gen.V9 m (outs m)`, left with them at `Gen.V10 m (outs m)`,
    which differs from the entry contents only at the call's result array; the generator register passes through the
    kernel's invariant, nothing is owed, the kernel has no semaphore of its own. -/
def reg3 : Pipeline.RegionSeg (pcfgs (F := F)) Gen.adm (pdats m) () defs₀ Variants.none Lz lvz 3 where
  win := launch3.win.to₀
  block_pos := launch3.block_pos
  stage_whole := launch3.stage_whole
  K := PEmpty
  osem k := k.elim
  ho := Pipeline.OwnSemFacts.none _
  hbody c := (body3 (atRefs (Gen.V9 m (outs m))) c).loose
  hwaits := Pipeline.hwaits_of_owed_zero _ _ _ _ Lz lvz 3 fun _ _ => rfl
  pre c := iprop(StableHlo.held (c : Thread nD τ) (Pipeline.ucRefs τ sig) (Gen.V9 m (outs m) c) ∗ rest c)
  post c := iprop(StableHlo.held (c : Thread nD τ) (Pipeline.ucRefs τ sig) (Gen.V10 m (outs m) c) ∗ rest c)
  X c := iprop(∃ r, prngReg c r)
  Y c := iprop(∃ r, prngReg c r)
  Z c := Pipeline.unscopedRest (Ix := Unit) (Name := ℕ) (U := UR sig nD τ) (Lvl := ℕ) spec3 c (atRefs (Gen.V9 m (outs m)) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (atRefs (Gen.V9 m (outs m)) c) fun _ => rfl
    rw [Pipeline.unscopedBufs_held] at hsplit
    iintro ⟨⟨Hub, Hg, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hg]; · iexact Hg
    iexact Hrest
  hin c := by
    refine BIBase.Entails.trans ?_ (pool_in (atRefs (Gen.V9 m (outs m))) c)
    unfold Pipeline.ΦA
    iintro ⟨Hg, -, Hr⟩
    isplitl [Hr]; · iexact Hr
    iexact Hg
  hout c := by
    rw [Pipeline.ownSems0_none]
    refine BIBase.Entails.trans (pool_out (atRefs (Gen.V9 m (outs m))) c) ?_
    unfold Pipeline.ΦA
    iintro ⟨Hr, Hg⟩
    isplitl [Hg]; · iexact Hg
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m) ((pdats m 3 c).share_full fun _ => rfl)
      (atRefs (Gen.V9 m (outs m)) c) (atRefs (Gen.V10 m (outs m)) c) ((pdats m 3 c).arrAt · cfg3.N) (left3 m c) (kept3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.RunAll.lean ====
import proofs.«419337_j61838939128118_1_alg».proof.Proof.Gen.KernelIdeal.Launch
import proofs.«419337_j61838939128118_1_alg».proof.Proof.Gen.KernelIdeal.Skeleton
import proofs.«419337_j61838939128118_1_alg».proof.Proof.Gen.KernelIdeal.Points
import proofs.«419337_j61838939128118_1_alg».proof.Proof.KI.Segs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: every unscoped buffer read back at the last valuation -/

variable (m : (ℓ : Loc nD τ sig) → Buf (Elt F) ℓ) (ρ : Dev nD → PrngReg)

/-- The rest state between any two items. -/
abbrev rests : Fin 5 → Dev nD → sProp 𝕄 := fun _ c => rest c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding plain
-- definitions in a metavariable's type
set_option backward.isDefEq.respectTransparency.types false in
/-- From any memory with zero counters every weakly fair execution of @main terminates, and in every final state each
    unscoped buffer of every core holds what the last valuation `Gen.V13 m (outs m) c` says: the launch contents pushed
    through the host stretches and the four calls. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V13 m (outs m) c b) := by
  refine Pipeline.θ_run_regions_kit_dev (pcfgs (F := F)) Gen.adm (pdats m) () cellOf_inj emb₁ defs₀ Variants.none Lz lvz m ρ main
    (Gen.segs m (outs m) Variants.none Lz lvz rests () (pdats m) (reg0 m) (reg1 m) (reg2 m) (reg3 m))
    (fun c Q => by
      rewrite [main_chain c, Pipeline.Seg.run_eq_chain,
        show (Gen.segs m (outs m) Variants.none Lz lvz rests () (pdats m) (reg0 m) (reg1 m) (reg2 m) (reg3 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2 ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rest c))
    (Tₙ := fun c => iprop(StableHlo.held (c : Thread nD τ) (Pipeline.ucRefs τ sig) (Gen.V13 m (outs m) c) ∗ ∃ r, prngReg c r))
    (hch := fun c => ⟨.rfl, .rfl, .rfl, .rfl, .rfl, .rfl, .rfl, .rfl, .rfl, .rfl, .rfl, .rfl, .rfl, ?_⟩)
    (hinit := ?_)
    (QY := fun c s => ∀ b ∈ Pipeline.ucRefs τ sig, s.mem (((c : Thread nD τ)).1, b) = Gen.V13 m (outs m) c b)
    (hfin := fun c s' => ?_) (hQ := fun _ h => h)
  · -- the last item's thread state is the buffers, the register, and the core owing nothing
    show (iprop(StableHlo.held (c : Thread nD τ) (Pipeline.ucRefs τ sig) (Gen.V13 m (outs m) c) ∗ rest c) : sProp 𝕄)
      ⊢ iprop((StableHlo.held (c : Thread nD τ) (Pipeline.ucRefs τ sig) (Gen.V13 m (outs m) c) ∗ ∃ r, prngReg c r)
          ∗ ∃ W, owes (c : Thread nD τ) (0 : CellTallies nD τ sig Unit) W)
    iintro ⟨Hh, Hg, HO⟩
    isplitl [Hh Hg]
    · isplitl [Hh] <;> iassumption
    iexact HO
  · -- the launch: each core's unscoped buffers are held at the launch contents, its register and its empty tallies ride along
    refine Pipeline.initEach Lz lvz fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the held buffers read against the final state
    iintro ⟨⟨Hh, -⟩, HSI⟩
    unfold StableHlo.held
    imodintro
    iapply (pointsTo_read_all (Pipeline.ucRefs τ sig) (fun b => (((c : Thread nD τ)).1, b)) (Gen.V13 m (outs m) c) s')
    isplitl [Hh] <;> iassumption

/-- The frame: every argument array ends as launched (no host stretch writes one, no call may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c),
     (h c _ (mem_uc main_arg6 (by decide))).trans (Gen.V13_main_arg6 m (outs m) c),
     (h c _ (mem_uc main_arg7 (by decide))).trans (Gen.V13_main_arg7 m (outs m) c),
     (h c _ (mem_uc main_arg8 (by decide))).trans (Gen.V13_main_arg8 m (outs m) c)⟩) (run_all m ρ)

end Cert.KernelIdeal.Hand

end
-- ==== Proof.LibPlainDot.lean ====
/-
  A PLAIN MATRIX PRODUCT READ AT AN INDEX, over the extended reals.

  For the dimension numbers of `[M, K] × [K, N] → [M, N]` (contract the left operand's columns with the right
  operand's rows, no batch axis: `DotDims.plain M K N`), a product accumulated into the zero matrix is, at row `p` and
  column `j`, the sum over `k` of `L[p, k] · R[k, j]`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable (M K N : Nat)

/-- The left operand's row is the result's row. -/
theorem lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column is the contraction index. -/
theorem lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction index. -/
theorem rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the result's column. -/
theorem rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- THE PRODUCT AT `(p, j)`, accumulated into zero: `∑ₖ L[p, k] · R[k, j]` (stated over `matmul`, the name a printed
    program applies). -/
theorem matmul_zero_apply {φ₁ φ₂ : FTy} (prec : Option ContractPrecision)
    (L : FVec Ideal (⟨2, ![M, K]⟩ : Shape) φ₁) (R : FVec Ideal (⟨2, ![K, N]⟩ : Shape) φ₂) (p : Fin M) (j : Fin N) :
    matmul (F := Ideal) (DotDims.plain M K N) prec L R (constant (⟨2, ![M, N]⟩ : Shape) .f32 0x00000000#32) (ix2 p j)
      = ∑ k : Fin K, L (ix2 p k) * R (ix2 k j) := by
  show FloatOps.matmul (DotDims.plain M K N) prec L R (constant (⟨2, ![M, N]⟩ : Shape) .f32 0x00000000#32) (ix2 p j) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact lhs_0 M K N _ _
      | ⟨1, _⟩ => exact (lhs_1 M K N _ _).trans hk)
  have er : (DotDims.plain M K N).rhsIdx (ix2 p j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

end Idealize.ShloMosaic.PlainDot

end
-- ==== Proof.KI.LinVal.lean ====
import proofs.«419337_j61838939128118_1_alg».proof.Proof.Gen.KernelIdeal.Launch
import proofs.«419337_j61838939128118_1_alg».proof.Proof.Gen.KernelIdeal.Skeleton
import proofs.«419337_j61838939128118_1_alg».proof.Proof.Gen.KernelIdeal.Points
import proofs.«419337_j61838939128118_1_alg».proof.Proof.KI.Lin0
import proofs.«419337_j61838939128118_1_alg».proof.Proof.KI.Lin1
import proofs.«419337_j61838939128118_1_alg».proof.Proof.KI.Lin2
import proofs.«419337_j61838939128118_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the TensorCore's buffer contents when the region is entered
variable (V : (c : Dev nD) → (b : Ref sig .tc) → Buf (Elt Ideal) ((c : Thread nD τ).loc b))

/-! The arrays the three transforms read and write, each named at its literal type (`V` is the contents its call is
    entered with). -/
abbrev lin0X (c : Dev nD) : FVec Ideal S50000x128 .f32 := V c main_arg0
abbrev lin0W (c : Dev nD) : FVec Ideal S128x128 .f32 := V c main_arg3
abbrev lin0Out (c : Dev nD) : FVec Ideal S50000x128 .f32 := (dat0 V c).arrAt 2 cfg0.N
abbrev lin1H (c : Dev nD) : FVec Ideal S50000x128 .f32 := V c main_v49
abbrev lin1B (c : Dev nD) : FVec Ideal S1x128 .f32 := V c main_v50
abbrev lin1W (c : Dev nD) : FVec Ideal S128x128 .f32 := V c main_arg5
abbrev lin1Out (c : Dev nD) : FVec Ideal S50000x128 .f32 := (dat1 V c).arrAt 3 cfg1.N
abbrev lin2H (c : Dev nD) : FVec Ideal S50000x128 .f32 := V c main_v64
abbrev lin2B (c : Dev nD) : FVec Ideal S1x128 .f32 := V c main_v65
abbrev lin2W (c : Dev nD) : FVec Ideal S128x64 .f32 := V c main_arg7
abbrev lin2Out (c : Dev nD) : FVec Ideal S50000x64 .f32 := (dat2 V c).arrAt 3 cfg2.N

/-! ## The first transform: `x · W1` -/

/-- The product of a 50000-row feature array with a 128x128 weight, entry by entry. -/
def linProd128 (X : FVec Ideal S50000x128 .f32) (W : FVec Ideal S128x128 .f32) : FVec Ideal S50000x128 .f32 :=
  fun i => ∑ k : Fin 128, X (ix2 (i 0) k) * W (ix2 k (i 1))

theorem linProd128_apply (X : FVec Ideal S50000x128 .f32) (W : FVec Ideal S128x128 .f32) (r : Fin 50000) (j : Fin 128) :
    linProd128 X W (ix2 r j) = ∑ k : Fin 128, X (ix2 r k) * W (ix2 k j) := rfl

/-- The first transform's payload at row `p`, column `j` of its block. -/
theorem lin0_pay_apply (A : FVec Ideal S5000x128 .f32) (B : FVec Ideal S128x128 .f32) (p : Fin 5000) (j : Fin 128) :
    k0_pay1 (F := Ideal) A B (ix2 p j) = ∑ k : Fin 128, A (ix2 p k) * B (ix2 k j) := by
  unfold k0_pay1
  exact PlainDot.matmul_zero_apply 5000 128 128 none _ _ p j

theorem lin0_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The row-block window's block at point `t` is rows `5000·t …` of the feature array. -/
theorem lin0_blk0_apply (c : Dev nD) (t : Fin cfg0.N) (p : Fin 5000) (k : Fin 128) (r : Fin 50000)
    (hr : r.val = 5000 * t.val + p.val) :
    (blk0 V c 0 t : FVec Ideal S5000x128 .f32) (ix2 p k) = lin0X V c (ix2 r k) := by
  obtain ⟨e0, e1, -⟩ := lin0_idx t
  unfold blk0
  rw [View.read_apply]
  show V c main_arg0 _ = V c main_arg0 _
  congr 1
  funext a; apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight window's block is the whole weight at every point. -/
theorem lin0_blk1_apply (c : Dev nD) (t : Fin cfg0.N) (k j : Fin 128) :
    (blk0 V c 1 t : FVec Ideal S128x128 .f32) (ix2 k j) = lin0W V c (ix2 k j) := by
  obtain ⟨-, -, e0, e1, -⟩ := lin0_idx t
  unfold blk0
  rw [View.read_apply]
  show V c main_arg3 _ = V c main_arg3 _
  congr 1
  funext a; apply Fin.ext
  match a with
  | ⟨0, _⟩ => show win0_1.index t (0 : Fin 2) * 128 + 1 * k.val = k.val; rw [e0]; omega
  | ⟨1, _⟩ => show win0_1.index t (1 : Fin 2) * 128 + 1 * j.val = j.val; rw [e1]; omega

/-- What point `t` computes at row `p`, column `j` of its block is the product's entry at row `5000·t + p`. -/
theorem lin0_point (c : Dev nD) (t : Fin cfg0.N) (p : Fin 5000) (j : Fin 128) (r : Fin 50000)
    (hr : r.val = 5000 * t.val + p.val) :
    k0_pay1 (F := Ideal) (blk0 V c 0 t) (blk0 V c 1 t) (ix2 p j) = linProd128 (lin0X V c) (lin0W V c) (ix2 r j) := by
  refine (lin0_pay_apply (blk0 V c 0 t) (blk0 V c 1 t) p j).trans ?_
  rw [linProd128_apply]
  refine Finset.sum_congr rfl fun k _ => ?_
  exact congrArg₂ (· * ·) (lin0_blk0_apply V c t p k r hr) (lin0_blk1_apply V c t k j)

/-- What point `t` writes back is its block of the product. -/
theorem lin0_flushed (c : Dev nD) (t : Fin cfg0.N) :
    (dat0 V c).flushed 2 t = ((cfg0.win 2).blk t).view.read (Elt Ideal) (linProd128 (lin0X V c) (lin0W V c)) := by
  show (cfg0.win 2).cut (grid0.coords t) ((dat0 V c).after 2 t) = _
  rw [dat0_out]
  obtain ⟨-, -, -, -, e0, e1, ht⟩ := lin0_idx t
  funext y
  obtain ⟨p, j, rfl⟩ : ∃ (p : Fin 5000) (j : Fin 128), y = ix2 p j := ⟨y 0, y 1, eq_ix2 y⟩
  have hemb : ((cfg0.win 2).blk t).view.emb (ix2 p j) = (ix2 (⟨5000 * t.val + p.val, by omega⟩ : Fin 50000) j : S50000x128.Idx) := by
    funext a; apply Fin.ext
    match a with
    | ⟨0, _⟩ => show win0_2.index t (0 : Fin 2) * 5000 + 1 * p.val = 5000 * t.val + p.val; rw [e0]; omega
    | ⟨1, _⟩ => show win0_2.index t (1 : Fin 2) * 128 + 1 * j.val = j.val; rw [e1]; omega
  show k0_pay1 (F := Ideal) (blk0 V c 0 t) (blk0 V c 1 t) (ix2 p j) = linProd128 (lin0X V c) (lin0W V c) (((cfg0.win 2).blk t).view.emb (ix2 p j))
  rw [hemb]
  exact lin0_point V c t p j _ rfl

/-- An index of the result array is in point `t`'s block iff each coordinate is in the block's range on its axis. -/
theorem lin0_mem_out (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- Every row of the result lies in the block of the point `row / 5000`, which writes back. -/
theorem lin0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  have hq : (i 0).val / 5000 < grid0.N := by rw [hN]; omega
  obtain ⟨-, -, -, -, e0, e1, -⟩ := lin0_idx ⟨(i 0).val / 5000, hq⟩
  refine ⟨⟨(i 0).val / 5000, hq⟩, flush0_2 _, ?_⟩
  rw [lin0_mem_out]
  intro a
  match a with
  | ⟨0, _⟩ =>
    show win0_2.index ⟨(i 0).val / 5000, hq⟩ (0 : Fin 2) * 5000 ≤ (i 0).val ∧ (i 0).val < win0_2.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, hq⟩ (1 : Fin 2) * 128 ≤ (i 1).val ∧ (i 1).val < win0_2.index ⟨(i 0).val / 5000, hq⟩ (1 : Fin 2) * 128 + 128
    rw [e1]; omega

/-- After the ten write-backs the result array is the product. -/
theorem lin0_array (c : Dev nD) : lin0Out V c = linProd128 (lin0X V c) (lin0W V c) :=
  (dat0 V c).arrAt_eq_of_cover 2 (linProd128 (lin0X V c) (lin0W V c)) (fun t _ => lin0_flushed V c t) lin0_cover

/-- After the ten write-backs the first transform's result array holds, at row `r` and column `j`, the product's
    entry: the sum over `k` of `x[r, k] · W1[k, j]` on the extended reals. -/
theorem lin0_final (c : Dev nD) (r : Fin 50000) (j : Fin 128) :
    lin0Out V c (ix2 r j) = ∑ k : Fin 128, lin0X V c (ix2 r k) * lin0W V c (ix2 k j) :=
  congrFun (lin0_array V c) (ix2 r j)

/-! ## The second transform: `max (h + b) 0 · W2` -/

/-- The product of the rectified, biased feature array with a 128x128 weight, entry by entry: at `(r, j)` the sum over `k` of
    `max (H[r, k] + b[0, k]) 0 · W[k, j]`. -/
def linReluProd128 (H : FVec Ideal S50000x128 .f32) (b : FVec Ideal S1x128 .f32) (W : FVec Ideal S128x128 .f32) : FVec Ideal S50000x128 .f32 :=
  fun i => ∑ k : Fin 128, max (H (ix2 (i 0) k) + b (ix2 0 k)) 0 * W (ix2 k (i 1))

theorem linReluProd128_apply (H : FVec Ideal S50000x128 .f32) (b : FVec Ideal S1x128 .f32) (W : FVec Ideal S128x128 .f32) (r : Fin 50000) (j : Fin 128) :
    linReluProd128 H b W (ix2 r j) = ∑ k : Fin 128, max (H (ix2 r k) + b (ix2 0 k)) 0 * W (ix2 k j) := rfl

/-- The transform's payload at row `p`, column `j` of its block: the bias row is added to every row, the sum is rectified,
    and the result is multiplied into the weight. -/
theorem lin1_pay_apply (A : FVec Ideal S5000x128 .f32) (b : FVec Ideal S1x128 .f32) (B : FVec Ideal S128x128 .f32) (p : Fin 5000) (j : Fin 128) :
    k1_pay1 (F := Ideal) A b B (ix2 p j) = ∑ k : Fin 128, max (A (ix2 p k) + b (ix2 0 k)) 0 * B (ix2 k j) := by
  unfold k1_pay1
  refine (PlainDot.matmul_zero_apply 5000 128 128 none _ _ p j).trans ?_
  refine Finset.sum_congr rfl fun k _ => ?_
  refine congrArg₂ (· * ·) ?_ rfl
  show max (shapeCast S5000x128 A shapeCasts_S5000x128_S5000x128 (ix2 p k)
      + broadcastTo S5000x128 (shapeCast S1x128 b shapeCasts_S1x128_S1x128) broadcasts_S1x128_S5000x128 (ix2 p k))
    (Ideal.ofBits .f32 0x00000000#32) = _
  rw [shapeCast_self, shapeCast_self, broadcastTo_1b_ab_apply, Ideal.ofBits_zero_f32]

theorem lin1_idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- The row-block window's block at point `t` is rows `5000·t …` of the feature array. -/
theorem lin1_blk0_apply (c : Dev nD) (t : Fin cfg1.N) (p : Fin 5000) (k : Fin 128) (r : Fin 50000)
    (hr : r.val = 5000 * t.val + p.val) :
    (blk1 V c 0 t : FVec Ideal S5000x128 .f32) (ix2 p k) = lin1H V c (ix2 r k) := by
  obtain ⟨e0, e1, -⟩ := lin1_idx t
  unfold blk1
  rw [View.read_apply]
  show V c main_v49 _ = V c main_v49 _
  congr 1
  funext a; apply Fin.ext
  match a with
  | ⟨0, _⟩ => show win1_0.index t (0 : Fin 2) * 5000 + 1 * p.val = r.val; omega
  | ⟨1, _⟩ => show win1_0.index t (1 : Fin 2) * 128 + 1 * k.val = k.val; omega

/-- The bias window's block is the whole bias row at every point. -/
theorem lin1_blk1_apply (c : Dev nD) (t : Fin cfg1.N) (k : Fin 128) :
    (blk1 V c 1 t : FVec Ideal S1x128 .f32) (ix2 0 k) = lin1B V c (ix2 0 k) := by
  obtain ⟨-, -, e0, e1, -⟩ := lin1_idx t
  unfold blk1
  rw [View.read_apply]
  show V c main_v50 _ = V c main_v50 _
  congr 1
  funext a; apply Fin.ext
  match a with
  | ⟨0, _⟩ => show win1_1.index t (0 : Fin 2) * 1 + 1 * 0 = 0; omega
  | ⟨1, _⟩ => show win1_1.index t (1 : Fin 2) * 128 + 1 * k.val = k.val; omega

/-- The weight window's block is the whole weight at every point. -/
theorem lin1_blk2_apply (c : Dev nD) (t : Fin cfg1.N) (k : Fin 128) (j : Fin 128) :
    (blk1 V c 2 t : FVec Ideal S128x128 .f32) (ix2 k j) = lin1W V c (ix2 k j) := by
  obtain ⟨-, -, -, -, e0, e1, -⟩ := lin1_idx t
  unfold blk1
  rw [View.read_apply]
  show V c main_arg5 _ = V c main_arg5 _
  congr 1
  funext a; apply Fin.ext
  match a with
  | ⟨0, _⟩ => show win1_2.index t (0 : Fin 2) * 128 + 1 * k.val = k.val; omega
  | ⟨1, _⟩ => show win1_2.index t (1 : Fin 2) * 128 + 1 * j.val = j.val; omega

/-- What point `t` computes at row `p`, column `j` of its block is the entry at row `5000·t + p` of the whole product. -/
theorem lin1_point (c : Dev nD) (t : Fin cfg1.N) (p : Fin 5000) (j : Fin 128) (r : Fin 50000)
    (hr : r.val = 5000 * t.val + p.val) :
    k1_pay1 (F := Ideal) (blk1 V c 0 t) (blk1 V c 1 t) (blk1 V c 2 t) (ix2 p j)
      = linReluProd128 (lin1H V c) (lin1B V c) (lin1W V c) (ix2 r j) := by
  refine (lin1_pay_apply (blk1 V c 0 t) (blk1 V c 1 t) (blk1 V c 2 t) p j).trans ?_
  rw [linReluProd128_apply]
  refine Finset.sum_congr rfl fun k _ => ?_
  rw [lin1_blk0_apply V c t p k r hr, lin1_blk1_apply V c t k, lin1_blk2_apply V c t k j]

/-- What point `t` writes back is its block of the whole product. -/
theorem lin1_flushed (c : Dev nD) (t : Fin cfg1.N) :
    (dat1 V c).flushed 3 t
      = ((cfg1.win 3).blk t).view.read (Elt Ideal) (linReluProd128 (lin1H V c) (lin1B V c) (lin1W V c)) := by
  show (cfg1.win 3).cut (grid1.coords t) ((dat1 V c).after 3 t) = _
  rw [dat1_out]
  obtain ⟨-, -, -, -, -, -, e0, e1, ht⟩ := lin1_idx t
  funext y
  obtain ⟨p, j, rfl⟩ : ∃ (p : Fin 5000) (j : Fin 128), y = ix2 p j := ⟨y 0, y 1, eq_ix2 y⟩
  have hemb : ((cfg1.win 3).blk t).view.emb (ix2 p j)
      = (ix2 (⟨5000 * t.val + p.val, by omega⟩ : Fin 50000) j : S50000x128.Idx) := by
    funext a; apply Fin.ext
    match a with
    | ⟨0, _⟩ => show win1_3.index t (0 : Fin 2) * 5000 + 1 * p.val = 5000 * t.val + p.val; omega
    | ⟨1, _⟩ => show win1_3.index t (1 : Fin 2) * 128 + 1 * j.val = j.val; omega
  show k1_pay1 (F := Ideal) (blk1 V c 0 t) (blk1 V c 1 t) (blk1 V c 2 t) (ix2 p j)
    = linReluProd128 (lin1H V c) (lin1B V c) (lin1W V c) (((cfg1.win 3).blk t).view.emb (ix2 p j))
  rw [hemb]
  exact lin1_point V c t p j _ rfl

/-- An index of the result array is in point `t`'s block iff each coordinate is in the block's range on its axis. -/
theorem lin1_mem_out (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v51).slice (win1_3.rect t)).set ↔ _
  rw [View.set_slice_whole, Rect.mem_set_unit]
  exact Iff.rfl

/-- Every row of the result lies in the block of the point `row / 5000`, which writes back. -/
theorem lin1_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have hq : (i 0).val / 5000 < grid1.N := by rw [hN]; omega
  obtain ⟨-, -, -, -, -, -, e0, e1, -⟩ := lin1_idx ⟨(i 0).val / 5000, hq⟩
  refine ⟨⟨(i 0).val / 5000, hq⟩, flush1_3 _, ?_⟩
  rw [lin1_mem_out]
  intro a
  match a with
  | ⟨0, _⟩ =>
    show win1_3.index ⟨(i 0).val / 5000, hq⟩ (0 : Fin 2) * 5000 ≤ (i 0).val ∧ (i 0).val < win1_3.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win1_3.index ⟨(i 0).val / 5000, hq⟩ (1 : Fin 2) * 128 ≤ (i 1).val ∧ (i 1).val < win1_3.index ⟨(i 0).val / 5000, hq⟩ (1 : Fin 2) * 128 + 128
    rw [e1]; omega

/-- After the ten write-backs the result array is the whole product. -/
theorem lin1_array (c : Dev nD) : lin1Out V c = linReluProd128 (lin1H V c) (lin1B V c) (lin1W V c) :=
  (dat1 V c).arrAt_eq_of_cover 3 (linReluProd128 (lin1H V c) (lin1B V c) (lin1W V c)) (fun t _ => lin1_flushed V c t) lin1_cover

/-- The second transform's result array: `∑ₖ max (h[r, k] + b[0, k]) 0 · W2[k, j]`, `h` the aggregated features it reads,
    `b` the bias row. -/
theorem lin1_final (c : Dev nD) (r : Fin 50000) (j : Fin 128) :
    lin1Out V c (ix2 r j) = ∑ k : Fin 128, max (lin1H V c (ix2 r k) + lin1B V c (ix2 0 k)) 0 * lin1W V c (ix2 k j) :=
  congrFun (lin1_array V c) (ix2 r j)

/-! ## The third transform: `max (h + b) 0 · W3`, 64 columns -/

/-- The product of the rectified, biased feature array with a 128x64 weight, entry by entry: at `(r, j)` the sum over `k` of
    `max (H[r, k] + b[0, k]) 0 · W[k, j]`. -/
def linReluProd64 (H : FVec Ideal S50000x128 .f32) (b : FVec Ideal S1x128 .f32) (W : FVec Ideal S128x64 .f32) : FVec Ideal S50000x64 .f32 :=
  fun i => ∑ k : Fin 128, max (H (ix2 (i 0) k) + b (ix2 0 k)) 0 * W (ix2 k (i 1))

theorem linReluProd64_apply (H : FVec Ideal S50000x128 .f32) (b : FVec Ideal S1x128 .f32) (W : FVec Ideal S128x64 .f32) (r : Fin 50000) (j : Fin 64) :
    linReluProd64 H b W (ix2 r j) = ∑ k : Fin 128, max (H (ix2 r k) + b (ix2 0 k)) 0 * W (ix2 k j) := rfl

/-- The transform's payload at row `p`, column `j` of its block: the bias row is added to every row, the sum is rectified,
    and the result is multiplied into the weight. -/
theorem lin2_pay_apply (A : FVec Ideal S5000x128 .f32) (b : FVec Ideal S1x128 .f32) (B : FVec Ideal S128x64 .f32) (p : Fin 5000) (j : Fin 64) :
    k2_pay1 (F := Ideal) A b B (ix2 p j) = ∑ k : Fin 128, max (A (ix2 p k) + b (ix2 0 k)) 0 * B (ix2 k j) := by
  unfold k2_pay1
  refine (PlainDot.matmul_zero_apply 5000 128 64 none _ _ p j).trans ?_
  refine Finset.sum_congr rfl fun k _ => ?_
  refine congrArg₂ (· * ·) ?_ rfl
  show max (shapeCast S5000x128 A shapeCasts_S5000x128_S5000x128 (ix2 p k)
      + broadcastTo S5000x128 (shapeCast S1x128 b shapeCasts_S1x128_S1x128) broadcasts_S1x128_S5000x128 (ix2 p k))
    (Ideal.ofBits .f32 0x00000000#32) = _
  rw [shapeCast_self, shapeCast_self, broadcastTo_1b_ab_apply, Ideal.ofBits_zero_f32]

theorem lin2_idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 10 :=
  (by decide +kernel : ∀ t : Fin grid2.N, _)

/-- The row-block window's block at point `t` is rows `5000·t …` of the feature array. -/
theorem lin2_blk0_apply (c : Dev nD) (t : Fin cfg2.N) (p : Fin 5000) (k : Fin 128) (r : Fin 50000)
    (hr : r.val = 5000 * t.val + p.val) :
    (blk2 V c 0 t : FVec Ideal S5000x128 .f32) (ix2 p k) = lin2H V c (ix2 r k) := by
  obtain ⟨e0, e1, -⟩ := lin2_idx t
  unfold blk2
  rw [View.read_apply]
  show V c main_v64 _ = V c main_v64 _
  congr 1
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- The bias window's block is the whole bias row at every point. -/
theorem lin2_blk1_apply (c : Dev nD) (t : Fin cfg2.N) (k : Fin 128) :
    (blk2 V c 1 t : FVec Ideal S1x128 .f32) (ix2 0 k) = lin2B V c (ix2 0 k) := by
  obtain ⟨-, -, e0, e1, -⟩ := lin2_idx t
  unfold blk2
  rw [View.read_apply]
  show V c main_v65 _ = V c main_v65 _
  congr 1
  funext a; apply Fin.ext
  match a with
  | ⟨0, _⟩ => show win2_1.index t (0 : Fin 2) * 1 + 1 * 0 = 0; omega
  | ⟨1, _⟩ => show win2_1.index t (1 : Fin 2) * 128 + 1 * k.val = k.val; omega

/-- The weight window's block is the whole weight at every point. -/
theorem lin2_blk2_apply (c : Dev nD) (t : Fin cfg2.N) (k : Fin 128) (j : Fin 64) :
    (blk2 V c 2 t : FVec Ideal S128x64 .f32) (ix2 k j) = lin2W V c (ix2 k j) := by
  obtain ⟨-, -, -, -, e0, e1, -⟩ := lin2_idx t
  unfold blk2
  rw [View.read_apply]
  show V c main_arg7 _ = V c main_arg7 _
  congr 1
  funext a; apply Fin.ext
  match a with
  | ⟨0, _⟩ => show win2_2.index t (0 : Fin 2) * 128 + 1 * k.val = k.val; omega
  | ⟨1, _⟩ => show win2_2.index t (1 : Fin 2) * 64 + 1 * j.val = j.val; omega

/-- What point `t` computes at row `p`, column `j` of its block is the entry at row `5000·t + p` of the whole product. -/
theorem lin2_point (c : Dev nD) (t : Fin cfg2.N) (p : Fin 5000) (j : Fin 64) (r : Fin 50000)
    (hr : r.val = 5000 * t.val + p.val) :
    k2_pay1 (F := Ideal) (blk2 V c 0 t) (blk2 V c 1 t) (blk2 V c 2 t) (ix2 p j)
      = linReluProd64 (lin2H V c) (lin2B V c) (lin2W V c) (ix2 r j) := by
  refine (lin2_pay_apply (blk2 V c 0 t) (blk2 V c 1 t) (blk2 V c 2 t) p j).trans ?_
  rw [linReluProd64_apply]
  refine Finset.sum_congr rfl fun k _ => ?_
  rw [lin2_blk0_apply V c t p k r hr, lin2_blk1_apply V c t k, lin2_blk2_apply V c t k j]

/-- What point `t` writes back is its block of the whole product. -/
theorem lin2_flushed (c : Dev nD) (t : Fin cfg2.N) :
    (dat2 V c).flushed 3 t
      = ((cfg2.win 3).blk t).view.read (Elt Ideal) (linReluProd64 (lin2H V c) (lin2B V c) (lin2W V c)) := by
  show (cfg2.win 3).cut (grid2.coords t) ((dat2 V c).after 3 t) = _
  rw [dat2_out]
  obtain ⟨-, -, -, -, -, -, e0, e1, ht⟩ := lin2_idx t
  funext y
  obtain ⟨p, j, rfl⟩ : ∃ (p : Fin 5000) (j : Fin 64), y = ix2 p j := ⟨y 0, y 1, eq_ix2 y⟩
  have hemb : ((cfg2.win 3).blk t).view.emb (ix2 p j)
      = (ix2 (⟨5000 * t.val + p.val, by omega⟩ : Fin 50000) j : S50000x64.Idx) := by
    funext a; apply Fin.ext
    match a with
    | ⟨0, _⟩ => show win2_3.index t (0 : Fin 2) * 5000 + 1 * p.val = 5000 * t.val + p.val; omega
    | ⟨1, _⟩ => show win2_3.index t (1 : Fin 2) * 64 + 1 * j.val = j.val; omega
  show k2_pay1 (F := Ideal) (blk2 V c 0 t) (blk2 V c 1 t) (blk2 V c 2 t) (ix2 p j)
    = linReluProd64 (lin2H V c) (lin2B V c) (lin2W V c) (((cfg2.win 3).blk t).view.emb (ix2 p j))
  rw [hemb]
  exact lin2_point V c t p j _ rfl

/-- An index of the result array is in point `t`'s block iff each coordinate is in the block's range on its axis. -/
theorem lin2_mem_out (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v66).slice (win2_3.rect t)).set ↔ _
  rw [View.set_slice_whole, Rect.mem_set_unit]
  exact Iff.rfl

/-- Every row of the result lies in the block of the point `row / 5000`, which writes back. -/
theorem lin2_cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  have hq : (i 0).val / 5000 < grid2.N := by rw [hN]; omega
  obtain ⟨-, -, -, -, -, -, e0, e1, -⟩ := lin2_idx ⟨(i 0).val / 5000, hq⟩
  refine ⟨⟨(i 0).val / 5000, hq⟩, flush2_3 _, ?_⟩
  rw [lin2_mem_out]
  intro a
  match a with
  | ⟨0, _⟩ =>
    show win2_3.index ⟨(i 0).val / 5000, hq⟩ (0 : Fin 2) * 5000 ≤ (i 0).val ∧ (i 0).val < win2_3.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, hq⟩ (1 : Fin 2) * 64 ≤ (i 1).val ∧ (i 1).val < win2_3.index ⟨(i 0).val / 5000, hq⟩ (1 : Fin 2) * 64 + 64
    rw [e1]; omega

/-- After the ten write-backs the result array is the whole product. -/
theorem lin2_array (c : Dev nD) : lin2Out V c = linReluProd64 (lin2H V c) (lin2B V c) (lin2W V c) :=
  (dat2 V c).arrAt_eq_of_cover 3 (linReluProd64 (lin2H V c) (lin2B V c) (lin2W V c)) (fun t _ => lin2_flushed V c t) lin2_cover

/-- The third transform's result array, 64 columns wide. -/
theorem lin2_final (c : Dev nD) (r : Fin 50000) (j : Fin 64) :
    lin2Out V c (ix2 r j) = ∑ k : Fin 128, max (lin2H V c (ix2 r k) + lin2B V c (ix2 0 k)) 0 * lin2W V c (ix2 k j) :=
  congrFun (lin2_array V c) (ix2 r j)

end Cert.KernelIdeal.Hand

end
-- ==== Proof.KI.PoolVal.lean ====
import proofs.«419337_j61838939128118_1_alg».proof.Proof.Gen.KernelIdeal.Launch
import proofs.«419337_j61838939128118_1_alg».proof.Proof.Gen.KernelIdeal.Skeleton
import proofs.«419337_j61838939128118_1_alg».proof.Proof.Gen.KernelIdeal.Points
import proofs.«419337_j61838939128118_1_alg».proof.Proof.KI.Pool
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

-- the TensorCore's buffer contents when the region is entered
variable (V : (c : Dev nD) → (b : Ref sig .tc) → Buf (Elt Ideal) ((c : Thread nD τ).loc b))

/-! The arrays the pooling call reads and writes, each named at its literal type. -/
abbrev poolH (c : Dev nD) : FVec Ideal S50000x64 .f32 := V c main_v79
abbrev poolB (c : Dev nD) : FVec Ideal S1x64 .f32 := V c main_v80
abbrev poolIds (c : Dev nD) : IVec S50000x1 32 := V c main_v35
abbrev poolOut (c : Dev nD) : FVec Ideal S512x64 .f32 := (dat3 V c).arrAt 3 cfg3.N

/-! ## One tile's partial sums -/

/-- The pooling product's dimension numbers: both operands are contracted on their rows. -/
abbrev poolDot : DotDims S5000x512 S5000x64 S512x64 := dot_S5000x512_S5000x64_S512x64_0_0_1_1_n_n

/-- Its contraction index is a row number of the tile. -/
def poolK : poolDot.contr.Idx ≃ Fin 5000 := contrEquiv1 poolDot 5000 rfl rfl

/-- At output entry (g, d) and row r the one-hot operand is read at (r, g) … -/
theorem poolDot_lhs (g : Fin 512) (d : Fin 64) (r : Fin 5000) :
    poolDot.lhsIdx (ix2 g d) (poolK.symm r) = ix2 r g := by
  funext a
  apply Fin.ext
  match a with
  | ⟨0, _⟩ =>
    refine (poolDot.lhsIdx_val_of_single (cl := (0 : Fin 2)) rfl (ix2 g d) (poolK.symm r)).trans ?_
    exact contrEquiv1_symm_val poolDot 5000 rfl rfl r
  | ⟨1, _⟩ =>
    simp [DotDims.lhsIdx, poolDot, dot_S5000x512_S5000x64_S512x64_0_0_1_1_n_n]
    rfl

/-- … and the block operand at (r, d). -/
theorem poolDot_rhs (g : Fin 512) (d : Fin 64) (r : Fin 5000) :
    poolDot.rhsIdx (ix2 g d) (poolK.symm r) = ix2 r d := by
  funext a
  apply Fin.ext
  match a with
  | ⟨0, _⟩ =>
    refine (poolDot.rhsIdx_val_of_single (cr := (0 : Fin 2)) rfl (ix2 g d) (poolK.symm r)).trans ?_
    exact contrEquiv1_symm_val poolDot 5000 rfl rfl r
  | ⟨1, _⟩ =>
    simp [DotDims.rhsIdx, poolDot, dot_S5000x512_S5000x64_S512x64_0_0_1_1_n_n]
    rfl

/-- The one-hot word: the comparison bit, widened and converted, is the extended real 1 where the two words agree and 0
    elsewhere. -/
theorem onehot_word (a b : BitVec 32) :
    (FloatOps.sitofp (F := Ideal) .f32 ((IntOp.cmpi .eq a b).setWidth 32) : Ideal .f32) = if a = b then 1 else 0 := by
  by_cases h : a = b
  · subst h
    rw [if_pos rfl]
    simp only [IntOp.cmpi, beq_self_eq_true]
    show (((BitVec.toInt (BitVec.setWidth 32 (BitVec.ofBool true)) : ℤ) : ℝ) : EReal) = 1
    rw [show BitVec.toInt (BitVec.setWidth 32 (BitVec.ofBool true)) = 1 from by decide]
    simp
  · rw [if_neg h]
    have hb : (a == b) = false := by simpa using h
    simp only [IntOp.cmpi, hb]
    show (((BitVec.toInt (BitVec.setWidth 32 (BitVec.ofBool false)) : ℤ) : ℝ) : EReal) = 0
    rw [show BitVec.toInt (BitVec.setWidth 32 (BitVec.ofBool false)) = 0 from by decide]
    simp

/-- The accumulator is reset to the zero array. -/
theorem pay1_apply (j : S512x64.Idx) : k3_pay1 (F := Ideal) j = 0 := by
  unfold k3_pay1
  simp only [shapeCast_self]
  exact Ideal.ofBits_zero_f32

/-- ONE TILE: at graph g and column d the body adds to the accumulator the sum, over the tile's 5000 rows, of the row's
    entry plus the bias where the row's id word is g, and nothing for the other rows (the one-hot factor is 1 or 0, and
    0 times any extended real is 0). -/
theorem pay2_apply (x3 : Vec Ideal S5000x64 .f32) (x5 : Vec Ideal S1x64 .f32) (x10 : Vec Ideal S5000x1 .i32)
    (s : Vec Ideal S512x64 .f32) (g : Fin 512) (d : Fin 64) :
    k3_pay2 x3 x5 x10 s (ix2 g d)
      = s (ix2 g d) + ∑ p : Fin 5000, (if x10 (ix2 p 0) = BitVec.ofNat 32 g.val then x3 (ix2 p d) + x5 (ix2 0 d) else 0) := by
  unfold k3_pay2
  simp only [shapeCast_self, matmul]
  rw [addf_apply, Ideal.matmul_constant_zero_apply, ← Equiv.sum_comp poolK.symm]
  refine congrArg (s (ix2 g d) + ·) (Finset.sum_congr rfl fun p _ => ?_)
  rw [poolDot_lhs, poolDot_rhs, truncf_apply, truncf_apply, sitofp_apply, extui_apply, addf_apply]
  have e1 : broadcastTo S5000x512 x10 broadcasts_S5000x1_S5000x512 (ix2 p g) = x10 (ix2 p 0) :=
    broadcastTo_apply x10 _ (ix2 p g) (ix2 p 0) fun a => by
      match a with
      | ⟨0, _⟩ => rfl
      | ⟨1, _⟩ => rfl
  have e2 : iota Kind.tc S5000x512 32 [1] iota_S5000x512_d1_w32 (ix2 p g) = BitVec.ofNat 32 g.val :=
    iota_single_apply _ _ _ _ _ _
  have e3 : broadcastTo S5000x64 x5 broadcasts_S1x64_S5000x64 (ix2 p d) = x5 (ix2 0 d) :=
    broadcastTo_apply x5 _ (ix2 p d) (ix2 0 d) fun a => by
      match a with
      | ⟨0, _⟩ => rfl
      | ⟨1, _⟩ => rfl
  show FloatOps.sitofp (F := Ideal) FTy.f32 (BitVec.setWidth 32 (IntOp.cmpi CmpIPredicate.eq
      (broadcastTo S5000x512 x10 broadcasts_S5000x1_S5000x512 (ix2 p g))
      (iota Kind.tc S5000x512 32 [1] iota_S5000x512_d1_w32 (ix2 p g)))) * _ = _
  rw [e1, e2, e3, onehot_word]
  split
  · exact one_mul _
  · exact zero_mul _

/-! ## Where the windows' blocks sit in their arrays -/

/-- The row blocks of the node array move with the point, … -/
theorem index3_0 : ∀ t : Fin grid3.N, win3_0.index t 0 = t.val ∧ win3_0.index t 1 = 0 := by decide +kernel
/-- … the bias row stays, … -/
theorem index3_1 : ∀ t : Fin grid3.N, win3_1.index t 0 = 0 ∧ win3_1.index t 1 = 0 := by decide +kernel
/-- … the id blocks move with the point, … -/
theorem index3_2 : ∀ t : Fin grid3.N, win3_2.index t 0 = t.val ∧ win3_2.index t 1 = 0 := by decide +kernel
/-- … and the output's block is the whole array at every point. -/
theorem index3_3 : ∀ t : Fin grid3.N, win3_3.index t 0 = 0 ∧ win3_3.index t 1 = 0 := by decide +kernel

/-- Row p of the node block at point t is row 5000·t + p of the node array. -/
theorem blkH_apply (c : Dev nD) (t : Fin cfg3.N) (p : Fin 5000) (d : Fin 64) (h : 5000 * t.val + p.val < 50000) :
    (blk3 V c 0 t : Vec Ideal S5000x64 .f32) (ix2 p d) = poolH V c (ix2 ⟨5000 * t.val + p.val, h⟩ d) := by
  unfold blk3
  rw [View.read_apply]
  show V c main_v79 _ = V c main_v79 _
  congr 1
  funext a
  apply Fin.ext
  match a with
  | ⟨0, _⟩ => show win3_0.index t 0 * 5000 + 1 * p.val = 5000 * t.val + p.val; rw [(index3_0 t).1]; omega
  | ⟨1, _⟩ => show win3_0.index t 1 * 64 + 1 * d.val = d.val; rw [(index3_0 t).2]; omega

/-- The id word of row p of the id block at point t is that of row 5000·t + p of the id array. -/
theorem blkIds_apply (c : Dev nD) (t : Fin cfg3.N) (p : Fin 5000) (h : 5000 * t.val + p.val < 50000) :
    (blk3 V c 2 t : Vec Ideal S5000x1 .i32) (ix2 p 0) = poolIds V c (ix2 ⟨5000 * t.val + p.val, h⟩ 0) := by
  unfold blk3
  rw [View.read_apply]
  show V c main_v35 _ = V c main_v35 _
  congr 1
  funext a
  apply Fin.ext
  match a with
  | ⟨0, _⟩ => show win3_2.index t 0 * 5000 + 1 * p.val = 5000 * t.val + p.val; rw [(index3_2 t).1]; omega
  | ⟨1, _⟩ => show win3_2.index t 1 * 1 + 1 * 0 = 0; rw [(index3_2 t).2]

/-- The bias block is the bias row at every point. -/
theorem blkB_apply (c : Dev nD) (t : Fin cfg3.N) (d : Fin 64) :
    (blk3 V c 1 t : Vec Ideal S1x64 .f32) (ix2 0 d) = poolB V c (ix2 0 d) := by
  unfold blk3
  rw [View.read_apply]
  show V c main_v80 _ = V c main_v80 _
  congr 1
  funext a
  apply Fin.ext
  match a with
  | ⟨0, _⟩ => show win3_1.index t 0 * 1 + 1 * 0 = 0; rw [(index3_1 t).1]
  | ⟨1, _⟩ => show win3_1.index t 1 * 64 + 1 * d.val = d.val; rw [(index3_1 t).2]; omega

/-! ## The array after the write-backs -/

theorem N3 : cfg3.N = 10 := by decide

/-- The last point. -/
abbrev t9 : Fin cfg3.N := ⟨9, by rw [N3]; decide⟩

/-- What the accumulator holds after the last point, as contents of the pooled sums' array (whose one block is the
    whole array). -/
abbrev poolRes (c : Dev nD) : Buf (Elt Ideal) ((c : Thread nD τ).loc main_v81) := accAt V c t9.val t9.isLt

/-- The one write-back, at the last point, writes it: the block at index (0, 0) of the sizes of the array is the array. -/
theorem flushed3_eq (c : Dev nD) (t : Fin cfg3.N) (hf : (cfg3.win 3).flush t = true) :
    (dat3 V c).flushed 3 t = ((cfg3.win 3).blk t).view.read (Elt Ideal) (poolRes V c) := by
  have hN : cfg3.N = 10 := N3
  have h9 : t.val = 9 := by have := (flush3_3 t).mp hf; have := t.isLt; omega
  obtain rfl : t = t9 := Fin.ext h9
  show (cfg3.win 3).cut (grid3.coords t9) ((dat3 V c).after 3 t9) = _
  rw [dat3_out]
  have hz' : (fun a => win3_3.index t9 a * main_v81.ty.shape.size a) = fun _ => 0 :=
    funext fun a => by fin_cases a <;> decide +kernel
  exact (Memref.read_access_unit_zero (Elt Ideal) main_v81 hz' (fun a => by rw [congrFun hz' a]; simp) (poolRes V c)).symm

/-- Every entry of the array is in the last point's block. -/
theorem cover3 (i : S512x64.Idx) :
    ∃ t : Fin cfg3.N, (cfg3.win 3).flush t = true ∧ i ∈ ((cfg3.win 3).blk t).view.set := by
  have h0 : (i 0 : Nat) < 512 := (i 0).isLt
  have h1 : (i 1 : Nat) < 64 := (i 1).isLt
  refine ⟨t9, (flush3_3 t9).mpr rfl, ?_⟩
  show i ∈ ((View.whole main_v81).slice (win3_3.rect t9)).set
  rw [View.set_slice_whole, Rect.mem_set_unit]
  intro a
  match a with
  | ⟨0, _⟩ =>
    show win3_3.index t9 0 * win3_3.size 0 ≤ (i 0 : Nat) ∧ (i 0 : Nat) < win3_3.index t9 0 * win3_3.size 0 + win3_3.xsize (grid3.coords t9) 0
    rw [show win3_3.index t9 0 * win3_3.size 0 = 0 from by decide +kernel, show win3_3.xsize (grid3.coords t9) 0 = 512 from by decide +kernel]
    omega
  | ⟨1, _⟩ =>
    show win3_3.index t9 1 * win3_3.size 1 ≤ (i 1 : Nat) ∧ (i 1 : Nat) < win3_3.index t9 1 * win3_3.size 1 + win3_3.xsize (grid3.coords t9) 1
    rw [show win3_3.index t9 1 * win3_3.size 1 = 0 from by decide +kernel, show win3_3.xsize (grid3.coords t9) 1 = 64 from by decide +kernel]
    omega

/-- So the pooled sums' array ends holding what the accumulator held after the last point. -/
theorem poolOut_eq (c : Dev nD) : poolOut V c = accAt V c t9.val t9.isLt :=
  (dat3 V c).arrAt_eq_of_cover 3 (poolRes V c) (flushed3_eq V c) cover3

/-! ## The accumulator after each point, and the pooled sums -/

/-- Row r's share of graph g's pooled sum at column d: its entry plus the bias if its id word is g, else nothing
    (rows are numbered by naturals; past the array there is nothing). -/
def rowTerm (c : Dev nD) (g : Fin 512) (d : Fin 64) (r : ℕ) : Ideal .f32 :=
  if h : r < 50000 then
    (if poolIds V c (ix2 ⟨r, h⟩ 0) = BitVec.ofNat 32 g.val then poolH V c (ix2 ⟨r, h⟩ d) + poolB V c (ix2 0 d) else 0)
  else 0

/-- The body at point t adds to the accumulator the shares of the rows 5000·t … 5000·t + 4999. -/
theorem tile_at (c : Dev nD) (t : Fin cfg3.N) (s : Vec Ideal S512x64 .f32) (g : Fin 512) (d : Fin 64) :
    k3_pay2 (blk3 V c 0 t) (blk3 V c 1 t) (blk3 V c 2 t) s (ix2 g d)
      = s (ix2 g d) + ∑ p : Fin 5000, rowTerm V c g d (5000 * t.val + p.val) := by
  have hN : cfg3.N = 10 := N3
  rw [pay2_apply]
  refine congrArg (s (ix2 g d) + ·) (Finset.sum_congr rfl fun p _ => ?_)
  have h : 5000 * t.val + p.val < 50000 := by have := t.isLt; have := p.isLt; omega
  rw [blkIds_apply V c t p h, blkH_apply V c t p d h, blkB_apply V c t d]
  unfold rowTerm
  rw [dif_pos h]

/-- After point n the accumulator holds the shares of the rows below 5000·(n + 1): the first point starts from zero,
    every later one adds its tile's onto what the point before left. -/
theorem accAt_apply (c : Dev nD) (g : Fin 512) (d : Fin 64) : ∀ (n : ℕ) (h : n < cfg3.N),
    accAt V c n h (ix2 g d) = ∑ q ∈ Finset.range (n + 1), ∑ p : Fin 5000, rowTerm V c g d (5000 * q + p.val)
  | 0, h => by
    rw [accAt, tile_at V c ⟨0, h⟩, pay1_apply, zero_add, Finset.sum_range_one]
  | n + 1, h => by
    rw [accAt, tile_at V c ⟨n + 1, h⟩, accAt_apply c g d n (Nat.lt_of_succ_lt h), Finset.sum_range_succ _ (n + 1)]

/-- A sum over the rows of an array of m·n rows is the sum over its m blocks of n rows of each block's sum. -/
theorem sum_rows_blocks {M : Type*} [AddCommMonoid M] (m n : ℕ) (F : ℕ → M) :
    ∑ r : Fin (m * n), F r.val = ∑ q ∈ Finset.range m, ∑ p : Fin n, F (n * q + p.val) := by
  rw [← Equiv.sum_comp finProdFinEquiv, Fintype.sum_prod_type, ← Fin.sum_univ_eq_sum_range]
  refine Finset.sum_congr rfl fun q _ => Finset.sum_congr rfl fun p _ => ?_
  rw [finProdFinEquiv_apply_val, Nat.add_comm]

/-- After the region the pooled sums' array holds, at graph `g` and column `d`, the sum over ALL 50000 rows `r` of
    `h[r, d] + b[0, d]` for the rows whose id word is `g` (a row of another id, or of an id outside 0..511,
    contributes nothing). -/
theorem pool_final (c : Dev nD) (g : Fin 512) (d : Fin 64) :
    poolOut V c (ix2 g d)
      = ∑ r : Fin 50000, (if poolIds V c (ix2 r 0) = BitVec.ofNat 32 g.val then poolH V c (ix2 r d) + poolB V c (ix2 0 d) else 0) := by
  rw [poolOut_eq, accAt_apply]
  refine ((sum_rows_blocks 10 5000 (rowTerm V c g d)).symm).trans (Finset.sum_congr rfl fun r _ => ?_)
  unfold rowTerm
  rw [dif_pos r.isLt]

end Cert.KernelIdeal.Hand

end
-- ==== Proof.Bridge.HostChain.lean ====
import proofs.«419337_j61838939128118_1_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The host glue of the three-layer graph convolution, as functions

Every definition below is the composition of the printed host operations that compute the value, in program
order; nothing is simplified. -/

/-- An index column as a gather or scatter reads it, after the wrap of negative indices: `i + 50000` where
    `i < 0`, else `i`; then the trailing unit axis. -/
def wrapCol (i : IVec S850000 32) : IVec S850000x1 32 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

/-- The sources of all edges: row 0 of the edge list, then one self loop per node. -/
def srcAll (e : IVec S2x800000 32) : IVec S850000 32 :=
  concatenate S850000 0
    [⟨S800000, shapeCast S800000 (extractStridedSlice S1x800000 ![0, 0] e slices_S2x800000_S1x800000_0_0) shapeCasts_S1x800000_S800000⟩,
     ⟨S50000, iotaInDim S50000 32 0⟩] concatenates_S800000_S50000_S850000_d0

/-- The targets of all edges: row 1 of the edge list, then one self loop per node. -/
def dstAll (e : IVec S2x800000 32) : IVec S850000 32 :=
  concatenate S850000 0
    [⟨S800000, shapeCast S800000 (extractStridedSlice S1x800000 ![1, 0] e slices_S2x800000_S1x800000_1_0) shapeCasts_S1x800000_S800000⟩,
     ⟨S50000, iotaInDim S50000 32 0⟩] concatenates_S800000_S50000_S850000_d0

/-- The in-degree of every node, self loop included: ones added at the targets. -/
def degOf (e : IVec S2x800000 32) : FVec F S50000 .f32 :=
  Host.scatterAdd scatter_S50000_S850000x1_S850000_n_0_0_1
    (broadcastInDim S50000 ![] bcast_S_S50000 (constant S_ .f32 0x00000000#32))
    (wrapCol (dstAll e))
    (broadcastInDim S850000 ![] bcast_S_S850000 (constant S_ .f32 0x3F800000#32))

/-- The inverse square root of the degree where it is positive, zero elsewhere. -/
def dinvOf (e : IVec S2x800000 32) : FVec F S50000 .f32 :=
  select (cmpf .ogt (degOf (F := F) e) (broadcastInDim S50000 ![] bcast_S_S50000 (constant S_ .f32 0x00000000#32)))
    (Host.rsqrt (degOf (F := F) e))
    (broadcastInDim S50000 ![] bcast_S_S50000 (constant S_ .f32 0x00000000#32))

/-- The symmetric normalisation of every edge: the inverse root degrees of its two ends, multiplied. -/
def normOf (e : IVec S2x800000 32) : FVec F S850000 .f32 :=
  mulf (Host.gather gather_S50000_S850000x1_S850000_n_0_n_n_0_1_1 (dinvOf (F := F) e) (wrapCol (srcAll e)))
    (Host.gather gather_S50000_S850000x1_S850000_n_0_n_n_0_1_1 (dinvOf (F := F) e) (wrapCol (dstAll e)))

/-- One aggregation at 128 features: the rows of `h` at the edges' sources, each scaled by its edge's
    normalisation, summed into the rows of the edges' targets. -/
def agg128 (h : FVec F S50000x128 .f32) (src dst : IVec S850000 32) (nrm : FVec F S850000 .f32) : FVec F S50000x128 .f32 :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf (Host.gather gather_S50000x128_S850000x1_S850000x128_1_0_n_n_0_1_1128 h (wrapCol src))
      (broadcastInDim S850000x128 ![0, 1] bcast_S850000x1_S850000x128_0_1
        (broadcastInDim S850000x1 ![0] bcast_S850000_S850000x1_0 nrm)))

/-- The same aggregation at 64 features. -/
def agg64 (h : FVec F S50000x64 .f32) (src dst : IVec S850000 32) (nrm : FVec F S850000 .f32) : FVec F S50000x64 .f32 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf (Host.gather gather_S50000x64_S850000x1_S850000x64_1_0_n_n_0_1_164 h (wrapCol src))
      (broadcastInDim S850000x64 ![0, 1] bcast_S850000x1_S850000x64_0_1
        (broadcastInDim S850000x1 ![0] bcast_S850000_S850000x1_0 nrm)))

/-- A bias vector as a one-row matrix. -/
def rowOf128 (b : FVec F S128 .f32) : FVec F S1x128 .f32 := shapeCast S1x128 b shapeCasts_S128_S1x128
def rowOf64 (b : FVec F S64 .f32) : FVec F S1x64 .f32 := shapeCast S1x64 b shapeCasts_S64_S1x64

/-- The graph ids as a one-column matrix. -/
def colOfIds (ids : IVec S50000 32) : IVec S50000x1 32 := shapeCast S50000x1 ids shapeCasts_S50000_S50000x1

/-- The mean pool's last step: each graph's summed row divided by its node count, the count clipped below at one. -/
def finish (sums : FVec F S512x64 .f32) (ids : IVec S50000 32) : FVec F S512x64 .f32 :=
  Host.divf sums
    (broadcastInDim S512x64 ![0, 1] bcast_S512x1_S512x64_0_1
      (broadcastInDim S512x1 ![0] bcast_S512_S512x1_0
        (maximumf (broadcastInDim S512 ![] bcast_S_S512 (constant S_ .f32 0x3F800000#32))
          (Host.scatterAdd scatter_S512_S50000x1_S50000_n_0_0_1
            (broadcastInDim S512 ![] bcast_S_S512 (constant S_ .f32 0x00000000#32))
            (broadcastInDim S50000x1 ![0] bcast_S50000_S50000x1_0 ids)
            (broadcastInDim S50000 ![] bcast_S_S50000 (constant S_ .f32 0x3F800000#32))))))

/-! ## Each stretch of host operations computes these functions

For any contents `W` of the buffers before a stretch, the buffer a later region or stretch reads holds, after the
stretch, the function above of the contents of the buffers the stretch reads: the fold of the operations' results,
one operation at a time. -/

set_option maxHeartbeats 4000000

/-! ### Before the first feature transform: the edge lists, the normalisation, the graph ids as a column -/

theorem k_stretch0_src (W : Valuation τ sig (Elt F)) :
    StableHlo.after hostOps0_2 (StableHlo.after hostOps0_1 (StableHlo.after hostOps0 W)) main_v5 = srcAll (W main_arg1) := by
  show StableHlo.after hostOps0_2 (StableHlo.after hostOps0_1 (StableHlo.after hostOps0 W)) (Proc.devRef .tc main_v5) = _
  after_results_simp
  rfl

theorem k_stretch0_dst (W : Valuation τ sig (Elt F)) :
    StableHlo.after hostOps0_2 (StableHlo.after hostOps0_1 (StableHlo.after hostOps0 W)) main_v6 = dstAll (W main_arg1) := by
  show StableHlo.after hostOps0_2 (StableHlo.after hostOps0_1 (StableHlo.after hostOps0 W)) (Proc.devRef .tc main_v6) = _
  after_results_simp
  rfl

theorem k_stretch0_nrm (W : Valuation τ sig (Elt F)) :
    StableHlo.after hostOps0_2 (StableHlo.after hostOps0_1 (StableHlo.after hostOps0 W)) main_v34 = normOf (W main_arg1) := by
  show StableHlo.after hostOps0_2 (StableHlo.after hostOps0_1 (StableHlo.after hostOps0 W)) (Proc.devRef .tc main_v34) = _
  after_results_simp
  simp only [TRef.ofBuf, TRef.toBuf, cast_eq]
  rfl

theorem k_stretch0_ids (W : Valuation τ sig (Elt F)) :
    StableHlo.after hostOps0_2 (StableHlo.after hostOps0_1 (StableHlo.after hostOps0 W)) main_v35 = colOfIds (W main_arg2) := by
  show StableHlo.after hostOps0_2 (StableHlo.after hostOps0_1 (StableHlo.after hostOps0 W)) (Proc.devRef .tc main_v35) = _
  after_results_simp
  rfl

theorem k_stretch0 (W : Valuation τ sig (Elt F)) :
    let W3 := StableHlo.after hostOps0_2 (StableHlo.after hostOps0_1 (StableHlo.after hostOps0 W))
    W3 main_v5 = srcAll (W main_arg1) ∧ W3 main_v6 = dstAll (W main_arg1) ∧ W3 main_v34 = normOf (W main_arg1)
      ∧ W3 main_v35 = colOfIds (W main_arg2) :=
  ⟨k_stretch0_src W, k_stretch0_dst W, k_stretch0_nrm W, k_stretch0_ids W⟩

/-! ### Between the feature transforms: one aggregation and the next bias as a row -/

theorem k_stretch1_agg (W : Valuation τ sig (Elt F)) :
    StableHlo.after hostOps1 W main_v49 = agg128 (W main_v36) (W main_v5) (W main_v6) (W main_v34) := by
  show StableHlo.after hostOps1 W (Proc.devRef .tc main_v49) = _
  after_results_simp
  rfl

theorem k_stretch1_row (W : Valuation τ sig (Elt F)) :
    StableHlo.after hostOps1 W main_v50 = rowOf128 (W main_arg4) := by
  show StableHlo.after hostOps1 W (Proc.devRef .tc main_v50) = _
  after_results_simp
  rfl

theorem k_stretch1 (W : Valuation τ sig (Elt F)) :
    StableHlo.after hostOps1 W main_v49 = agg128 (W main_v36) (W main_v5) (W main_v6) (W main_v34)
      ∧ StableHlo.after hostOps1 W main_v50 = rowOf128 (W main_arg4) :=
  ⟨k_stretch1_agg W, k_stretch1_row W⟩

theorem k_stretch2_agg (W : Valuation τ sig (Elt F)) :
    StableHlo.after hostOps2 W main_v64 = agg128 (W main_v51) (W main_v5) (W main_v6) (W main_v34) := by
  show StableHlo.after hostOps2 W (Proc.devRef .tc main_v64) = _
  after_results_simp
  rfl

theorem k_stretch2_row (W : Valuation τ sig (Elt F)) :
    StableHlo.after hostOps2 W main_v65 = rowOf128 (W main_arg6) := by
  show StableHlo.after hostOps2 W (Proc.devRef .tc main_v65) = _
  after_results_simp
  rfl

theorem k_stretch2 (W : Valuation τ sig (Elt F)) :
    StableHlo.after hostOps2 W main_v64 = agg128 (W main_v51) (W main_v5) (W main_v6) (W main_v34)
      ∧ StableHlo.after hostOps2 W main_v65 = rowOf128 (W main_arg6) :=
  ⟨k_stretch2_agg W, k_stretch2_row W⟩

theorem k_stretch3_agg (W : Valuation τ sig (Elt F)) :
    StableHlo.after hostOps3 W main_v79 = agg64 (W main_v66) (W main_v5) (W main_v6) (W main_v34) := by
  show StableHlo.after hostOps3 W (Proc.devRef .tc main_v79) = _
  after_results_simp
  rfl

theorem k_stretch3_row (W : Valuation τ sig (Elt F)) :
    StableHlo.after hostOps3 W main_v80 = rowOf64 (W main_arg8) := by
  show StableHlo.after hostOps3 W (Proc.devRef .tc main_v80) = _
  after_results_simp
  rfl

theorem k_stretch3 (W : Valuation τ sig (Elt F)) :
    StableHlo.after hostOps3 W main_v79 = agg64 (W main_v66) (W main_v5) (W main_v6) (W main_v34)
      ∧ StableHlo.after hostOps3 W main_v80 = rowOf64 (W main_arg8) :=
  ⟨k_stretch3_agg W, k_stretch3_row W⟩

/-! ### After the pooling kernel: the division by the clipped node counts -/

theorem k_stretch4 (W : Valuation τ sig (Elt F)) :
    StableHlo.after hostOps4_2 (StableHlo.after hostOps4_1 (StableHlo.after hostOps4 W)) main_v89 = finish (W main_v81) (W main_arg2) := by
  show StableHlo.after hostOps4_2 (StableHlo.after hostOps4_1 (StableHlo.after hostOps4 W)) (Proc.devRef .tc main_v89) = _
  after_results_simp
  simp only [TRef.ofBuf, TRef.toBuf, cast_eq]
  rfl

end Cert.KernelIdeal.Hand

end
-- ==== Proof.Bridge.RefChain.lean ====
import proofs.«419337_j61838939128118_1_alg».proof.Proof.Bridge.HostChain
import proofs.«419337_j61838939128118_1_alg».proof.Proof.RefRead

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The reference's host stages are the same functions

The reference recomputes the edge lists and the normalisation in each of its three layers; each copy is the same
composition of the same operations as the kernel program's single one, so each equation holds by unfolding the
stages: the two programs' dimension records are equal literals and their side conditions are propositions. -/

section
open Cert.ReferenceIdeal

/-! ### Edge lists and normalisation, layer by layer -/

theorem r_src1 (x1 : (⟨Cert.ReferenceIdeal.S2x800000, .i32⟩ : BufTy).Contents (Elt F)) : ReadP.val_main_v6 (F := F) x1 = srcAll x1 := rfl
theorem r_dst1 (x1 : (⟨Cert.ReferenceIdeal.S2x800000, .i32⟩ : BufTy).Contents (Elt F)) : ReadP.val_main_v7 (F := F) x1 = dstAll x1 := rfl
theorem r_nrm1 (x1 : (⟨Cert.ReferenceIdeal.S2x800000, .i32⟩ : BufTy).Contents (Elt F)) : ReadP.val_main_v35 (F := F) x1 = normOf x1 := rfl

theorem r_src2 (x1 : (⟨Cert.ReferenceIdeal.S2x800000, .i32⟩ : BufTy).Contents (Elt F)) : ReadP.val_main_v55 (F := F) x1 = srcAll x1 := rfl
theorem r_dst2 (x1 : (⟨Cert.ReferenceIdeal.S2x800000, .i32⟩ : BufTy).Contents (Elt F)) : ReadP.val_main_v56 (F := F) x1 = dstAll x1 := rfl
theorem r_nrm2 (x1 : (⟨Cert.ReferenceIdeal.S2x800000, .i32⟩ : BufTy).Contents (Elt F)) : ReadP.val_main_v84 (F := F) x1 = normOf x1 := rfl

theorem r_src3 (x1 : (⟨Cert.ReferenceIdeal.S2x800000, .i32⟩ : BufTy).Contents (Elt F)) : ReadP.val_main_v104 (F := F) x1 = srcAll x1 := rfl
theorem r_dst3 (x1 : (⟨Cert.ReferenceIdeal.S2x800000, .i32⟩ : BufTy).Contents (Elt F)) : ReadP.val_main_v105 (F := F) x1 = dstAll x1 := rfl
theorem r_nrm3 (x1 : (⟨Cert.ReferenceIdeal.S2x800000, .i32⟩ : BufTy).Contents (Elt F)) : ReadP.val_main_v133 (F := F) x1 = normOf x1 := rfl

/-! ### The three aggregations, each of the layer's own product -/

theorem r_agg1 (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S128x128, .f32⟩ : BufTy).Contents (Elt F)) :
    ReadP.val_main_v48 (F := F) x0 x1 x3
      = agg128 (ReadP.val_main_v4 (F := F) x0 x3) (srcAll x1) (dstAll x1) (normOf x1) := rfl

theorem r_agg2 (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) :
    ReadP.val_main_v97 (F := F) x0 x1 x3 x4 x5
      = agg128 (ReadP.val_main_v53 (F := F) x0 x1 x3 x4 x5) (srcAll x1) (dstAll x1) (normOf x1) := rfl

theorem r_agg3 (x0 : (⟨Cert.ReferenceIdeal.S50000x128, .f32⟩ : BufTy).Contents (Elt F)) (x1 : (⟨Cert.ReferenceIdeal.S2x800000, .i32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x64, .f32⟩ : BufTy).Contents (Elt F)) :
    ReadP.val_main_v146 (F := F) x0 x1 x3 x4 x5 x6 x7
      = agg64 (ReadP.val_main_v102 (F := F) x0 x1 x3 x4 x5 x6 x7) (srcAll x1) (dstAll x1) (normOf x1) := rfl

/-! ### The mean pool's division -/

theorem r_finish (x0 : (⟨Cert.ReferenceIdeal.S50000x128, .f32⟩ : BufTy).Contents (Elt F)) (x1 : (⟨Cert.ReferenceIdeal.S2x800000, .i32⟩ : BufTy).Contents (Elt F)) (x2 : (⟨Cert.ReferenceIdeal.S50000, .i32⟩ : BufTy).Contents (Elt F)) (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F)) (x7 : (⟨Cert.ReferenceIdeal.S128x64, .f32⟩ : BufTy).Contents (Elt F)) (x8 : (⟨Cert.ReferenceIdeal.S64, .f32⟩ : BufTy).Contents (Elt F)) :
    ReadP.val_main_v160 (F := F) x0 x1 x2 x3 x4 x5 x6 x7 x8
      = finish (ReadP.val_main_v156 (F := F) x0 x1 x2 x3 x4 x5 x6 x7 x8) x2 := rfl

end

end Cert.KernelIdeal.Hand

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.Bridge.RefIndex.lean ====
/-
  The reference network's four layer-closing stages, READ AT AN INDEX over the extended reals: the three dense layers'
  products as plain sums over the contracted feature axis — each later layer's left factor being the layer before's
  neighbourhood aggregate plus its bias, clamped at zero — and the graph pooling as the sum, over the nodes of a graph,
  of the node's last-layer row. The neighbourhood aggregates themselves are left as the stages that compute them.
-/
import proofs.«419337_j61838939128118_1_alg».proof.Proof.RefRead
import proofs.«419337_j61838939128118_1_alg».proof.Proof.LibGatherScatter

noncomputable section

namespace Cert.ReferenceIdeal.Hand

open Cert.ReferenceIdeal Cert.ReferenceIdeal.ReadP Idealize.ShloMosaic Idealize.ShloMosaic.ValueIdx
open scoped BigOperators

/-! ## The three dense layers' products, entry by entry

Over the extended reals a dense layer's product is the plain sum over the contracted feature axis. The first layer
multiplies the node features by its weights; each later layer first adds the bias to what the neighbourhood
aggregation of the layer before left, clamps at zero, and multiplies that by its weights. -/

/-- The contraction's left and right entries, by coordinates: entry `(r, j)` of a product reads row `r` of the left
    factor and column `j` of the right one at the same contracted coordinate `k`. -/
theorem lidx_v4 (r : Fin 50000) (j k : Fin 128) : lidx_main_v4 (ix2 r j) k = ix2 r k :=
  funext fun a => Fin.ext (by match a with | ⟨0, _⟩ => rfl | ⟨1, _⟩ => rfl)
theorem ridx_v4 (r : Fin 50000) (j k : Fin 128) : ridx_main_v4 (ix2 r j) k = ix2 k j :=
  funext fun a => Fin.ext (by match a with | ⟨0, _⟩ => rfl | ⟨1, _⟩ => rfl)
theorem lidx_v53 (r : Fin 50000) (j k : Fin 128) : lidx_main_v53 (ix2 r j) k = ix2 r k :=
  funext fun a => Fin.ext (by match a with | ⟨0, _⟩ => rfl | ⟨1, _⟩ => rfl)
theorem ridx_v53 (r : Fin 50000) (j k : Fin 128) : ridx_main_v53 (ix2 r j) k = ix2 k j :=
  funext fun a => Fin.ext (by match a with | ⟨0, _⟩ => rfl | ⟨1, _⟩ => rfl)
theorem lidx_v102 (r : Fin 50000) (j : Fin 64) (k : Fin 128) : lidx_main_v102 (ix2 r j) k = ix2 r k :=
  funext fun a => Fin.ext (by match a with | ⟨0, _⟩ => rfl | ⟨1, _⟩ => rfl)
theorem ridx_v102 (r : Fin 50000) (j : Fin 64) (k : Fin 128) : ridx_main_v102 (ix2 r j) k = ix2 k j :=
  funext fun a => Fin.ext (by match a with | ⟨0, _⟩ => rfl | ⟨1, _⟩ => rfl)

/-- A bias row broadcast over the nodes reads, at `(r, k)`, the bias's entry `k`. -/
theorem bias_v50 (x4 : FVec Ideal S128 .f32) (r : Fin 50000) (k : Fin 128) :
    val_main_v50 (F := Ideal) x4 (ix2 r k) = x4 (ix1 k) := by
  rw [val_main_v50_apply, val_main_v49_apply]
  exact congrArg x4 (funext fun a => Fin.ext (by match a with | ⟨0, _⟩ => rfl))
theorem bias_v99 (x6 : FVec Ideal S128 .f32) (r : Fin 50000) (k : Fin 128) :
    val_main_v99 (F := Ideal) x6 (ix2 r k) = x6 (ix1 k) := by
  rw [val_main_v99_apply, val_main_v98_apply]
  exact congrArg x6 (funext fun a => Fin.ext (by match a with | ⟨0, _⟩ => rfl))

/-- The first layer's product: entry `(r, j)` is the sum over the features `k` of node `r`'s feature times the
    weight `(k, j)`. -/
theorem ref_lin0 (x0 : FVec Ideal S50000x128 .f32) (x3 : FVec Ideal S128x128 .f32) (r : Fin 50000) (j : Fin 128) :
    val_main_v4 (F := Ideal) x0 x3 (ix2 r j) = ∑ k : Fin 128, x0 (ix2 r k) * x3 (ix2 k j) := by
  rw [val_main_v4_apply]
  refine Finset.sum_congr rfl fun k _ => ?_
  rw [lidx_v4, ridx_v4]

/-- The second layer's product: its left factor is the first layer's aggregate plus the bias, clamped at zero. -/
theorem ref_lin1 (x0 : FVec Ideal S50000x128 .f32) (x1 : IVec S2x800000 32) (x3 : FVec Ideal S128x128 .f32)
    (x4 : FVec Ideal S128 .f32) (x5 : FVec Ideal S128x128 .f32) (r : Fin 50000) (j : Fin 128) :
    val_main_v53 (F := Ideal) x0 x1 x3 x4 x5 (ix2 r j)
      = ∑ k : Fin 128, max (val_main_v48 (F := Ideal) x0 x1 x3 (ix2 r k) + x4 (ix1 k)) 0 * x5 (ix2 k j) := by
  rw [val_main_v53_apply]
  refine Finset.sum_congr rfl fun k _ => ?_
  rw [lidx_v53, ridx_v53, val_main_v52_apply, val_main_v51_apply, bias_v50, val_main_call1_v0_apply, val_main_call1_cst_apply]
  simp only [Ideal.addf_def, Ideal.maximumf_def]
  rw [show (FloatOps.ofBits (F := Ideal) .f32 0x00000000#32) = (0 : EReal) from Ideal.ofBits_zero_f32]

/-- The third layer's product: its left factor is the second layer's aggregate plus the bias, clamped at zero. -/
theorem ref_lin2 (x0 : FVec Ideal S50000x128 .f32) (x1 : IVec S2x800000 32) (x3 : FVec Ideal S128x128 .f32)
    (x4 : FVec Ideal S128 .f32) (x5 : FVec Ideal S128x128 .f32) (x6 : FVec Ideal S128 .f32) (x7 : FVec Ideal S128x64 .f32)
    (r : Fin 50000) (j : Fin 64) :
    val_main_v102 (F := Ideal) x0 x1 x3 x4 x5 x6 x7 (ix2 r j)
      = ∑ k : Fin 128, max (val_main_v97 (F := Ideal) x0 x1 x3 x4 x5 (ix2 r k) + x6 (ix1 k)) 0 * x7 (ix2 k j) := by
  rw [val_main_v102_apply]
  refine Finset.sum_congr rfl fun k _ => ?_
  rw [lidx_v102, ridx_v102, val_main_v101_apply, val_main_v100_apply, bias_v99, val_main_call3_v0_apply, val_main_call3_cst_apply]
  simp only [Ideal.addf_def, Ideal.maximumf_def]
  rw [show (FloatOps.ofBits (F := Ideal) .f32 0x00000000#32) = (0 : EReal) from Ideal.ofBits_zero_f32]

/-! ## The pooling sum, entry by entry

The graph pooling adds every node's last-layer row (aggregate plus bias) into the row of its graph, starting from
zeros: an accumulating scatter whose index column is the graph id of each node. Over the extended reals entry
`(g, d)` is therefore the sum, over the nodes `r` whose graph id is `g`, of node `r`'s entry `d`. An id is read as a
signed word, and one that names no row is dropped; for `g` below 512 "the id read signed is `g`" says exactly that the
word is `g`'s. -/

/-- A 32-bit word read signed is a number `g` below 512 exactly when it is `g`'s word. -/
theorem toInt_eq_iff (w : BitVec 32) (g : Fin 512) : w.toInt = (g.val : Int) ↔ w = BitVec.ofNat 32 g.val := by
  have hg : g.val < 512 := g.isLt
  have hw : w.toNat < 4294967296 := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-- The last layer's bias row broadcast over the nodes reads, at `(r, d)`, the bias's entry `d`. -/
theorem bias_v148 (x8 : FVec Ideal S64 .f32) (r : Fin 50000) (d : Fin 64) :
    val_main_v148 (F := Ideal) x8 (ix2 r d) = x8 (ix1 d) := by
  rw [val_main_v148_apply, val_main_v147_apply]
  exact congrArg x8 (funext fun a => Fin.ext (by match a with | ⟨0, _⟩ => rfl))

/-- The index column reads, at row `r`, node `r`'s graph id. -/
theorem ids_v155 (x2 : IVec S50000 32) (r : Fin 50000) : val_main_v155 (F := Ideal) x2 (ix2 r 0) = x2 (ix1 r) := by
  rw [val_main_v155_apply]
  exact congrArg x2 (funext fun a => Fin.ext (by match a with | ⟨0, _⟩ => rfl))

/-- The pooled sums: entry `(g, d)` adds up, over the nodes of graph `g`, the node's last-layer aggregate plus the bias. -/
theorem ref_pool (x0 : FVec Ideal S50000x128 .f32) (x1 : IVec S2x800000 32) (x2 : IVec S50000 32) (x3 : FVec Ideal S128x128 .f32)
    (x4 : FVec Ideal S128 .f32) (x5 : FVec Ideal S128x128 .f32) (x6 : FVec Ideal S128 .f32) (x7 : FVec Ideal S128x64 .f32)
    (x8 : FVec Ideal S64 .f32) (g : Fin 512) (d : Fin 64) :
    val_main_v156 (F := Ideal) x0 x1 x2 x3 x4 x5 x6 x7 x8 (ix2 g d)
      = ∑ r : Fin 50000, if x2 (ix1 r) = BitVec.ofNat 32 g.val
          then val_main_v146 (F := Ideal) x0 x1 x3 x4 x5 x6 x7 (ix2 r d) + x8 (ix1 d) else 0 := by
  refine (GatherScatter.rowScatterAdd_apply (φ := .f32) (N := 512) (C := 64) (M := 50000) (w := 32)
    Facts₀.scatter_S512x64_S50000x1_S50000x64_1_0_0_1_wf (val_main_v154 (F := Ideal)) (val_main_v155 (F := Ideal) x2)
    (val_main_v149 (F := Ideal) x0 x1 x3 x4 x5 x6 x7 x8) g d).trans ?_
  rw [val_main_v154_apply, val_main_cst_39_apply,
    show (FloatOps.ofBits (F := Ideal) .f32 0x00000000#32) = (0 : EReal) from Ideal.ofBits_zero_f32, zero_add, Finset.sum_filter]
  refine Finset.sum_congr rfl fun r _ => ?_
  refine if_congr ?_ ?_ rfl
  · rw [ids_v155]; exact toInt_eq_iff _ g
  · rw [val_main_v149_apply, bias_v148]; rfl

end Cert.ReferenceIdeal.Hand

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.Bridge.Layers.lean ====
import proofs.«419337_j61838939128118_1_alg».proof.Proof.KI.RunAll
import proofs.«419337_j61838939128118_1_alg».proof.Proof.KI.LinVal
import proofs.«419337_j61838939128118_1_alg».proof.Proof.KI.PoolVal
import proofs.«419337_j61838939128118_1_alg».proof.Proof.Bridge.HostChain
import proofs.«419337_j61838939128118_1_alg».proof.Proof.Bridge.RefChain
import proofs.«419337_j61838939128118_1_alg».proof.Proof.Bridge.RefIndex
import proofs.«419337_j61838939128118_1_alg».proof.Proof.LibKeepdimsColumn
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open scoped BigOperators

/-! # The kernel program's result is the reference's last stage

Layer by layer: each pallas_call's result array, read index by index, is the reference's stage of the same name in the
mathematics (a feature transform, after bias and relu from the second layer on; the pooled sums), and each host stretch
between two calls applies to it the reference's own aggregation. -/

variable (m : (ℓ : Loc nD τ sig) → Buf (Elt Ideal) ℓ) (c : Dev nD)

/-- The nine argument arrays as launched, at their literal types. -/
abbrev a0 : FVec Ideal S50000x128 .f32 := m ((c : Thread nD τ).loc main_arg0)
abbrev a1 : IVec S2x800000 32 := m ((c : Thread nD τ).loc main_arg1)
abbrev a2 : IVec S50000 32 := m ((c : Thread nD τ).loc main_arg2)
abbrev a3 : FVec Ideal S128x128 .f32 := m ((c : Thread nD τ).loc main_arg3)
abbrev a4 : FVec Ideal S128 .f32 := m ((c : Thread nD τ).loc main_arg4)
abbrev a5 : FVec Ideal S128x128 .f32 := m ((c : Thread nD τ).loc main_arg5)
abbrev a6 : FVec Ideal S128 .f32 := m ((c : Thread nD τ).loc main_arg6)
abbrev a7 : FVec Ideal S128x64 .f32 := m ((c : Thread nD τ).loc main_arg7)
abbrev a8 : FVec Ideal S64 .f32 := m ((c : Thread nD τ).loc main_arg8)

local notation "OU" => outs (F := Ideal) m

/-! ## What no item writes stays: the arguments, and the graph structure computed by the first host stretches -/

theorem V3_arg (r : Ref sig .tc) (h0 : r ∉ hostOps0_W) (h1 : r ∉ hostOps0_1_W) (h2 : r ∉ hostOps0_2_W) :
    Gen.V3 m c r = m ((c : Thread nD τ).loc r) :=
  (Gen.V3_of m c r h2).trans ((Gen.V2_of m c r h1).trans (Gen.V1_of m c r h0))

theorem V4_keep (r : Ref sig .tc) (h4 : r ∉ ([main_v36] : List (Ref sig .tc))) : Gen.V4 m OU c r = Gen.V3 m c r := Gen.V4_of m OU c r h4
theorem V5_keep (r : Ref sig .tc) (h5 : r ∉ hostOps1_W) (h4 : r ∉ ([main_v36] : List (Ref sig .tc))) : Gen.V5 m OU c r = Gen.V3 m c r :=
  (Gen.V5_of m OU c r h5).trans (V4_keep m c r h4)
theorem V6_keep (r : Ref sig .tc) (h6 : r ∉ ([main_v51] : List (Ref sig .tc))) (h5 : r ∉ hostOps1_W) (h4 : r ∉ ([main_v36] : List (Ref sig .tc))) :
    Gen.V6 m OU c r = Gen.V3 m c r := (Gen.V6_of m OU c r h6).trans (V5_keep m c r h5 h4)
theorem V7_keep (r : Ref sig .tc) (h7 : r ∉ hostOps2_W) (h6 : r ∉ ([main_v51] : List (Ref sig .tc))) (h5 : r ∉ hostOps1_W) (h4 : r ∉ ([main_v36] : List (Ref sig .tc))) :
    Gen.V7 m OU c r = Gen.V3 m c r := (Gen.V7_of m OU c r h7).trans (V6_keep m c r h6 h5 h4)
theorem V8_keep (r : Ref sig .tc) (h8 : r ∉ ([main_v66] : List (Ref sig .tc))) (h7 : r ∉ hostOps2_W) (h6 : r ∉ ([main_v51] : List (Ref sig .tc))) (h5 : r ∉ hostOps1_W)
    (h4 : r ∉ ([main_v36] : List (Ref sig .tc))) : Gen.V8 m OU c r = Gen.V3 m c r := (Gen.V8_of m OU c r h8).trans (V7_keep m c r h7 h6 h5 h4)
theorem V9_keep (r : Ref sig .tc) (h9 : r ∉ hostOps3_W) (h8 : r ∉ ([main_v66] : List (Ref sig .tc))) (h7 : r ∉ hostOps2_W) (h6 : r ∉ ([main_v51] : List (Ref sig .tc)))
    (h5 : r ∉ hostOps1_W) (h4 : r ∉ ([main_v36] : List (Ref sig .tc))) : Gen.V9 m OU c r = Gen.V3 m c r :=
  (Gen.V9_of m OU c r h9).trans (V8_keep m c r h8 h7 h6 h5 h4)
theorem V10_keep (r : Ref sig .tc) (h10 : r ∉ ([main_v81] : List (Ref sig .tc))) (h9 : r ∉ hostOps3_W) (h8 : r ∉ ([main_v66] : List (Ref sig .tc))) (h7 : r ∉ hostOps2_W)
    (h6 : r ∉ ([main_v51] : List (Ref sig .tc))) (h5 : r ∉ hostOps1_W) (h4 : r ∉ ([main_v36] : List (Ref sig .tc))) : Gen.V10 m OU c r = Gen.V3 m c r :=
  (Gen.V10_of m OU c r h10).trans (V9_keep m c r h9 h8 h7 h6 h5 h4)

/-- The graph structure the first host stretches compute: the edge lists with self loops and the symmetric
    normalisation, functions of the edge index alone; and the graph ids as a column. -/
theorem V3_src : Gen.V3 m c main_v5 = srcAll (a1 m c) := (k_stretch0 (F := Ideal) (Gen.V0 m c)).1
theorem V3_dst : Gen.V3 m c main_v6 = dstAll (a1 m c) := (k_stretch0 (F := Ideal) (Gen.V0 m c)).2.1
theorem V3_nrm : Gen.V3 m c main_v34 = normOf (F := Ideal) (a1 m c) := (k_stretch0 (F := Ideal) (Gen.V0 m c)).2.2.1
theorem V3_ids : Gen.V3 m c main_v35 = colOfIds (a2 m c) := (k_stretch0 (F := Ideal) (Gen.V0 m c)).2.2.2

/-! ## Layer 1 -/

/-- The first transform's result is the reference's first product. -/
theorem h36 : Gen.V4 m OU c main_v36 = Cert.ReferenceIdeal.ReadP.val_main_v4 (F := Ideal) (a0 m c) (a3 m c) := by
  refine (left0_out m c).symm.trans ?_
  funext i
  obtain ⟨r, j, rfl⟩ : ∃ (r : Fin 50000) (j : Fin 128), i = ix2 r j := ⟨i 0, i 1, eq_ix2 i⟩
  refine (lin0_final (atRefs (Gen.V3 m)) c r j).trans ?_
  rw [Cert.ReferenceIdeal.Hand.ref_lin0]
  have e0 : lin0X (atRefs (Gen.V3 m)) c = a0 m c := V3_arg m c main_arg0 (by decide) (by decide) (by decide)
  have e3 : lin0W (atRefs (Gen.V3 m)) c = a3 m c := V3_arg m c main_arg3 (by decide) (by decide) (by decide)
  rw [e0, e3]

/-- The aggregation after it is the reference's. -/
theorem h49 : Gen.V5 m OU c main_v49 = Cert.ReferenceIdeal.ReadP.val_main_v48 (F := Ideal) (a0 m c) (a1 m c) (a3 m c) := by
  refine ((k_stretch1 (F := Ideal) (Gen.V4 m OU c)).1).trans ?_
  rw [h36 m c, V4_keep m c main_v5 (by decide), V4_keep m c main_v6 (by decide), V4_keep m c main_v34 (by decide), V3_src, V3_dst, V3_nrm]
  exact (r_agg1 (F := Ideal) _ _ _).symm
theorem h50 : Gen.V5 m OU c main_v50 = rowOf128 (a4 m c) := by
  refine ((k_stretch1 (F := Ideal) (Gen.V4 m OU c)).2).trans ?_
  rw [V4_keep m c main_arg4 (by decide), V3_arg m c main_arg4 (by decide) (by decide) (by decide)]

/-- A bias row read at column `k`. -/
theorem rowOf128_apply (b : FVec Ideal S128 .f32) (k : Fin 128) : rowOf128 b (ix2 0 k) = b (ix1 k) := by
  unfold rowOf128; exact shapeCast_a_1a_apply b _ 0 k
theorem rowOf64_apply (b : FVec Ideal S64 .f32) (k : Fin 64) : rowOf64 b (ix2 0 k) = b (ix1 k) := by
  unfold rowOf64; exact shapeCast_a_1a_apply b _ 0 k
theorem colOfIds_apply (ids : IVec S50000 32) (r : Fin 50000) : colOfIds ids (ix2 r 0) = ids (ix1 r) := by
  unfold colOfIds; exact KeepdimsColumn.shapeCast_a_a1_apply ids _ r 0

/-! ## Layer 2 -/

theorem h51 : Gen.V6 m OU c main_v51 = Cert.ReferenceIdeal.ReadP.val_main_v53 (F := Ideal) (a0 m c) (a1 m c) (a3 m c) (a4 m c) (a5 m c) := by
  refine (left1_out m c).symm.trans ?_
  funext i
  obtain ⟨r, j, rfl⟩ : ∃ (r : Fin 50000) (j : Fin 128), i = ix2 r j := ⟨i 0, i 1, eq_ix2 i⟩
  refine (lin1_final (atRefs (Gen.V5 m OU)) c r j).trans ?_
  rw [Cert.ReferenceIdeal.Hand.ref_lin1]
  have eH : lin1H (atRefs (Gen.V5 m OU)) c = Cert.ReferenceIdeal.ReadP.val_main_v48 (F := Ideal) (a0 m c) (a1 m c) (a3 m c) := h49 m c
  have eB : lin1B (atRefs (Gen.V5 m OU)) c = rowOf128 (a4 m c) := h50 m c
  have eW : lin1W (atRefs (Gen.V5 m OU)) c = a5 m c :=
    (V5_keep m c main_arg5 (by decide) (by decide)).trans (V3_arg m c main_arg5 (by decide) (by decide) (by decide))
  rw [eH, eB, eW]
  exact Finset.sum_congr rfl fun k _ => by rw [rowOf128_apply]

theorem h64 : Gen.V7 m OU c main_v64 = Cert.ReferenceIdeal.ReadP.val_main_v97 (F := Ideal) (a0 m c) (a1 m c) (a3 m c) (a4 m c) (a5 m c) := by
  refine ((k_stretch2 (F := Ideal) (Gen.V6 m OU c)).1).trans ?_
  rw [h51 m c, V6_keep m c main_v5 (by decide) (by decide) (by decide), V6_keep m c main_v6 (by decide) (by decide) (by decide),
    V6_keep m c main_v34 (by decide) (by decide) (by decide), V3_src, V3_dst, V3_nrm]
  exact (r_agg2 (F := Ideal) _ _ _ _ _).symm
theorem h65 : Gen.V7 m OU c main_v65 = rowOf128 (a6 m c) := by
  refine ((k_stretch2 (F := Ideal) (Gen.V6 m OU c)).2).trans ?_
  rw [V6_keep m c main_arg6 (by decide) (by decide) (by decide), V3_arg m c main_arg6 (by decide) (by decide) (by decide)]

/-! ## Layer 3 -/

theorem h66 : Gen.V8 m OU c main_v66
    = Cert.ReferenceIdeal.ReadP.val_main_v102 (F := Ideal) (a0 m c) (a1 m c) (a3 m c) (a4 m c) (a5 m c) (a6 m c) (a7 m c) := by
  refine (left2_out m c).symm.trans ?_
  funext i
  obtain ⟨r, j, rfl⟩ : ∃ (r : Fin 50000) (j : Fin 64), i = ix2 r j := ⟨i 0, i 1, eq_ix2 i⟩
  refine (lin2_final (atRefs (Gen.V7 m OU)) c r j).trans ?_
  rw [Cert.ReferenceIdeal.Hand.ref_lin2]
  have eH : lin2H (atRefs (Gen.V7 m OU)) c = Cert.ReferenceIdeal.ReadP.val_main_v97 (F := Ideal) (a0 m c) (a1 m c) (a3 m c) (a4 m c) (a5 m c) := h64 m c
  have eB : lin2B (atRefs (Gen.V7 m OU)) c = rowOf128 (a6 m c) := h65 m c
  have eW : lin2W (atRefs (Gen.V7 m OU)) c = a7 m c :=
    (V7_keep m c main_arg7 (by decide) (by decide) (by decide) (by decide)).trans (V3_arg m c main_arg7 (by decide) (by decide) (by decide))
  rw [eH, eB, eW]
  exact Finset.sum_congr rfl fun k _ => by rw [rowOf128_apply]

theorem h79 : Gen.V9 m OU c main_v79
    = Cert.ReferenceIdeal.ReadP.val_main_v146 (F := Ideal) (a0 m c) (a1 m c) (a3 m c) (a4 m c) (a5 m c) (a6 m c) (a7 m c) := by
  refine ((k_stretch3 (F := Ideal) (Gen.V8 m OU c)).1).trans ?_
  rw [h66 m c, V8_keep m c main_v5 (by decide) (by decide) (by decide) (by decide) (by decide),
    V8_keep m c main_v6 (by decide) (by decide) (by decide) (by decide) (by decide),
    V8_keep m c main_v34 (by decide) (by decide) (by decide) (by decide) (by decide), V3_src, V3_dst, V3_nrm]
  exact (r_agg3 (F := Ideal) _ _ _ _ _ _ _).symm
theorem h80 : Gen.V9 m OU c main_v80 = rowOf64 (a8 m c) := by
  refine ((k_stretch3 (F := Ideal) (Gen.V8 m OU c)).2).trans ?_
  rw [V8_keep m c main_arg8 (by decide) (by decide) (by decide) (by decide) (by decide), V3_arg m c main_arg8 (by decide) (by decide) (by decide)]

/-! ## The pooled sums and the mean -/

theorem h81 : Gen.V10 m OU c main_v81
    = Cert.ReferenceIdeal.ReadP.val_main_v156 (F := Ideal) (a0 m c) (a1 m c) (a2 m c) (a3 m c) (a4 m c) (a5 m c) (a6 m c) (a7 m c) (a8 m c) := by
  refine (left3_out m c).symm.trans ?_
  funext i
  obtain ⟨g, d, rfl⟩ : ∃ (g : Fin 512) (d : Fin 64), i = ix2 g d := ⟨i 0, i 1, eq_ix2 i⟩
  refine (pool_final (atRefs (Gen.V9 m OU)) c g d).trans ?_
  rw [Cert.ReferenceIdeal.Hand.ref_pool]
  have eH : poolH (atRefs (Gen.V9 m OU)) c = Cert.ReferenceIdeal.ReadP.val_main_v146 (F := Ideal) (a0 m c) (a1 m c) (a3 m c) (a4 m c) (a5 m c) (a6 m c) (a7 m c) := h79 m c
  have eB : poolB (atRefs (Gen.V9 m OU)) c = rowOf64 (a8 m c) := h80 m c
  have eI : poolIds (atRefs (Gen.V9 m OU)) c = colOfIds (a2 m c) :=
    (V9_keep m c main_v35 (by decide) (by decide) (by decide) (by decide) (by decide) (by decide)).trans (V3_ids m c)
  rw [eH, eB, eI]
  exact Finset.sum_congr rfl fun r _ => by rw [rowOf64_apply, colOfIds_apply]

/-- THE RESULT: what the kernel program leaves in its result buffer is the reference's last stage of the same
    arguments. -/
theorem result_eq : Gen.V13 m OU c main_v89
    = Cert.ReferenceIdeal.ReadP.val_main_v160 (F := Ideal) (a0 m c) (a1 m c) (a2 m c) (a3 m c) (a4 m c) (a5 m c) (a6 m c) (a7 m c) (a8 m c) := by
  refine (k_stretch4 (F := Ideal) (Gen.V10 m OU c)).trans ?_
  rw [h81 m c, V10_keep m c main_arg2 (by decide) (by decide) (by decide) (by decide) (by decide) (by decide) (by decide),
    V3_arg m c main_arg2 (by decide) (by decide) (by decide)]
  exact (r_finish (F := Ideal) _ _ _ _ _ _ _ _ _).symm

end Cert.KernelIdeal.Hand

end
-- ==== Proof.Bridge.Final.lean ====
import proofs.«419337_j61838939128118_1_alg».proof.Proof.Bridge.Layers
import proofs.«419337_j61838939128118_1_alg».proof.Proof.RefRun
import proofs.«419337_j61838939128118_1_alg».proof.Proof.RefRead

set_option maxRecDepth 16384

noncomputable section

namespace Cert.KernelIdeal.Hand

open Cert.KernelIdeal Cert.KernelIdeal.Gen
open Idealize.ShloMosaic Idealize.ShloMosaic.TcCoe Idealize.SL.Sem

/-! # The two runs end at one array -/

variable (m : (ℓ : Loc nD τ sig) → Buf (Elt Ideal) ℓ)

/-- The kernel program's run with its result buffer named: the last valuation at `main_v89`; the arguments end as
    launched. -/
theorem run_result (ρ : Dev nD → PrngReg) :
    θ_run defs (onTc (τ := τ) (main (F := Ideal))) ⟨m, fun _ => 0, ρ⟩ (fun r => ∀ c : Dev nD,
      r.2.mem ((c.tc : Thread nD τ).loc main_v89) = Gen.V13 m (outs m) c main_v89
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v89 (by decide)),
     (h c _ (mem_uc main_arg0 (by decide))).trans (Gen.V13_main_arg0 m (outs m) c),
     (h c _ (mem_uc main_arg1 (by decide))).trans (Gen.V13_main_arg1 m (outs m) c),
     (h c _ (mem_uc main_arg2 (by decide))).trans (Gen.V13_main_arg2 m (outs m) c),
     (h c _ (mem_uc main_arg3 (by decide))).trans (Gen.V13_main_arg3 m (outs m) c),
     (h c _ (mem_uc main_arg4 (by decide))).trans (Gen.V13_main_arg4 m (outs m) c),
     (h c _ (mem_uc main_arg5 (by decide))).trans (Gen.V13_main_arg5 m (outs m) c),
     (h c _ (mem_uc main_arg6 (by decide))).trans (Gen.V13_main_arg6 m (outs m) c),
     (h c _ (mem_uc main_arg7 (by decide))).trans (Gen.V13_main_arg7 m (outs m) c),
     (h c _ (mem_uc main_arg8 (by decide))).trans (Gen.V13_main_arg8 m (outs m) c)⟩) (run_all m ρ)

/-- The reference's result term, from a memory that agrees with the kernel program's on the nine arguments, is the
    kernel program's result. -/
theorem ref_result (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    Cert.ReferenceIdeal.RunP.res_main_v160 (F := Ideal) m' c = Gen.V13 m (outs m) c main_v89 := by
  rw [Cert.ReferenceIdeal.ReadP.val_main_v160_eq, h0, h1, h2, h3, h4, h5, h6, h7, h8]
  exact (result_eq m c).symm

end Cert.KernelIdeal.Hand

end
-- ==== Proof.lean ====
/-
  A three-layer graph convolution (per layer: a feature transform, a degree-normalised gather / scale / segment-sum over the
  edges with self loops, a bias and a relu) followed by a mean pool over graph ids, computed by four Pallas calls among
  host operations, against the plain jnp program.

  The kernel side tiles each feature transform over ten blocks of 5000 rows and expresses the pooled sums as a one-hot
  matrix product accumulated over the ten row tiles; the reference uses whole-array products and a scatter-add. Over the
  extended reals the two are one function: a block of rows of a product is the product's rows; a product with a 0/1 matrix
  is the sum over the rows whose id matches (1 · x = x and 0 · x = 0 also at the infinities, so no finiteness is used); the
  aggregation between two calls is the same host operations on both sides.

  The frames: each call runs as a pipelined region between host stretches (Proof/K*/Segs.lean, RunAll.lean: the four region
  records over the generated conditional host side); the reference's run is its generated read-back.
-/
import proofs.«419337_j61838939128118_1_alg».proof.Defs
import proofs.«419337_j61838939128118_1_alg».proof.Proof.Gen.Kernel
import proofs.«419337_j61838939128118_1_alg».proof.Proof.Gen.KernelIdeal
import proofs.«419337_j61838939128118_1_alg».proof.Proof.Gen.ReferenceIdeal
import proofs.«419337_j61838939128118_1_alg».proof.Proof.Gen.Pre_finite_inputs
import proofs.«419337_j61838939128118_1_alg».proof.Proof.K.RunAll
import proofs.«419337_j61838939128118_1_alg».proof.Proof.KI.RunAll
import proofs.«419337_j61838939128118_1_alg».proof.Proof.Bridge.Final
import proofs.«419337_j61838939128118_1_alg».proof.Proof.RefRun
import proofs.«419337_j61838939128118_1_alg».proof.Proof.RefRead
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- Both idealized programs end with the reference's last stage of the (agreeing) arguments in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.V13 m (Cert.KernelIdeal.Hand.outs m) c (Proc.devRef .tc Cert.KernelIdeal.main_v89),
    Cert.KernelIdeal.Hand.run_result m ρ, ?_⟩
  refine (θ_run Cert.ReferenceIdeal.defs _ _).mono (fun _ h c => ⟨(h c).1.trans ?_, (h c).2⟩)
    (Cert.ReferenceIdeal.RunP.run (F := Ideal) m' ρ')
  exact Cert.KernelIdeal.Hand.ref_result m m' c (hagree c).1 (hagree c).2.1 (hagree c).2.2.1 (hagree c).2.2.2.1 (hagree c).2.2.2.2.1
    (hagree c).2.2.2.2.2.1 (hagree c).2.2.2.2.2.2.1 (hagree c).2.2.2.2.2.2.2.1 (hagree c).2.2.2.2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
